-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x512x512 : Shape := ⟨4, ![8, 3, 512, 512]⟩
abbrev S8x1x512x512 : Shape := ⟨4, ![8, 1, 512, 512]⟩
abbrev S4x128 : Shape := ⟨2, ![4, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S8x3x512x512 : S_.BroadcastsInDim S8x3x512x512 (![] : Fin 0 → Fin S8x3x512x512.rank)
  reducesTo_S8x3x512x512_S_d0_1_2_3 : S8x3x512x512.ReducesTo [0, 1, 2, 3] S_
  h_S_ : 0 < S_.numel
  bcast_S_S8x1x512x512 : S_.BroadcastsInDim S8x1x512x512 (![] : Fin 0 → Fin S8x1x512x512.rank)
  reducesTo_S8x1x512x512_S_d0_1_2_3 : S8x1x512x512.ReducesTo [0, 1, 2, 3] S_
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x1 .f32) (main_arg7 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_v33

def fn {F : FTy → Type} [FloatOps F] (main_arg0 : FVec F S8x3x512x512 .f32) (main_arg1 : FVec F S8x1x512x512 .f32) (main_arg2 : FVec F S4x128 .f32) (main_arg3 : FVec F S128 .f32) (main_arg4 : FVec F S128x128 .f32) (main_arg5 : FVec F S128 .f32) (main_arg6 : FVec F S128x1 .f32) (main_arg7 : FVec F S1 .f32) : IVec S_ 1 :=
  let main_v0 : FVec F S8x3x512x512 .f32 := Host.absf main_arg0
  let main_cst : FVec F S_ .f32 := constant S_ .f32 0x7F800000#32
  let main_v1 : FVec F S8x3x512x512 .f32 := broadcastInDim S8x3x512x512 ![] bcast_S_S8x3x512x512 main_cst
  let main_v2 : IVec S8x3x512x512 1 := cmpf .olt main_v0 main_v1
  let main_c : IVec S_ 1 := constantI S_ 1 1#1
  let main_v3 : IVec S_ 1 := (fun x v => Host.reduce IntOp.andi x v reducesTo_S8x3x512x512_S_d0_1_2_3 h_S_) main_v2 main_c
  let main_v4 : FVec F S8x1x512x512 .f32 := Host.absf main_arg1
  let main_cst_0 : FVec F S_ .f32 := constant S_ .f32 0x7F800000#32
  let main_v5 : FVec F S8x1x512x512 .f32 := broadcastInDim S8x1x512x512 ![] bcast_S_S8x1x512x512 main_cst_0
  let main_v6 : IVec S8x1x512x512 1 := cmpf .olt main_v4 main_v5
  let main_c_1 : IVec S_ 1 := constantI S_ 1 1#1
  let main_v7 : IVec S_ 1 := (fun x v => Host.reduce IntOp.andi x v reducesTo_S8x1x512x512_S_d0_1_2_3 h_S_) main_v6 main_c_1
  let main_v8 : IVec S_ 1 := andi main_v3 main_v7
  let main_v9 : FVec F S4x128 .f32 := Host.absf main_arg2
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S8x3x512x512 : Shape := ⟨4, ![8, 3, 512, 512]⟩
abbrev S8x1x512x512 : Shape := ⟨4, ![8, 1, 512, 512]⟩
abbrev S4x128 : Shape := ⟨2, ![4, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S2097152 : Shape := ⟨1, ![2097152]⟩
abbrev S2097152x1 : Shape := ⟨2, ![2097152, 1]⟩
abbrev S8x4x512x512 : Shape := ⟨4, ![8, 4, 512, 512]⟩
abbrev S8x512x512x4 : Shape := ⟨4, ![8, 512, 512, 4]⟩
abbrev S2097152x4 : Shape := ⟨2, ![2097152, 4]⟩
abbrev S1x128 : Shape := ⟨2, ![1, 128]⟩
abbrev S1x1 : Shape := ⟨2, ![1, 1]⟩
abbrev S8192x4 : Shape := ⟨2, ![8192, 4]⟩
abbrev S8192x1 : Shape := ⟨2, ![8192, 1]⟩
abbrev S8192x128 : Shape := ⟨2, ![8192, 128]⟩

abbrev nBuf : Space → Nat
  | .hbm => 53
  | .vmem => 12
  | .smem => 0
  | _ => 0

abbrev bufTy : (tb : Table) → Fin (tcTables nBuf tb) → BufTy
  | .hbm, ⟨0, _⟩ => ⟨S8x3x512x512, .f32⟩
  | .hbm, ⟨1, _⟩ => ⟨S8x1x512x512, .f32⟩
  | .hbm, ⟨2, _⟩ => ⟨S4x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S_, .f32⟩
  | .hbm, ⟨9, _⟩ => ⟨S8x1x512x512, .f32⟩
  | .hbm, ⟨10, _⟩ => ⟨S8x1x512x512, .i1⟩
  | .hbm, ⟨11, _⟩ => ⟨S_, .f32⟩
  | .hbm, ⟨12, _⟩ => ⟨S8x1x512x512, .f32⟩
  | .hbm, ⟨13, _⟩ => ⟨S8x1x512x512, .i1⟩
  | .hbm, ⟨14, _⟩ => ⟨S8x1x512x512, .i1⟩
  | .hbm, ⟨15, _⟩ => ⟨S8x1x512x512, .f32⟩
  | .hbm, ⟨16, _⟩ => ⟨S_, .f32⟩
  | .hbm, ⟨17, _⟩ => ⟨S_, .f32⟩
  | .hbm, ⟨18, _⟩ => ⟨S8x1x512x512, .f32⟩
  | .hbm, ⟨19, _⟩ => ⟨S2097152, .f32⟩
  | .hbm, ⟨20, _⟩ => ⟨S_, .f32⟩
  | .hbm, ⟨21, _⟩ => ⟨S2097152, .f32⟩
  | .hbm, ⟨22, _⟩ => ⟨S2097152, .i1⟩
  | .hbm, ⟨23, _⟩ => ⟨S2097152, .i32⟩
  | .hbm, ⟨24, _⟩ => ⟨S_, .i32⟩
  | .hbm, ⟨25, _⟩ => ⟨S_, .i32⟩
  | .hbm, ⟨26, _⟩ => ⟨S2097152, .i32⟩
  | .hbm, ⟨27, _⟩ => ⟨S_, .f32⟩
  | .hbm, ⟨28, _⟩ => ⟨S2097152, .f32⟩
  | .hbm, ⟨29, _⟩ => ⟨S2097152, .i1⟩
  | .hbm, ⟨30, _⟩ => ⟨S_, .i32⟩
  | .hbm, ⟨31, _⟩ => ⟨S2097152, .i32⟩
  | .hbm, ⟨32, _⟩ => ⟨S2097152, .i1⟩
  | .hbm, ⟨33, _⟩ => ⟨S2097152, .i1⟩
  | .hbm, ⟨34, _⟩ => ⟨S2097152, .f32⟩
  | .hbm, ⟨35, _⟩ => ⟨S2097152x1, .f32⟩
  | .hbm, ⟨36, _⟩ => ⟨S_, .f32⟩
  | .hbm, ⟨37, _⟩ => ⟨S8x1x512x512, .f32⟩
  | .hbm, ⟨38, _⟩ => ⟨S8x1x512x512, .f32⟩
  | .hbm, ⟨39, _⟩ => ⟨S_, .f32⟩
  | .hbm, ⟨40, _⟩ => ⟨S8x1x512x512, .f32⟩
  | .hbm, ⟨41, _⟩ => ⟨S8x1x512x512, .f32⟩
  | .hbm, ⟨42, _⟩ => ⟨S8x4x512x512, .f32⟩
  | .hbm, ⟨43, _⟩ => ⟨S8x512x512x4, .f32⟩
  | .hbm, ⟨44, _⟩ => ⟨S2097152x4, .f32⟩
  | .hbm, ⟨45, _⟩ => ⟨S4x128, .bf16⟩
  | .hbm, ⟨46, _⟩ => ⟨S128x128, .bf16⟩
  | .hbm, ⟨47, _⟩ => ⟨S128x1, .bf16⟩
  | .hbm, ⟨48, _⟩ => ⟨S1x128, .f32⟩
  | .hbm, ⟨49, _⟩ => ⟨S1x128, .f32⟩
  | .hbm, ⟨50, _⟩ => ⟨S1x1, .f32⟩
  | .hbm, ⟨51, _⟩ => ⟨S2097152x1, .f32⟩
  | .hbm, ⟨52, _⟩ => ⟨S8x1x512x512, .f32⟩
  | .local _ .vmem, ⟨0, _⟩ => ⟨S8192x4, .f32⟩
  | .local _ .vmem, ⟨1, _⟩ => ⟨S8192x4, .f32⟩
  | .local _ .vmem, ⟨2, _⟩ => ⟨S8192x1, .f32⟩
  | .local _ .vmem, ⟨3, _⟩ => ⟨S8192x1, .f32⟩
  | .local _ .vmem, ⟨4, _⟩ => ⟨S4x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S128x1, .bf16⟩
  | .local _ .vmem, ⟨9, _⟩ => ⟨S1x1, .f32⟩
  | .local _ .vmem, ⟨10, _⟩ => ⟨S8192x1, .f32⟩
  | .local _ .vmem, ⟨11, _⟩ => ⟨S8192x1, .f32⟩
  | _, _ => ⟨S8x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call0_call0_c : Ref sig .tc := ⟨.hbm, 24, rfl⟩
abbrev main_call0_call0_v0 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8192x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S8x1x512x512 : S_.BroadcastsInDim S8x1x512x512 (![] : Fin 0 → Fin S8x1x512x512.rank)
  bcast_S_S_ : S_.BroadcastsInDim S_ (![] : Fin 0 → Fin S_.rank)
  reduceWindows_S8x1x512x512_S8x1x512x512_w1s1p0_0_w1s1p0_0_w15s1p7_7_w15s1p7_7 : S8x1x512x512.ReduceWindows (![1, 1, 15, 15] : Fin 4 → Nat) ![1, 1, 1, 1] ![0, 0, 7, 7] ![0, 0, 7, 7] S8x1x512x512
  h_S_ : 0 < S_.numel
  shapeCasts_S8x1x512x512_S2097152 : S8x1x512x512.ShapeCasts S2097152
  bcast_S_S2097152 : S_.BroadcastsInDim S2097152 (![] : Fin 0 → Fin S2097152.rank)
  natLt_1_32 : 1 < 32
  reduceWindows_S2097152_S2097152_w2097152s1p2097151_0 : S2097152.ReduceWindows (![2097152] : Fin 1 → Nat) ![1] ![2097151] ![0] S2097152
  shapeCasts_S2097152_S2097152x1 : S2097152.ShapeCasts S2097152x1
  concatenates_S8x3x512x512_S8x1x512x512_S8x4x512x512_d1 : Shape.Concatenates [S8x3x512x512, S8x1x512x512] S8x4x512x512 1
  transposes_S8x4x512x512_S8x512x512x4_0_2_3_1 : S8x4x512x512.Transposes [0, 2, 3, 1] S8x512x512x4
  shapeCasts_S8x512x512x4_S2097152x4 : S8x512x512x4.ShapeCasts S2097152x4
  bitsLt_bf16_f32 : FTy.bits .bf16 < FTy.bits .f32
  shapeCasts_S128_S1x128 : S128.ShapeCasts S1x128
  shapeCasts_S1_S1x1 : S1.ShapeCasts S1x1
  inb_S8192x4_S8192x4_0_0 : ∀ a, (![0, 0] : Fin 2 → Nat) a + S8192x4.size a ≤ S8192x4.size a
  h_S8192x4 : 0 < S8192x4.numel
  shapeCasts_S8192x4_S8192x4 : S8192x4.ShapeCasts S8192x4
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  slices_S8192x4_o0_3_S8192x1 : S8192x4.Slices ![0, 3] S8192x1
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  shapeCasts_S2097152x1_S8x1x512x512 : S2097152x1.ShapeCasts S8x1x512x512
  dot_S8192x4_S4x128_S8192x128_1_0_0_1_n_n_wf : DotDims.WF S8192x4 S4x128 S8192x128 [1] [0] [0] [1] [] []
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x4.size a ≤ S2097152x4.size a
  hwx0_0 : ∀ i : grid0.Coords, EltTy.bits .f32 = 32 ∨ (Rect.block (s := S2097152x4) S8192x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S2097152x1.size a
  hwx0_1 : ∀ i : grid0.Coords, EltTy.bits .f32 = 32 ∨ (Rect.block (s := S2097152x1) S8192x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128.size a ≤ S4x128.size a
  hwx0_2 : ∀ i : grid0.Coords, EltTy.bits .bf16 = 32 ∨ (Rect.block (s := S4x128) S4x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .bf16 = 32 ∨ (Rect.block (s := S128x1) S128x1.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8192x1.size a ≤ S2097152x1.size a
  hwx0_8 : ∀ i : grid0.Coords, EltTy.bits .f32 = 32 ∨ (Rect.block (s := S2097152x1) S8192x1.size (cc0_transform_8 i) (hinb0_8 i)).WholeWords (EltTy.packing .f32)

variable [Facts₀]

def dot_S8192x4_S4x128_S8192x128_1_0_0_1_n_n : DotDims S8192x4 S4x128 S8192x128 where
  lhsContracting := [1]
  rhsContracting := [0]
  lhsNonContracting := [0]
  rhsNonContracting := [1]
  lhsBatch := []
  rhsBatch := []
  wf := dot_S8192x4_S4x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

abbrev win0_0 : Pipeline.Window sig grid0 :=
  Pipeline.Window.ofSpec (Memref.whole main_v26) S8192x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S4x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33) S8192x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x3x512x512 : Shape := ⟨4, ![8, 3, 512, 512]⟩
abbrev S8x1x512x512 : Shape := ⟨4, ![8, 1, 512, 512]⟩
abbrev S4x128 : Shape := ⟨2, ![4, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S8x4x512x512 : Shape := ⟨4, ![8, 4, 512, 512]⟩
abbrev S8x512x512x4 : Shape := ⟨4, ![8, 512, 512, 4]⟩
abbrev S2097152x4 : Shape := ⟨2, ![2097152, 4]⟩
abbrev S2097152 : Shape := ⟨1, ![2097152]⟩
abbrev S1048576 : Shape := ⟨1, ![1048576]⟩
abbrev S2097152x1 : Shape := ⟨2, ![2097152, 1]⟩
abbrev S1048576x1 : Shape := ⟨2, ![1048576, 1]⟩
abbrev S1048576x4 : Shape := ⟨2, ![1048576, 4]⟩
abbrev S1048576x128 : Shape := ⟨2, ![1048576, 128]⟩
abbrev S1x128 : Shape := ⟨2, ![1, 128]⟩
abbrev S1x1 : Shape := ⟨2, ![1, 1]⟩

abbrev nBuf : Space → Nat
  | .hbm => 187
  | .vmem => 0
  | .smem => 0
  | _ => 0

abbrev hbmTy0_0 (i : Nat) : BufTy := match i % 128 with
  | 0 => ⟨S8x3x512x512, .f32⟩
  | 1 => ⟨S8x1x512x512, .f32⟩
  | 2 => ⟨S4x128, .f32⟩
  | 3 => ⟨S128, .f32⟩
  | 4 => ⟨S128x128, .f32⟩
  | 5 => ⟨S128, .f32⟩
  | 6 => ⟨S128x1, .f32⟩
  | 7 => ⟨S1, .f32⟩
  | 8 => ⟨S_, .f32⟩
  | 9 => ⟨S8x1x512x512, .f32⟩
  | 10 => ⟨S8x1x512x512, .i1⟩
  | 11 => ⟨S_, .f32⟩
  | 12 => ⟨S8x1x512x512, .f32⟩
  | 13 => ⟨S8x1x512x512, .i1⟩
  | 14 => ⟨S8x1x512x512, .i1⟩
  | 15 => ⟨S8x1x512x512, .f32⟩
  | 16 => ⟨S_, .f32⟩
  | 17 => ⟨S_, .f32⟩
  | 18 => ⟨S8x1x512x512, .f32⟩
  | 19 => ⟨S_, .f32⟩
  | 20 => ⟨S8x1x512x512, .f32⟩
  | 21 => ⟨S8x1x512x512, .f32⟩
  | 22 => ⟨S_, .f32⟩
  | 23 => ⟨S8x1x512x512, .f32⟩
  | 24 => ⟨S8x1x512x512, .f32⟩
  | 25 => ⟨S8x4x512x512, .f32⟩
  | 26 => ⟨S8x512x512x4, .f32⟩
  | 27 => ⟨S2097152x4, .f32⟩
  | 28 => ⟨S2097152, .f32⟩
  | 29 => ⟨S_, .f32⟩
  | 30 => ⟨S2097152, .f32⟩
  | 31 => ⟨S2097152, .i1⟩
  | 32 => ⟨S2097152, .i32⟩
  | 33 => ⟨S_, .i32⟩
  | 34 => ⟨S_, .i32⟩
  | 35 => ⟨S2097152, .i32⟩
  | 36 => ⟨S_, .i32⟩
  | 37 => ⟨S1048576, .i32⟩
  | 38 => ⟨S_, .i32⟩
  | 39 => ⟨S_, .i32⟩
  | 40 => ⟨S2097152, .i32⟩
  | 41 => ⟨S2097152, .i32⟩
  | 42 => ⟨S_, .i32⟩
  | 43 => ⟨S2097152, .i32⟩
  | 44 => ⟨S2097152, .i1⟩
  | 45 => ⟨S_, .i32⟩
  | 46 => ⟨S2097152, .i32⟩
  | 47 => ⟨S2097152, .i32⟩
  | 48 => ⟨S2097152, .i32⟩
  | 49 => ⟨S2097152x1, .i32⟩
  | 50 => ⟨S_, .i32⟩
  | 51 => ⟨S2097152, .i32⟩
  | 52 => ⟨S1048576, .i32⟩
  | 53 => ⟨S_, .i32⟩
  | 54 => ⟨S_, .i32⟩
  | 55 => ⟨S1048576, .i32⟩
  | 56 => ⟨S_, .i32⟩
  | 57 => ⟨S1048576, .i32⟩
  | 58 => ⟨S1048576, .i32⟩
  | 59 => ⟨S1048576, .i32⟩
  | 60 => ⟨S_, .i32⟩
  | 61 => ⟨S1048576, .i32⟩
  | 62 => ⟨S1048576, .i1⟩
  | 63 => ⟨S1048576, .i32⟩
  | 64 => ⟨S1048576, .i32⟩
  | 65 => ⟨S_, .i32⟩
  | 66 => ⟨S1048576, .i32⟩
  | 67 => ⟨S1048576, .i1⟩
  | 68 => ⟨S1048576, .i1⟩
  | 69 => ⟨S_, .i32⟩
  | 70 => ⟨S1048576, .i32⟩
  | 71 => ⟨S1048576, .i32⟩
  | 72 => ⟨S1048576, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S1048576, .i32⟩
  | 80 => ⟨S1048576, .i32⟩
  | 81 => ⟨S_, .i32⟩
  | 82 => ⟨S1048576, .i32⟩
  | 83 => ⟨S1048576, .i1⟩
  | 84 => ⟨S_, .i32⟩
  | 85 => ⟨S1048576, .i32⟩
  | 86 => ⟨S1048576, .i1⟩
  | 87 => ⟨S_, .i32⟩
  | 88 => ⟨S_, .i1⟩
  | 89 => ⟨S1048576, .i1⟩
  | 90 => ⟨S1048576, .i1⟩
  | 91 => ⟨S1048576, .i1⟩
  | 92 => ⟨S1048576, .i32⟩
  | 93 => ⟨S1048576, .i32⟩
  | 94 => ⟨S1048576, .i32⟩
  | 95 => ⟨S1048576, .i32⟩
  | 96 => ⟨S2097152, .i32⟩
  | 97 => ⟨S_, .i32⟩
  | 98 => ⟨S_, .i32⟩
  | 99 => ⟨S1048576, .i32⟩
  | 100 => ⟨S1048576, .i1⟩
  | 101 => ⟨S_, .i32⟩
  | 102 => ⟨S_, .i32⟩
  | 103 => ⟨S1048576, .i32⟩
  | 104 => ⟨S1048576, .i32⟩
  | 105 => ⟨S_, .f32⟩
  | 106 => ⟨S2097152, .f32⟩
  | 107 => ⟨S2097152, .i1⟩
  | 108 => ⟨S2097152, .i32⟩
  | 109 => ⟨S_, .i32⟩
  | 110 => ⟨S_, .i32⟩
  | 111 => ⟨S1048576, .i32⟩
  | 112 => ⟨S1048576, .i32⟩
  | 113 => ⟨S1048576, .i1⟩
  | 114 => ⟨S1048576, .f32⟩
  | 115 => ⟨S_, .i32⟩
  | 116 => ⟨S1048576, .i32⟩
  | 117 => ⟨S1048576, .i1⟩
  | 118 => ⟨S_, .i32⟩
  | 119 => ⟨S1048576, .i32⟩
  | 120 => ⟨S1048576, .i32⟩
  | 121 => ⟨S1048576, .i32⟩
  | 122 => ⟨S1048576x1, .i32⟩
  | 123 => ⟨S1048576x4, .f32⟩
  | 124 => ⟨S1048576x128, .f32⟩
  | 125 => ⟨S1x128, .f32⟩
  | 126 => ⟨S1048576x128, .f32⟩
  | 127 => ⟨S1048576x128, .f32⟩
  | _ => ⟨S8x3x512x512, .f32⟩

abbrev hbmTy0_1 (i : Nat) : BufTy := match i % 128 with
  | 0 => ⟨S_, .f32⟩
  | 1 => ⟨S1048576x128, .f32⟩
  | 2 => ⟨S1048576x128, .f32⟩
  | 3 => ⟨S1048576x128, .f32⟩
  | 4 => ⟨S1x128, .f32⟩
  | 5 => ⟨S1048576x128, .f32⟩
  | 6 => ⟨S1048576x128, .f32⟩
  | 7 => ⟨S_, .f32⟩
  | 8 => ⟨S1048576x128, .f32⟩
  | 9 => ⟨S1048576x128, .f32⟩
  | 10 => ⟨S1048576x1, .f32⟩
  | 11 => ⟨S1x1, .f32⟩
  | 12 => ⟨S1048576x1, .f32⟩
  | 13 => ⟨S1048576x1, .f32⟩
  | 14 => ⟨S1048576x1, .f32⟩
  | 15 => ⟨S1048576x1, .f32⟩
  | 16 => ⟨S_, .f32⟩
  | 17 => ⟨S1048576x1, .f32⟩
  | 18 => ⟨S1048576x1, .f32⟩
  | 19 => ⟨S_, .f32⟩
  | 20 => ⟨S1048576x1, .f32⟩
  | 21 => ⟨S1048576x1, .f32⟩
  | 22 => ⟨S1048576, .f32⟩
  | 23 => ⟨S_, .f32⟩
  | 24 => ⟨S2097152, .f32⟩
  | 25 => ⟨S1048576, .f32⟩
  | 26 => ⟨S_, .i32⟩
  | 27 => ⟨S1048576, .i32⟩
  | 28 => ⟨S1048576, .i1⟩
  | 29 => ⟨S_, .i32⟩
  | 30 => ⟨S1048576, .i32⟩
  | 31 => ⟨S1048576, .i32⟩
  | 32 => ⟨S1048576, .i32⟩
  | 33 => ⟨S1048576x1, .i32⟩
  | 34 => ⟨S2097152, .f32⟩
  | 35 => ⟨S_, .f32⟩
  | 36 => ⟨S2097152, .f32⟩
  | 37 => ⟨S_, .i32⟩
  | 38 => ⟨S1048576, .i32⟩
  | 39 => ⟨S1048576, .i1⟩
  | 40 => ⟨S_, .i32⟩
  | 41 => ⟨S1048576, .i32⟩
  | 42 => ⟨S1048576, .i32⟩
  | 43 => ⟨S1048576, .i32⟩
  | 44 => ⟨S1048576x1, .i32⟩
  | 45 => ⟨S2097152, .f32⟩
  | 46 => ⟨S2097152, .f32⟩
  | 47 => ⟨S_, .f32⟩
  | 48 => ⟨S2097152, .f32⟩
  | 49 => ⟨S2097152, .f32⟩
  | 50 => ⟨S2097152, .f32⟩
  | 51 => ⟨S2097152, .f32⟩
  | 52 => ⟨S2097152, .f32⟩
  | 53 => ⟨S_, .f32⟩
  | 54 => ⟨S2097152, .f32⟩
  | 55 => ⟨S2097152, .f32⟩
  | 56 => ⟨S2097152, .f32⟩
  | 57 => ⟨S2097152, .f32⟩
  | 58 => ⟨S8x1x512x512, .f32⟩
  | _ => ⟨S8x3x512x512, .f32⟩

abbrev hbmTy (i : Nat) : BufTy := match i / 128 with
  | 0 => hbmTy0_0 i
  | 1 => hbmTy0_1 i
  | _ => ⟨S8x3x512x512, .f32⟩

abbrev bufTy : (tb : Table) → Fin (tcTables nBuf tb) → BufTy
  | .hbm, ⟨i, _⟩ => hbmTy i
  | _, _ => ⟨S8x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_call0_v0 : Ref sig .tc := ⟨.hbm, 32, rfl⟩
abbrev main_call0_call0_c : Ref sig .tc := ⟨.hbm, 33, rfl⟩
abbrev main_call0_call0_v0 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_c_5 : Ref sig .tc := ⟨.hbm, 38, rfl⟩
abbrev main_call1_v0 : Ref sig .tc := ⟨.hbm, 39, rfl⟩
abbrev main_call1_v1 : Ref sig .tc := ⟨.hbm, 40, rfl⟩
abbrev main_v20 : Ref sig .tc := ⟨.hbm, 41, rfl⟩
abbrev main_c_6 : Ref sig .tc := ⟨.hbm, 42, rfl⟩
abbrev main_v21 : Ref sig .tc := ⟨.hbm, 43, rfl⟩
abbrev main_v22 : Ref sig .tc := ⟨.hbm, 44, rfl⟩
abbrev main_c_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_8 : Ref sig .tc := ⟨.hbm, 50, rfl⟩
abbrev main_v27 : Ref sig .tc := ⟨.hbm, 51, rfl⟩
abbrev main_v28 : Ref sig .tc := ⟨.hbm, 52, rfl⟩
abbrev main_call2_call0_c : Ref sig .tc := ⟨.hbm, 53, rfl⟩
abbrev main_call2_call0_v0 : Ref sig .tc := ⟨.hbm, 54, rfl⟩
abbrev main_v29 : Ref sig .tc := ⟨.hbm, 55, rfl⟩
abbrev main_c_9 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_call3_v5 : Ref sig .tc := ⟨.hbm, 62, rfl⟩
abbrev main_call3_v6 : Ref sig .tc := ⟨.hbm, 63, rfl⟩
abbrev main_call3_v7 : Ref sig .tc := ⟨.hbm, 64, rfl⟩
abbrev main_call3_c : Ref sig .tc := ⟨.hbm, 65, rfl⟩
abbrev main_call3_v8 : Ref sig .tc := ⟨.hbm, 66, rfl⟩
abbrev main_call3_v9 : Ref sig .tc := ⟨.hbm, 67, rfl⟩
abbrev main_call3_v10 : Ref sig .tc := ⟨.hbm, 68, rfl⟩
abbrev main_call3_c_0 : Ref sig .tc := ⟨.hbm, 69, rfl⟩
abbrev main_call3_v11 : Ref sig .tc := ⟨.hbm, 70, rfl⟩
abbrev main_call3_v12 : Ref sig .tc := ⟨.hbm, 71, rfl⟩
abbrev main_v30 : Ref sig .tc := ⟨.hbm, 72, rfl⟩
abbrev main_c_10 : Ref sig .tc := ⟨.hbm, 73, rfl⟩
abbrev main_call4_v0 : Ref sig .tc := ⟨.hbm, 74, rfl⟩
abbrev main_call4_c : Ref sig .tc := ⟨.hbm, 75, rfl⟩
abbrev main_call4_v1 : Ref sig .tc := ⟨.hbm, 76, rfl⟩
abbrev main_call4_c_0 : Ref sig .tc := ⟨.hbm, 77, rfl⟩
abbrev main_call4_v2 : Ref sig .tc := ⟨.hbm, 78, rfl⟩
abbrev main_call4_v3 : Ref sig .tc := ⟨.hbm, 79, rfl⟩
abbrev main_call4_v4 : Ref sig .tc := ⟨.hbm, 80, rfl⟩
abbrev main_call4_c_1 : Ref sig .tc := ⟨.hbm, 81, rfl⟩
abbrev main_call4_v5 : Ref sig .tc := ⟨.hbm, 82, rfl⟩
abbrev main_call4_v6 : Ref sig .tc := ⟨.hbm, 83, rfl⟩
abbrev main_call4_c_2 : Ref sig .tc := ⟨.hbm, 84, rfl⟩
abbrev main_call4_v7 : Ref sig .tc := ⟨.hbm, 85, rfl⟩
abbrev main_call4_v8 : Ref sig .tc := ⟨.hbm, 86, rfl⟩
abbrev main_call4_c_3 : Ref sig .tc := ⟨.hbm, 87, rfl⟩
abbrev main_call4_v9 : Ref sig .tc := ⟨.hbm, 88, rfl⟩
abbrev main_call4_v10 : Ref sig .tc := ⟨.hbm, 89, rfl⟩
abbrev main_call4_v11 : Ref sig .tc := ⟨.hbm, 90, rfl⟩
abbrev main_call4_v12 : Ref sig .tc := ⟨.hbm, 91, rfl⟩
abbrev main_call4_v13 : Ref sig .tc := ⟨.hbm, 92, rfl⟩
abbrev main_call4_v14 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_c_11 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_c_12 : Ref sig .tc := ⟨.hbm, 101, rfl⟩
abbrev main_call5_v0 : Ref sig .tc := ⟨.hbm, 102, rfl⟩
abbrev main_call5_v1 : Ref sig .tc := ⟨.hbm, 103, rfl⟩
abbrev main_v37 : Ref sig .tc := ⟨.hbm, 104, rfl⟩
abbrev main_cst_13 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_c_14 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_c_15 : Ref sig .tc := ⟨.hbm, 115, rfl⟩
abbrev main_v46 : Ref sig .tc := ⟨.hbm, 116, rfl⟩
abbrev main_v47 : Ref sig .tc := ⟨.hbm, 117, rfl⟩
abbrev main_c_16 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_call6_cst : Ref sig .tc := ⟨.hbm, 128, rfl⟩
abbrev main_call6_v0 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_call7_cst : Ref sig .tc := ⟨.hbm, 135, rfl⟩
abbrev main_call7_v0 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_cst_17 : Ref sig .tc := ⟨.hbm, 144, rfl⟩
abbrev main_v69 : Ref sig .tc := ⟨.hbm, 145, rfl⟩
abbrev main_v70 : Ref sig .tc := ⟨.hbm, 146, rfl⟩
abbrev main_cst_18 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_cst_19 : Ref sig .tc := ⟨.hbm, 151, rfl⟩
abbrev main_v74 : Ref sig .tc := ⟨.hbm, 152, rfl⟩
abbrev main_v75 : Ref sig .tc := ⟨.hbm, 153, rfl⟩
abbrev main_c_20 : Ref sig .tc := ⟨.hbm, 154, rfl⟩
abbrev main_v76 : Ref sig .tc := ⟨.hbm, 155, rfl⟩
abbrev main_v77 : Ref sig .tc := ⟨.hbm, 156, rfl⟩
abbrev main_c_21 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_cst_22 : Ref sig .tc := ⟨.hbm, 163, rfl⟩
abbrev main_v83 : Ref sig .tc := ⟨.hbm, 164, rfl⟩
abbrev main_c_23 : Ref sig .tc := ⟨.hbm, 165, rfl⟩
abbrev main_v84 : Ref sig .tc := ⟨.hbm, 166, rfl⟩
abbrev main_v85 : Ref sig .tc := ⟨.hbm, 167, rfl⟩
abbrev main_c_24 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_cst_25 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_cst_26 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩

abbrev nD : Nat := 1
abbrev τ : Topo := Topo.v7x

variable {F : FTy → Type} [FloatOps F]

class Facts₀ : Prop where
  bcast_S_S8x1x512x512 : S_.BroadcastsInDim S8x1x512x512 (![] : Fin 0 → Fin S8x1x512x512.rank)
  bcast_S_S_ : S_.BroadcastsInDim S_ (![] : Fin 0 → Fin S_.rank)
  reduceWindows_S8x1x512x512_S8x1x512x512_w1s1p0_0_w1s1p0_0_w15s1p7_7_w15s1p7_7 : S8x1x512x512.ReduceWindows (![1, 1, 15, 15] : Fin 4 → Nat) ![1, 1, 1, 1] ![0, 0, 7, 7] ![0, 0, 7, 7] S8x1x512x512
  h_S_ : 0 < S_.numel
  concatenates_S8x3x512x512_S8x1x512x512_S8x4x512x512_d1 : Shape.Concatenates [S8x3x512x512, S8x1x512x512] S8x4x512x512 1
  transposes_S8x4x512x512_S8x512x512x4_0_2_3_1 : S8x4x512x512.Transposes [0, 2, 3, 1] S8x512x512x4
  shapeCasts_S8x512x512x4_S2097152x4 : S8x512x512x4.ShapeCasts S2097152x4
  shapeCasts_S8x1x512x512_S2097152 : S8x1x512x512.ShapeCasts S2097152
  bcast_S_S2097152 : S_.BroadcastsInDim S2097152 (![] : Fin 0 → Fin S2097152.rank)
  natLt_1_32 : 1 < 32
  reduceWindows_S2097152_S2097152_w2097152s1p2097151_0 : S2097152.ReduceWindows (![2097152] : Fin 1 → Nat) ![1] ![2097151] ![0] S2097152
  bcast_S_S1048576 : S_.BroadcastsInDim S1048576 (![] : Fin 0 → Fin S1048576.rank)
  bcast_S2097152_S2097152x1_0 : S2097152.BroadcastsInDim S2097152x1 (![0] : Fin 1 → Fin S2097152x1.rank)
  reduceWindows_S1048576_S1048576_w1048576s1p1048575_0 : S1048576.ReduceWindows (![1048576] : Fin 1 → Nat) ![1] ![1048575] ![0] S1048576
  reducesTo_S2097152_S_d0 : S2097152.ReducesTo [0] S_
  bcast_S1048576_S1048576x1_0 : S1048576.BroadcastsInDim S1048576x1 (![0] : Fin 1 → Fin S1048576x1.rank)
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  bcast_S_S1048576x128 : S_.BroadcastsInDim S1048576x128 (![] : Fin 0 → Fin S1048576x128.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  bcast_S_S1048576x1 : S_.BroadcastsInDim S1048576x1 (![] : Fin 0 → Fin S1048576x1.rank)
  shapeCasts_S1048576x1_S1048576 : S1048576x1.ShapeCasts S1048576
  shapeCasts_S2097152_S8x1x512x512 : S2097152.ShapeCasts S8x1x512x512
  scatter_S1048576_S2097152x1_S2097152_n_0_0_1_wf : ScatterDims.WF S1048576 S2097152x1 S2097152 [] [0] [0] 1
  gather_S2097152x4_S1048576x1_S1048576x4_1_0_n_n_0_1_14_wf : GatherDims.WF S2097152x4 S1048576x1 S1048576x4 [1] [0] [] [0] [] 1 ![1, 4]
  dot_S1048576x4_S4x128_S1048576x128_1_0_0_1_n_n_wf : DotDims.WF S1048576x4 S4x128 S1048576x128 [1] [0] [0] [1] [] []
  dot_S1048576x128_S128x128_S1048576x128_1_0_0_1_n_n_wf : DotDims.WF S1048576x128 S128x128 S1048576x128 [1] [0] [0] [1] [] []
  dot_S1048576x128_S128x1_S1048576x1_1_0_0_1_n_n_wf : DotDims.WF S1048576x128 S128x1 S1048576x1 [1] [0] [0] [1] [] []
  scatter_S2097152_S1048576x1_S1048576_n_0_0_1_wf : ScatterDims.WF S2097152 S1048576x1 S1048576 [] [0] [0] 1

variable [Facts₀]

def scatter_S1048576_S2097152x1_S2097152_n_0_0_1 : ScatterDims S1048576 S2097152x1 S2097152 where
  updateWindowDims := []
  insertedWindowDims := [0]
  scatterDimsToOperandDims := [0]
  indexVectorDim := 1
  wf := scatter_S1048576_S2097152x1_S2097152_n_0_0_1_wf
def gather_S2097152x4_S1048576x1_S1048576x4_1_0_n_n_0_1_14 : GatherDims S2097152x4 S1048576x1 S1048576x4 where
  offsetDims := [1]
  collapsedSliceDims := [0]
  operandBatchingDims := []
  startIndicesBatchingDims := []
  startIndexMap := [0]
  indexVectorDim := 1
  sliceSizes := ![1, 4]
  wf := gather_S2097152x4_S1048576x1_S1048576x4_1_0_n_n_0_1_14_wf
def dot_S1048576x4_S4x128_S1048576x128_1_0_0_1_n_n : DotDims S1048576x4 S4x128 S1048576x128 where
  lhsContracting := [1]
  rhsContracting := [0]
  lhsNonContracting := [0]
  rhsNonContracting := [1]
  lhsBatch := []
  rhsBatch := []
  wf := dot_S1048576x4_S4x128_S1048576x128_1_0_0_1_n_n_wf
def dot_S1048576x128_S128x128_S1048576x128_1_0_0_1_n_n : DotDims S1048576x128 S128x128 S1048576x128 where
  lhsContracting := [1]
  rhsContracting := [0]
  lhsNonContracting := [0]
  rhsNonContracting := [1]
  lhsBatch := []
  rhsBatch := []
  wf := dot_S1048576x128_S128x128_S1048576x128_1_0_0_1_n_n_wf
def dot_S1048576x128_S128x1_S1048576x1_1_0_0_1_n_n : DotDims S1048576x128 S128x1 S1048576x1 where
  lhsContracting := [1]
  rhsContracting := [0]
  lhsNonContracting := [0]
  rhsNonContracting := [1]
  lhsBatch := []
  rhsBatch := []
  wf := dot_S1048576x128_S128x1_S1048576x1_1_0_0_1_n_n_wf
def scatter_S2097152_S1048576x1_S1048576_n_0_0_1 : ScatterDims S2097152 S1048576x1 S1048576 where
  updateWindowDims := []
  insertedWindowDims := [0]
  scatterDimsToOperandDims := [0]
  indexVectorDim := 1
  wf := scatter_S2097152_S1048576x1_S1048576_n_0_0_1_wf

class Facts : Prop extends Facts₀ where

variable [Facts]
-- ==== Proof.RefStages.lean ====
/-
  The reference program's host operations as pure functions of its argument arrays, stage by stage, in the
  program's own operations and records (generic in the float instance).  The dilated-uncertainty mask, the
  channels-last feature table, the prefix count and the positions jnp.nonzero returns, the per-row MLP, the two
  accumulating scatters and the final blend.
-/
import proofs.«114536_j36893769072873_1_alg».proof.Proof.Gen.ReferenceIdeal

noncomputable section

namespace Cert.ReferenceIdeal.St

open Cert.ReferenceIdeal Cert.ReferenceIdeal.Gen Idealize.ShloMosaic Idealize.ShloMosaic.TcCoe

variable {F : FTy → Type} [FloatOps F]

/-- The 15 x 15 dilation of the indicator of 0.01 < lr < 0.99 (a maximum over each window, the padding at -inf). -/
def mask4 (lr : FVec F S8x1x512x512 .f32) : FVec F S8x1x512x512 .f32 :=
  Host.reduceWindow FloatOps.maximumf ![1, 1, 15, 15] ![1, 1, 1, 1] ![0, 0, 7, 7] ![0, 0, 7, 7]
    (uitofp .f32 (andi
      (cmpf .ogt lr (broadcastInDim S8x1x512x512 ![] bcast_S_S8x1x512x512 (constant S_ .f32 0x3C23D70A#32)))
      (cmpf .olt lr (broadcastInDim S8x1x512x512 ![] bcast_S_S8x1x512x512 (constant S_ .f32 0x3F7D70A4#32)))))
    (broadcastInDim S_ ![] bcast_S_S_ (constant S_ .f32 0xFF800000#32))
    reduceWindows_S8x1x512x512_S8x1x512x512_w1s1p0_0_w1s1p0_0_w15s1p7_7_w15s1p7_7 h_S_

/-- The feature table: one row per pixel (b, h, w), the three image channels then (lr - 0.5) / 0.5. -/
def feat (img : FVec F S8x3x512x512 .f32) (lr : FVec F S8x1x512x512 .f32) : FVec F S2097152x4 .f32 :=
  shapeCast _ (transpose S8x512x512x4 [0, 2, 3, 1]
    (concatenate S8x4x512x512 1 [⟨S8x3x512x512, img⟩, ⟨S8x1x512x512,
      Host.divf (subf lr (broadcastInDim S8x1x512x512 ![] bcast_S_S8x1x512x512 (constant S_ .f32 0x3F000000#32)))
        (broadcastInDim S8x1x512x512 ![] bcast_S_S8x1x512x512 (constant S_ .f32 0x3F000000#32))⟩]
      concatenates_S8x3x512x512_S8x1x512x512_S8x4x512x512_d1)
    transposes_S8x4x512x512_S8x512x512x4_0_2_3_1) shapeCasts_S8x512x512x4_S2097152x4

/-- The mask, one entry per pixel in flatten order. -/
def mflat (lr : FVec F S8x1x512x512 .f32) : FVec F S2097152 .f32 :=
  shapeCast _ (mask4 lr) shapeCasts_S8x1x512x512_S2097152

/-- lr, one entry per pixel in flatten order. -/
def lrflat (lr : FVec F S8x1x512x512 .f32) : FVec F S2097152 .f32 :=
  shapeCast _ lr shapeCasts_S8x1x512x512_S2097152

/-- The masked pixels, as bits: mask > 0. -/
def bits (lr : FVec F S8x1x512x512 .f32) : IVec S2097152 1 :=
  cmpf .ogt (mflat lr) (broadcastInDim S2097152 ![] bcast_S_S2097152 (constant S_ .f32 0x00000000#32))

/-! ## The integer chain: the positions of the first 1048576 masked pixels -/

/-- Inclusive prefix sums along the 2097152 pixels. -/
def cumsumN (x : IVec S2097152 32) : IVec S2097152 32 :=
  Host.reduceWindow IntOp.addi ![2097152] ![1] ![2097151] ![0] x
    (broadcastInDim S_ ![] bcast_S_S_ (constantI S_ 32 0#32)) reduceWindows_S2097152_S2097152_w2097152s1p2097151_0 h_S_

/-- Inclusive prefix sums along the 1048576 slots. -/
def cumsumP (x : IVec S1048576 32) : IVec S1048576 32 :=
  Host.reduceWindow IntOp.addi ![1048576] ![1] ![1048575] ![0] x
    (broadcastInDim S_ ![] bcast_S_S_ (constantI S_ 32 0#32)) reduceWindows_S1048576_S1048576_w1048576s1p1048575_0 h_S_

/-- The number of masked pixels up to and including each pixel. -/
def cs (b : IVec S2097152 1) : IVec S2097152 32 := cumsumN (extui 32 b natLt_1_32)

/-- max(0, x). -/
def clip0 (x : IVec S2097152 32) : IVec S2097152 32 :=
  maxsi (broadcastInDim S2097152 ![] bcast_S_S2097152 (constantI S_ 32 0#32)) x

/-- A negative index counted from the end of the 1048576 slots. -/
def wrapP (x : IVec S2097152 32) : IVec S2097152 32 :=
  select (cmpi .slt x (broadcastInDim S2097152 ![] bcast_S_S2097152 (constantI S_ 32 0#32)))
    (addi x (broadcastInDim S2097152 ![] bcast_S_S2097152 (constantI S_ 32 1048576#32))) x

/-- How many pixels have each prefix count below 1048576 (counts at or past it are dropped). -/
def binc (b : IVec S2097152 1) : IVec S1048576 32 :=
  Host.scatter scatter_S1048576_S2097152x1_S2097152_n_0_0_1 IntOp.addi
    (broadcastInDim S1048576 ![] bcast_S_S1048576 (constantI S_ 32 0#32))
    (broadcastInDim S2097152x1 ![0] bcast_S2097152_S2097152x1_0 (wrapP (clip0 (cs b))))
    (broadcastInDim S2097152 ![] bcast_S_S2097152 (constantI S_ 32 1#32))

/-- Floor division by one, as jnp spells it. -/
def floorDiv1 (x : IVec S1048576 32) : IVec S1048576 32 :=
  select
    (andi
      (cmpi .ne (signi x) (broadcastInDim S1048576 ![] bcast_S_S1048576 (signi (constantI S_ 32 1#32))))
      (cmpi .ne (Host.remsi x (broadcastInDim S1048576 ![] bcast_S_S1048576 (constantI S_ 32 1#32)))
        (broadcastInDim S1048576 ![] bcast_S_S1048576 (constantI S_ 32 0#32))))
    (subi (Host.divsi x (broadcastInDim S1048576 ![] bcast_S_S1048576 (constantI S_ 32 1#32)))
      (broadcastInDim S1048576 ![] bcast_S_S1048576 (constantI S_ 32 1#32)))
    (Host.divsi x (broadcastInDim S1048576 ![] bcast_S_S1048576 (constantI S_ 32 1#32)))

/-- The divisor of the remainder, 2097152 (jnp replaces a zero divisor by one first). -/
def remDiv : IVec S_ 32 :=
  select (cmpi .eq (constantI S_ 32 2097152#32) (constantI S_ 32 0#32)) (constantI S_ 32 1#32) (constantI S_ 32 2097152#32)

/-- The remainder modulo 2097152 with the divisor's sign, as jnp spells it. -/
def remN (x : IVec S1048576 32) : IVec S1048576 32 :=
  select
    (andi
      (cmpi .ne
        (cmpi .slt (Host.remsi x (broadcastInDim S1048576 ![] bcast_S_S1048576 remDiv))
          (broadcastInDim S1048576 ![] bcast_S_S1048576 (constantI S_ 32 0#32)))
        (broadcastInDim S1048576 ![] bcast_S_S1048576 (cmpi .slt remDiv (constantI S_ 32 0#32))))
      (cmpi .ne (Host.remsi x (broadcastInDim S1048576 ![] bcast_S_S1048576 remDiv))
        (broadcastInDim S1048576 ![] bcast_S_S1048576 (constantI S_ 32 0#32))))
    (addi (Host.remsi x (broadcastInDim S1048576 ![] bcast_S_S1048576 remDiv))
      (broadcastInDim S1048576 ![] bcast_S_S1048576 remDiv))
    (Host.remsi x (broadcastInDim S1048576 ![] bcast_S_S1048576 remDiv))

/-- The number of masked pixels. -/
def count (b : IVec S2097152 1) : IVec S_ 32 :=
  Host.reduce IntOp.addi (extui 32 b natLt_1_32) (constantI S_ 32 0#32) reducesTo_S2097152_S_d0 h_S_

/-- jnp.nonzero(mask > 0, size = 1048576, fill_value = 0): slot j holds the position of the (j+1)-th masked pixel,
    and 0 from the number of masked pixels on. -/
def idx (b : IVec S2097152 1) : IVec S1048576 32 :=
  select (cmpi .sge (iotaInDim S1048576 32 0) (broadcastInDim S1048576 ![] bcast_S_S1048576 (count b)))
    (broadcastInDim S1048576 ![] bcast_S_S1048576 (constantI S_ 32 0#32))
    (remN (floorDiv1 (cumsumP (binc b))))

/-- Slot j is in use: j < the number of masked pixels, as a float. -/
def valid (b : IVec S2097152 1) : FVec F S1048576 .f32 :=
  uitofp .f32 (cmpi .slt (iotaInDim S1048576 32 0) (broadcastInDim S1048576 ![] bcast_S_S1048576 (count b)))

/-- A negative index counted from the end of the 2097152 pixels. -/
def wrapN (x : IVec S1048576 32) : IVec S1048576 32 :=
  select (cmpi .slt x (broadcastInDim S1048576 ![] bcast_S_S1048576 (constantI S_ 32 0#32)))
    (addi x (broadcastInDim S1048576 ![] bcast_S_S1048576 (constantI S_ 32 2097152#32))) x

/-- The positions as a column of start indices. -/
def idxCol (b : IVec S2097152 1) : IVec S1048576x1 32 :=
  broadcastInDim S1048576x1 ![0] bcast_S1048576_S1048576x1_0 (wrapN (idx b))

/-! ## The per-row MLP on the gathered rows -/

/-- The feature rows at the listed positions. -/
def rows (ft : FVec F S2097152x4 .f32) (ic : IVec S1048576x1 32) : FVec F S1048576x4 .f32 :=
  Host.gather gather_S2097152x4_S1048576x1_S1048576x4_1_0_n_n_0_1_14 ft ic

def relu (x : FVec F S1048576x128 .f32) : FVec F S1048576x128 .f32 :=
  maximumf x (broadcastInDim S1048576x128 ![] bcast_S_S1048576x128 (constant S_ .f32 0x00000000#32))

def h1 (x : FVec F S1048576x4 .f32) (W1 : FVec F S4x128 .f32) (b1 : FVec F S128 .f32) : FVec F S1048576x128 .f32 :=
  relu (addf (Host.dotGeneral dot_S1048576x4_S4x128_S1048576x128_1_0_0_1_n_n none x W1)
    (broadcastInDim S1048576x128 ![0, 1] bcast_S1x128_S1048576x128_0_1 (broadcastInDim S1x128 ![1] bcast_S128_S1x128_1 b1)))

def h2 (h : FVec F S1048576x128 .f32) (W2 : FVec F S128x128 .f32) (b2 : FVec F S128 .f32) : FVec F S1048576x128 .f32 :=
  relu (addf (Host.dotGeneral dot_S1048576x128_S128x128_S1048576x128_1_0_0_1_n_n none h W2)
    (broadcastInDim S1048576x128 ![0, 1] bcast_S1x128_S1048576x128_0_1 (broadcastInDim S1x128 ![1] bcast_S128_S1x128_1 b2)))

def h3 (h : FVec F S1048576x128 .f32) (W3 : FVec F S128x1 .f32) (b3 : FVec F S1 .f32) : FVec F S1048576x1 .f32 :=
  addf (Host.dotGeneral dot_S1048576x128_S128x1_S1048576x1_1_0_0_1_n_n none h W3)
    (broadcastInDim S1048576x1 ![0, 1] bcast_S1x1_S1048576x1_0_1 (broadcastInDim S1x1 ![1] bcast_S1_S1x1_1 b3))

/-- 1 / (1 + exp (-z)). -/
def sigm (z : FVec F S1048576x1 .f32) : FVec F S1048576x1 .f32 :=
  Host.divf (broadcastInDim S1048576x1 ![] bcast_S_S1048576x1 (constant S_ .f32 0x3F800000#32))
    (addf (broadcastInDim S1048576x1 ![] bcast_S_S1048576x1 (constant S_ .f32 0x3F800000#32)) (Host.exp (Host.negf z)))

/-- The MLP's prediction for each slot's row. -/
def pred (ft : FVec F S2097152x4 .f32) (ic : IVec S1048576x1 32) (W1 : FVec F S4x128 .f32) (b1 : FVec F S128 .f32)
    (W2 : FVec F S128x128 .f32) (b2 : FVec F S128 .f32) (W3 : FVec F S128x1 .f32) (b3 : FVec F S1 .f32) : FVec F S1048576 .f32 :=
  shapeCast _ (sigm (h3 (h2 (h1 (rows ft ic) W1 b1) W2 b2) W3 b3)) shapeCasts_S1048576x1_S1048576

/-! ## Scatter back and blend -/

/-- Each pixel's sum of the slot values whose position is that pixel. -/
def scat (ic : IVec S1048576x1 32) (u : FVec F S1048576 .f32) : FVec F S2097152 .f32 :=
  Host.scatterAdd scatter_S2097152_S1048576x1_S1048576_n_0_0_1
    (broadcastInDim S2097152 ![] bcast_S_S2097152 (constant S_ .f32 0x00000000#32)) ic u

/-- (sc + (1 - cov) * lrf) * m + lrf * (1 - m). -/
def blend (sc cov lrf mf : FVec F S2097152 .f32) : FVec F S2097152 .f32 :=
  addf (mulf (addf sc (mulf (subf (broadcastInDim S2097152 ![] bcast_S_S2097152 (constant S_ .f32 0x3F800000#32)) cov) lrf)) mf)
    (mulf lrf (subf (broadcastInDim S2097152 ![] bcast_S_S2097152 (constant S_ .f32 0x3F800000#32)) mf))

/-- The reference's result per pixel, in flatten order. -/
def outFlat (img : FVec F S8x3x512x512 .f32) (lr : FVec F S8x1x512x512 .f32) (W1 : FVec F S4x128 .f32) (b1 : FVec F S128 .f32)
    (W2 : FVec F S128x128 .f32) (b2 : FVec F S128 .f32) (W3 : FVec F S128x1 .f32) (b3 : FVec F S1 .f32) : FVec F S2097152 .f32 :=
  blend
    (scat (idxCol (bits lr)) (mulf (pred (feat img lr) (idxCol (bits lr)) W1 b1 W2 b2 W3 b3) (valid (bits lr))))
    (scat (idxCol (bits lr)) (valid (bits lr)))
    (lrflat lr) (mflat lr)

/-- The reference's result. -/
def out (img : FVec F S8x3x512x512 .f32) (lr : FVec F S8x1x512x512 .f32) (W1 : FVec F S4x128 .f32) (b1 : FVec F S128 .f32)
    (W2 : FVec F S128x128 .f32) (b2 : FVec F S128 .f32) (W3 : FVec F S128x1 .f32) (b3 : FVec F S1 .f32) : FVec F S8x1x512x512 .f32 :=
  shapeCast _ (outFlat img lr W1 b1 W2 b2 W3 b3) shapeCasts_S2097152_S8x1x512x512

end Cert.ReferenceIdeal.St

end
-- ==== Proof.KerStages.lean ====
/-
  The kernel program's host operations before its one region, as pure functions of the argument arrays, in the
  program's own operations and records (generic in the float instance): the dilated-uncertainty mask, the
  channels-last feature table, the cover flags (a masked pixel among the first 1048576 masked ones), and the
  region's small operands (the weights in bf16, the biases as rows).
-/
import proofs.«114536_j36893769072873_1_alg».proof.Proof.Gen.KernelIdeal

noncomputable section

namespace Cert.KernelIdeal.St

open Cert.KernelIdeal Cert.KernelIdeal.Gen Idealize.ShloMosaic Idealize.ShloMosaic.TcCoe

variable {F : FTy → Type} [FloatOps F]

/-- The 15 x 15 dilation of the indicator of 0.01 < lr < 0.99 (a maximum over each window, the padding at -inf). -/
def mask4 (lr : FVec F S8x1x512x512 .f32) : FVec F S8x1x512x512 .f32 :=
  Host.reduceWindow FloatOps.maximumf ![1, 1, 15, 15] ![1, 1, 1, 1] ![0, 0, 7, 7] ![0, 0, 7, 7]
    (uitofp .f32 (andi
      (cmpf .ogt lr (broadcastInDim S8x1x512x512 ![] bcast_S_S8x1x512x512 (constant S_ .f32 0x3C23D70A#32)))
      (cmpf .olt lr (broadcastInDim S8x1x512x512 ![] bcast_S_S8x1x512x512 (constant S_ .f32 0x3F7D70A4#32)))))
    (broadcastInDim S_ ![] bcast_S_S_ (constant S_ .f32 0xFF800000#32))
    reduceWindows_S8x1x512x512_S8x1x512x512_w1s1p0_0_w1s1p0_0_w15s1p7_7_w15s1p7_7 h_S_

/-- The mask, one entry per pixel in flatten order. -/
def mflat (lr : FVec F S8x1x512x512 .f32) : FVec F S2097152 .f32 :=
  shapeCast _ (mask4 lr) shapeCasts_S8x1x512x512_S2097152

/-- The masked pixels, as bits: mask > 0. -/
def bits (lr : FVec F S8x1x512x512 .f32) : IVec S2097152 1 :=
  cmpf .ogt (mflat lr) (broadcastInDim S2097152 ![] bcast_S_S2097152 (constant S_ .f32 0x00000000#32))

/-- The number of masked pixels up to and including each pixel. -/
def cs (lr : FVec F S8x1x512x512 .f32) : IVec S2097152 32 :=
  Host.reduceWindow IntOp.addi ![2097152] ![1] ![2097151] ![0] (extui 32 (bits lr) natLt_1_32)
    (broadcastInDim S_ ![] bcast_S_S_ (constantI S_ 32 0#32)) reduceWindows_S2097152_S2097152_w2097152s1p2097151_0 h_S_

/-- The cover flag of each pixel: masked, and among the first 1048576 masked pixels. -/
def cover (lr : FVec F S8x1x512x512 .f32) : FVec F S2097152 .f32 :=
  uitofp .f32 (andi (bits lr)
    (cmpi .sle (cs lr) (broadcastInDim S2097152 ![] bcast_S_S2097152 (constantI S_ 32 1048576#32))))

/-- The cover flags as a column. -/
def cover2d (lr : FVec F S8x1x512x512 .f32) : FVec F S2097152x1 .f32 :=
  shapeCast _ (cover lr) shapeCasts_S2097152_S2097152x1

/-- The feature table: one row per pixel (b, h, w), the three image channels then (lr - 0.5) / 0.5. -/
def feat (img : FVec F S8x3x512x512 .f32) (lr : FVec F S8x1x512x512 .f32) : FVec F S2097152x4 .f32 :=
  shapeCast _ (transpose S8x512x512x4 [0, 2, 3, 1]
    (concatenate S8x4x512x512 1 [⟨S8x3x512x512, img⟩, ⟨S8x1x512x512,
      Host.divf (subf lr (broadcastInDim S8x1x512x512 ![] bcast_S_S8x1x512x512 (constant S_ .f32 0x3F000000#32)))
        (broadcastInDim S8x1x512x512 ![] bcast_S_S8x1x512x512 (constant S_ .f32 0x3F000000#32))⟩]
      concatenates_S8x3x512x512_S8x1x512x512_S8x4x512x512_d1)
    transposes_S8x4x512x512_S8x512x512x4_0_2_3_1) shapeCasts_S8x512x512x4_S2097152x4

def w1b (W1 : FVec F S4x128 .f32) : FVec F S4x128 .bf16 := truncf .bf16 W1 bitsLt_bf16_f32
def w2b (W2 : FVec F S128x128 .f32) : FVec F S128x128 .bf16 := truncf .bf16 W2 bitsLt_bf16_f32
def w3b (W3 : FVec F S128x1 .f32) : FVec F S128x1 .bf16 := truncf .bf16 W3 bitsLt_bf16_f32
def b1r (b1 : FVec F S128 .f32) : FVec F S1x128 .f32 := shapeCast _ b1 shapeCasts_S128_S1x128
def b2r (b2 : FVec F S128 .f32) : FVec F S1x128 .f32 := shapeCast _ b2 shapeCasts_S128_S1x128
def b3r (b3 : FVec F S1 .f32) : FVec F S1x1 .f32 := shapeCast _ b3 shapeCasts_S1_S1x1

/-- The program's result from the region's output column. -/
def outOf (col : FVec F S2097152x1 .f32) : FVec F S8x1x512x512 .f32 :=
  shapeCast _ col shapeCasts_S2097152x1_S8x1x512x512

end Cert.KernelIdeal.St

end
-- ==== Proof.Meet.lean ====
/-
  The meeting point of the two programs at the ideal instance.  A pixel q (in flatten order) is MASKED when the
  dilated mask is positive there; cnt p counts the masked pixels at positions up to p; a pixel is COVERED when it is
  masked and among the first 1048576 masked pixels.  Both programs compute, per pixel, the MLP's sigmoid output of
  the pixel's four features when the pixel is covered, and lr there otherwise.
-/
import proofs.«114536_j36893769072873_1_alg».proof.Proof.RefStages
import proofs.«114536_j36893769072873_1_alg».proof.Proof.KerStages
import Idealize.ShloMosaic.Lib.ValueIdx
import Idealize.ShloMosaic.PureOps.Ideal

noncomputable section

namespace Cert.Blend

open Idealize.ShloMosaic Idealize.ShloMosaic.ValueIdx

/-- The number of pixels, 8 * 512 * 512. -/
abbrev NPIX : ℕ := 2097152
/-- The sparse-pixel budget. -/
abbrev BUDGET : ℕ := 1048576

/-- Every entry of the array is a real number. -/
def IsReal {S : Shape} (x : S.Idx → EReal) : Prop := ∀ i, ∃ r : ℝ, x i = (r : EReal)

/-- Pixel q is masked: the dilated mask is positive there. -/
def Masked (lr : FVec Ideal Cert.ReferenceIdeal.S8x1x512x512 .f32) (q : Fin NPIX) : Prop :=
  Cert.ReferenceIdeal.St.bits (F := Ideal) lr (ix1 q) = 1#1

instance (lr : FVec Ideal Cert.ReferenceIdeal.S8x1x512x512 .f32) : DecidablePred (Masked lr) := fun q => by
  unfold Masked; exact inferInstance

/-- The number of masked pixels at positions up to and including p. -/
def cnt (lr : FVec Ideal Cert.ReferenceIdeal.S8x1x512x512 .f32) (p : ℕ) : ℕ :=
  (Finset.univ.filter fun q : Fin NPIX => q.val ≤ p ∧ Masked lr q).card

/-- The number of masked pixels. -/
def total (lr : FVec Ideal Cert.ReferenceIdeal.S8x1x512x512 .f32) : ℕ :=
  (Finset.univ.filter fun q : Fin NPIX => Masked lr q).card

/-- Pixel q is covered: masked, and among the first BUDGET masked pixels. -/
def Covered (lr : FVec Ideal Cert.ReferenceIdeal.S8x1x512x512 .f32) (q : Fin NPIX) : Prop :=
  Masked lr q ∧ cnt lr q.val ≤ BUDGET

instance (lr : FVec Ideal Cert.ReferenceIdeal.S8x1x512x512 .f32) : DecidablePred (Covered lr) := fun q => by
  unfold Covered; exact inferInstance

/-- The per-pixel MLP on a row x of four features: sigmoid (relu (relu (x W1 + b1) W2 + b2) W3 + b3), over the
    extended reals. -/
def mlpRowG (W1 : Fin 4 → Fin 128 → EReal) (b1 : Fin 128 → EReal) (W2 : Fin 128 → Fin 128 → EReal) (b2 : Fin 128 → EReal)
    (W3 : Fin 128 → EReal) (b3 : EReal) (x : Fin 4 → EReal) : EReal :=
  Ideal.logistic ((∑ k : Fin 128,
      max ((∑ k' : Fin 128, max ((∑ c : Fin 4, x c * W1 c k') + b1 k') 0 * W2 k' k) + b2 k) 0 * W3 k) + b3)

/-- The MLP over the programs' weight arrays. -/
def mlpRow (W1 : FVec Ideal Cert.ReferenceIdeal.S4x128 .f32) (b1 : FVec Ideal Cert.ReferenceIdeal.S128 .f32)
    (W2 : FVec Ideal Cert.ReferenceIdeal.S128x128 .f32) (b2 : FVec Ideal Cert.ReferenceIdeal.S128 .f32)
    (W3 : FVec Ideal Cert.ReferenceIdeal.S128x1 .f32) (b3 : FVec Ideal Cert.ReferenceIdeal.S1 .f32) (x : Fin 4 → EReal) : EReal :=
  mlpRowG (fun c k => W1 (ix2 c k)) (fun k => b1 (ix1 k)) (fun k' k => W2 (ix2 k' k)) (fun k => b2 (ix1 k))
    (fun k => W3 (ix2 k 0)) (b3 (ix1 0)) x

/-- The value both programs compute at pixel q. -/
def pixel (img : FVec Ideal Cert.ReferenceIdeal.S8x3x512x512 .f32) (lr : FVec Ideal Cert.ReferenceIdeal.S8x1x512x512 .f32)
    (W1 : FVec Ideal Cert.ReferenceIdeal.S4x128 .f32) (b1 : FVec Ideal Cert.ReferenceIdeal.S128 .f32)
    (W2 : FVec Ideal Cert.ReferenceIdeal.S128x128 .f32) (b2 : FVec Ideal Cert.ReferenceIdeal.S128 .f32)
    (W3 : FVec Ideal Cert.ReferenceIdeal.S128x1 .f32) (b3 : FVec Ideal Cert.ReferenceIdeal.S1 .f32) (q : Fin NPIX) : EReal :=
  if Covered lr q then mlpRow W1 b1 W2 b2 W3 b3 (fun c => Cert.ReferenceIdeal.St.feat (F := Ideal) img lr (ix2 q c))
  else Cert.ReferenceIdeal.St.lrflat (F := Ideal) lr (ix1 q)

/-- The float 0.5. -/
def half : EReal := (FloatOps.ofBits (F := Ideal) .f32 0x3F000000#32 : Ideal .f32)

/-- What the kernel's region writes at row q of its output column, in the kernel program's own host stages: the
    MLP of the row's features where the cover flag is positive, else the fourth feature times 0.5 plus 0.5. -/
def kerPixel (img : FVec Ideal Cert.KernelIdeal.S8x3x512x512 .f32) (lr : FVec Ideal Cert.KernelIdeal.S8x1x512x512 .f32)
    (W1 : FVec Ideal Cert.KernelIdeal.S4x128 .f32) (b1 : FVec Ideal Cert.KernelIdeal.S128 .f32)
    (W2 : FVec Ideal Cert.KernelIdeal.S128x128 .f32) (b2 : FVec Ideal Cert.KernelIdeal.S128 .f32)
    (W3 : FVec Ideal Cert.KernelIdeal.S128x1 .f32) (b3 : FVec Ideal Cert.KernelIdeal.S1 .f32) (q : Fin NPIX) : EReal :=
  if 0 < Cert.KernelIdeal.St.cover (F := Ideal) lr (ix1 q)
  then mlpRowG (fun c k => Cert.KernelIdeal.St.w1b (F := Ideal) W1 (ix2 c k)) (fun k => Cert.KernelIdeal.St.b1r (F := Ideal) b1 (ix2 0 k))
      (fun k' k => Cert.KernelIdeal.St.w2b (F := Ideal) W2 (ix2 k' k)) (fun k => Cert.KernelIdeal.St.b2r (F := Ideal) b2 (ix2 0 k))
      (fun k => Cert.KernelIdeal.St.w3b (F := Ideal) W3 (ix2 k 0)) (Cert.KernelIdeal.St.b3r (F := Ideal) b3 (ix2 0 0))
      (fun c => Cert.KernelIdeal.St.feat (F := Ideal) img lr (ix2 q c))
  else Cert.KernelIdeal.St.feat (F := Ideal) img lr (ix2 q 3) * half + half

end Cert.Blend

end
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.KerPayload.lean ====
/-
  The kernel body's one store at a row of its block: the MLP's sigmoid output of the row's four features where the
  row's cover flag is positive, else the fourth feature times 0.5 plus 0.5.
-/
import proofs.«114536_j36893769072873_1_alg».proof.Proof.Gen.KernelIdeal.Frame
import proofs.«114536_j36893769072873_1_alg».proof.Proof.Meet
import proofs.«114536_j36893769072873_1_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-- The two zero offsets, spelt as the constant function. -/
private theorem hz2 : (![0, 0] : Fin 2 → Nat) = fun _ => 0 := funext fun a => by fin_cases a <;> rfl

/-- The first product, [8192, 4] by [4, 128], at (p, q). -/
private theorem mm1_apply (lhs : FVec Ideal S8192x4 .bf16) (rhs : FVec Ideal S4x128 .bf16) (p : Fin 8192) (q : Fin 128) :
    matmul (F := Ideal) dot_S8192x4_S4x128_S8192x128_1_0_0_1_n_n none lhs rhs
        (constant (F := Ideal) S8192x128 .f32 0x00000000#32) (ix2 p q)
      = ∑ k : Fin 4, lhs (ix2 p k) * rhs (ix2 k q) :=
  PlainDot.matmul_zero_apply dot_S8192x4_S4x128_S8192x128_1_0_0_1_n_n rfl rfl rfl rfl rfl rfl rfl rfl none lhs rhs p q

/-- The second product, [8192, 128] by [128, 128], at (p, q). -/
private theorem mm2_apply (lhs : FVec Ideal S8192x128 .bf16) (rhs : FVec Ideal S128x128 .bf16) (p : Fin 8192) (q : Fin 128) :
    matmul (F := Ideal) dot_S8192x128_S128x128_S8192x128_1_0_0_1_n_n none lhs rhs
        (constant (F := Ideal) S8192x128 .f32 0x00000000#32) (ix2 p q)
      = ∑ k : Fin 128, lhs (ix2 p k) * rhs (ix2 k q) :=
  PlainDot.matmul_zero_apply dot_S8192x128_S128x128_S8192x128_1_0_0_1_n_n rfl rfl rfl rfl rfl rfl rfl rfl none lhs rhs p q

/-- The third product, [8192, 128] by [128, 1], at (p, q). -/
private theorem mm3_apply (lhs : FVec Ideal S8192x128 .bf16) (rhs : FVec Ideal S128x1 .bf16) (p : Fin 8192) (q : Fin 1) :
    matmul (F := Ideal) dot_S8192x128_S128x1_S8192x1_1_0_0_1_n_n none lhs rhs
        (constant (F := Ideal) S8192x1 .f32 0x00000000#32) (ix2 p q)
      = ∑ k : Fin 128, lhs (ix2 p k) * rhs (ix2 k q) :=
  PlainDot.matmul_zero_apply dot_S8192x128_S128x1_S8192x1_1_0_0_1_n_n rfl rfl rfl rfl rfl rfl rfl rfl none lhs rhs p q

/-- The select: the first operand where the flag is positive, else the second. -/
private theorem pay1_apply (v30 v35 : FVec Ideal S8192x1 .f32) (v36 : Vec Ideal S8192x1 .f32) (i : S8192x1.Idx) :
    (k0_pay1 (F := Ideal) v30 v35 v36 i : EReal) = if (0 : EReal) < (v36 i : EReal) then v30 i else v35 i := by
  unfold k0_pay1
  simp only [shapeCast_self]
  show Scalar.select (Ideal.cmp .ogt (v36 i) (Ideal.ofBits .f32 0x00000000#32)) (v30 i) (v35 i) = _
  rw [Ideal.ofBits_zero_f32]
  unfold Scalar.select Ideal.cmp
  by_cases h : (0 : EReal) < v36 i
  · simp [h]
  · simp [h]

/-- The fallback: the fourth feature times one half plus one half. -/
private theorem pay4_apply (v0 : Vec Ideal S8192x4 .f32) (r : Fin 8192) :
    (k0_pay4 (F := Ideal) v0 (ix2 r (0 : Fin 1)) : EReal)
      = (v0 (ix2 r (3 : Fin 4)) : EReal) * Cert.Blend.half + Cert.Blend.half := by
  unfold k0_pay4 k0_pay2
  simp only [shapeCast_self]
  have e : extractStridedSlice S8192x1 ![0, 3] v0 slices_S8192x4_o0_3_S8192x1 (ix2 r (0 : Fin 1)) = v0 (ix2 r (3 : Fin 4)) := by
    refine extractStridedSlice_apply _ v0 _ _ _ fun a => ?_
    match a with
    | ⟨0, _⟩ => show r.val = 0 + r.val; omega
    | ⟨1, _⟩ => rfl
  show extractStridedSlice S8192x1 ![0, 3] v0 slices_S8192x4_o0_3_S8192x1 (ix2 r (0 : Fin 1)) * Cert.Blend.half + Cert.Blend.half = _
  rw [e]

/-- The MLP: three products with their biases, two relus and the sigmoid, at a row. -/
private theorem pay3_apply (v0 : Vec Ideal S8192x4 .f32) (v3 : Vec Ideal S4x128 .bf16) (v6 : Vec Ideal S1x128 .f32)
    (v13 : Vec Ideal S128x128 .bf16) (v16 : Vec Ideal S1x128 .f32) (v23 : Vec Ideal S128x1 .bf16) (v26 : Vec Ideal S1x1 .f32)
    (r : Fin 8192) :
    (k0_pay3 (F := Ideal) v0 v3 v6 v13 v16 v23 v26 (ix2 r (0 : Fin 1)) : EReal)
      = Cert.Blend.mlpRowG (fun c k => v3 (ix2 c k)) (fun k => v6 (ix2 (0 : Fin 1) k)) (fun k' k => v13 (ix2 k' k))
          (fun k => v16 (ix2 (0 : Fin 1) k)) (fun k => v23 (ix2 k (0 : Fin 1))) (v26 (ix2 (0 : Fin 1) (0 : Fin 1)))
          (fun c => v0 (ix2 r c)) := by
  unfold k0_pay3 k0_pay2 Cert.Blend.mlpRowG
  simp only [shapeCast_self]
  show Ideal.logistic (_ + _) = _
  simp only [mm3_apply, mm2_apply, mm1_apply, truncf_apply, maximumf_apply, addf_apply, broadcast_apply,
    broadcastTo_1b_ab_apply, Ideal.ofBits_def, Ideal.ofBits_zero_f32]

theorem out0_8_apply (x0 : Vec Ideal S8192x4 .f32) (x1 : Vec Ideal S8192x1 .f32) (x2 : Vec Ideal S4x128 .bf16)
    (x3 : Vec Ideal S1x128 .f32) (x4 : Vec Ideal S128x128 .bf16) (x5 : Vec Ideal S1x128 .f32) (x6 : Vec Ideal S128x1 .bf16)
    (x7 : Vec Ideal S1x1 .f32) (r : Fin 8192) :
    (Gen.out0_8 x0 x1 x2 x3 x4 x5 x6 x7 (ix2 r (0 : Fin 1)) : EReal)
      = if (0 : EReal) < (x1 (ix2 r (0 : Fin 1)) : EReal)
        then Cert.Blend.mlpRowG (fun c k => x2 (ix2 c k)) (fun k => x3 (ix2 (0 : Fin 1) k)) (fun k' k => x4 (ix2 k' k))
          (fun k => x5 (ix2 (0 : Fin 1) k)) (fun k => x6 (ix2 k (0 : Fin 1))) (x7 (ix2 (0 : Fin 1) (0 : Fin 1))) (fun c => x0 (ix2 r c))
        else (x0 (ix2 r (3 : Fin 4)) : EReal) * Cert.Blend.half + Cert.Blend.half := by
  unfold Gen.out0_8
  rw [View.canon_unit_zero hz2]
  simp only [View.ld_unit_zero (S := S8192x4) hz2, View.ld_unit_zero (S := S4x128) hz2, View.ld_unit_zero (S := S1x128) hz2,
    View.ld_unit_zero (S := S128x128) hz2, View.ld_unit_zero (S := S128x1) hz2, View.ld_unit_zero (S := S1x1) hz2,
    View.ld_unit_zero (S := S8192x1) hz2]
  rw [pay1_apply, pay3_apply, pay4_apply]

end Cert.KernelIdeal.Hand

end
-- ==== Proof.KerValue.lean ====
/-
  The kernel program's run at the ideal instance: every weakly fair execution terminates with the result laid out
  from the per-pixel value the region writes (the blocks of 8192 rows cover the column), the arguments unchanged.
-/
import proofs.«114536_j36893769072873_1_alg».proof.Proof.Gen.KernelIdeal.Frame
import proofs.«114536_j36893769072873_1_alg».proof.Proof.Meet
import proofs.«114536_j36893769072873_1_alg».proof.Proof.KerPayload
import Idealize.ShloMosaic.Lib.StableHlo.Run
import Idealize.ShloMosaic.Lib.Pipeline.Value

set_option maxRecDepth 16384

noncomputable section

namespace Cert.KernelIdeal.Hand

open Cert.KernelIdeal Cert.KernelIdeal.Gen Idealize.ShloMosaic Idealize.ShloMosaic.ValueIdx Idealize.ShloMosaic.TcCoe Idealize.SL.Sem
open Idealize.ShloMosaic.Pipeline (Dat)
open Idealize.ShloMosaic.StableHlo

/-! ## The arrays as the region finds them: each the host stage of the arguments -/

section Entry

variable (m : (ℓ : Loc nD τ sig) → Buf (Elt Ideal) ℓ)

/-- The feature table is the channels-last reshape of the image joined with the rescaled fourth channel. -/
theorem V_v26 (c : Dev nD) : Gen.V m c main_v26 = St.feat (F := Ideal) (m ((c.tc : Thread nD τ).loc main_arg0)) (m ((c.tc : Thread nD τ).loc main_arg1)) := by
  dsimp only [Gen.V, Gen.V0]
  simp only [Gen.hostOps0, Gen.hostOps0_1, Gen.hostOps0_2, List.flatten_cons, List.flatten_nil, List.append_nil, List.cons_append, List.nil_append]
  after_results_simp
  rfl

/-- The cover column: the prefix sum's call passes its operands through typed references, whose transports are the
    identity. -/
theorem V_v19 (c : Dev nD) : Gen.V m c main_v19 = St.cover2d (F := Ideal) (m ((c.tc : Thread nD τ).loc main_arg1)) := by
  dsimp only [Gen.V, Gen.V0]
  simp only [Gen.hostOps0, Gen.hostOps0_1, Gen.hostOps0_2, List.flatten_cons, List.flatten_nil, List.append_nil, List.cons_append, List.nil_append]
  after_results_simp
  unfold St.cover2d St.cover St.cs St.bits St.mflat St.mask4
  simp only [TRef.toBuf, TRef.ofBuf, cast_eq]
  rfl

theorem V_v27 (c : Dev nD) : Gen.V m c main_v27 = St.w1b (F := Ideal) (m ((c.tc : Thread nD τ).loc main_arg2)) := by
  dsimp only [Gen.V, Gen.V0]
  simp only [Gen.hostOps0, Gen.hostOps0_1, Gen.hostOps0_2, List.flatten_cons, List.flatten_nil, List.append_nil, List.cons_append, List.nil_append]
  after_results_simp
  rfl

theorem V_v30 (c : Dev nD) : Gen.V m c main_v30 = St.b1r (F := Ideal) (m ((c.tc : Thread nD τ).loc main_arg3)) := by
  dsimp only [Gen.V, Gen.V0]
  simp only [Gen.hostOps0, Gen.hostOps0_1, Gen.hostOps0_2, List.flatten_cons, List.flatten_nil, List.append_nil, List.cons_append, List.nil_append]
  after_results_simp
  rfl

theorem V_v28 (c : Dev nD) : Gen.V m c main_v28 = St.w2b (F := Ideal) (m ((c.tc : Thread nD τ).loc main_arg4)) := by
  dsimp only [Gen.V, Gen.V0]
  simp only [Gen.hostOps0, Gen.hostOps0_1, Gen.hostOps0_2, List.flatten_cons, List.flatten_nil, List.append_nil, List.cons_append, List.nil_append]
  after_results_simp
  rfl

theorem V_v31 (c : Dev nD) : Gen.V m c main_v31 = St.b2r (F := Ideal) (m ((c.tc : Thread nD τ).loc main_arg5)) := by
  dsimp only [Gen.V, Gen.V0]
  simp only [Gen.hostOps0, Gen.hostOps0_1, Gen.hostOps0_2, List.flatten_cons, List.flatten_nil, List.append_nil, List.cons_append, List.nil_append]
  after_results_simp
  rfl

theorem V_v29 (c : Dev nD) : Gen.V m c main_v29 = St.w3b (F := Ideal) (m ((c.tc : Thread nD τ).loc main_arg6)) := by
  dsimp only [Gen.V, Gen.V0]
  simp only [Gen.hostOps0, Gen.hostOps0_1, Gen.hostOps0_2, List.flatten_cons, List.flatten_nil, List.append_nil, List.cons_append, List.nil_append]
  after_results_simp
  rfl

theorem V_v32 (c : Dev nD) : Gen.V m c main_v32 = St.b3r (F := Ideal) (m ((c.tc : Thread nD τ).loc main_arg7)) := by
  dsimp only [Gen.V, Gen.V0]
  simp only [Gen.hostOps0, Gen.hostOps0_1, Gen.hostOps0_2, List.flatten_cons, List.flatten_nil, List.append_nil, List.cons_append, List.nil_append]
  after_results_simp
  rfl

end Entry

/-! ## What a point writes back -/

section Region

variable (m : (ℓ : Loc nD τ sig) → Buf (Elt Ideal) ℓ)

/-- The printed index maps over the grid's 256 points: the feature table, the cover column and the output column are
    at block t on their rows and block 0 on their columns; the six small operands are whole at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Row r of the feature table's block at point t is row 8192 t + r of the table. -/
theorem iblk0_apply (c : Dev nD) (t : Fin cfg0.N) (r : Fin 8192) (k : Fin 4) (q : Fin 2097152) (hq : q.val = 8192 * t.val + r.val) :
    (Gen.iblk m c 0 t : Vec Ideal S8192x4 .f32) (ix2 r k) = (Gen.V m c main_v26 : S2097152x4.Idx → EReal) (ix2 q k) := by
  obtain ⟨e0, e1, -⟩ := idx_facts t
  unfold Gen.iblk
  rw [View.read_apply]
  show Gen.V m c main_v26 _ = Gen.V m c main_v26 _
  congr 1
  funext a
  apply Fin.ext
  match a with
  | ⟨0, _⟩ => show win0_0.index t (0 : Fin 2) * 8192 + 1 * r.val = q.val; rw [e0, hq]; omega
  | ⟨1, _⟩ => show win0_0.index t (1 : Fin 2) * 4 + 1 * k.val = k.val; rw [e1]; omega

/-- Row r of the cover column's block at point t is row 8192 t + r of the column. -/
theorem iblk1_apply (c : Dev nD) (t : Fin cfg0.N) (r : Fin 8192) (q : Fin 2097152) (hq : q.val = 8192 * t.val + r.val) :
    (Gen.iblk m c 1 t : Vec Ideal S8192x1 .f32) (ix2 r (0 : Fin 1)) = (Gen.V m c main_v19 : S2097152x1.Idx → EReal) (ix2 q (0 : Fin 1)) := by
  obtain ⟨-, -, e0, e1, -⟩ := idx_facts t
  unfold Gen.iblk
  rw [View.read_apply]
  show Gen.V m c main_v19 _ = Gen.V m c main_v19 _
  congr 1
  funext a
  apply Fin.ext
  match a with
  | ⟨0, _⟩ => show win0_1.index t (0 : Fin 2) * 8192 + 1 * r.val = q.val; rw [e0, hq]; omega
  | ⟨1, _⟩ => show win0_1.index t (1 : Fin 2) * 1 + 1 * 0 = 0; rw [e1]

/-- A whole-array window's block is the array. -/
theorem iblk2_apply (c : Dev nD) (t : Fin cfg0.N) (a : Fin 4) (k : Fin 128) :
    (Gen.iblk m c 2 t : Vec Ideal S4x128 .bf16) (ix2 a k) = (Gen.V m c main_v27 : S4x128.Idx → EReal) (ix2 a k) := by
  obtain ⟨-, -, -, -, e0, e1, -⟩ := idx_facts t
  unfold Gen.iblk
  rw [View.read_apply]
  show Gen.V m c main_v27 _ = Gen.V m c main_v27 _
  congr 1
  funext d
  apply Fin.ext
  match d with
  | ⟨0, _⟩ => show win0_2.index t (0 : Fin 2) * 4 + 1 * a.val = a.val; rw [e0]; omega
  | ⟨1, _⟩ => show win0_2.index t (1 : Fin 2) * 128 + 1 * k.val = k.val; rw [e1]; omega

theorem iblk3_apply (c : Dev nD) (t : Fin cfg0.N) (k : Fin 128) :
    (Gen.iblk m c 3 t : Vec Ideal S1x128 .f32) (ix2 (0 : Fin 1) k) = (Gen.V m c main_v30 : S1x128.Idx → EReal) (ix2 (0 : Fin 1) k) := by
  obtain ⟨-, -, -, -, -, -, e0, e1, -⟩ := idx_facts t
  unfold Gen.iblk
  rw [View.read_apply]
  show Gen.V m c main_v30 _ = Gen.V m c main_v30 _
  congr 1
  funext d
  apply Fin.ext
  match d with
  | ⟨0, _⟩ => show win0_3.index t (0 : Fin 2) * 1 + 1 * 0 = 0; rw [e0]
  | ⟨1, _⟩ => show win0_3.index t (1 : Fin 2) * 128 + 1 * k.val = k.val; rw [e1]; omega

theorem iblk4_apply (c : Dev nD) (t : Fin cfg0.N) (a : Fin 128) (k : Fin 128) :
    (Gen.iblk m c 4 t : Vec Ideal S128x128 .bf16) (ix2 a k) = (Gen.V m c main_v28 : S128x128.Idx → EReal) (ix2 a k) := by
  obtain ⟨-, -, -, -, -, -, -, -, e0, e1, -⟩ := idx_facts t
  unfold Gen.iblk
  rw [View.read_apply]
  show Gen.V m c main_v28 _ = Gen.V m c main_v28 _
  congr 1
  funext d
  apply Fin.ext
  match d with
  | ⟨0, _⟩ => show win0_4.index t (0 : Fin 2) * 128 + 1 * a.val = a.val; rw [e0]; omega
  | ⟨1, _⟩ => show win0_4.index t (1 : Fin 2) * 128 + 1 * k.val = k.val; rw [e1]; omega

theorem iblk5_apply (c : Dev nD) (t : Fin cfg0.N) (k : Fin 128) :
    (Gen.iblk m c 5 t : Vec Ideal S1x128 .f32) (ix2 (0 : Fin 1) k) = (Gen.V m c main_v31 : S1x128.Idx → EReal) (ix2 (0 : Fin 1) k) := by
  obtain ⟨-, -, -, -, -, -, -, -, -, -, e0, e1, -⟩ := idx_facts t
  unfold Gen.iblk
  rw [View.read_apply]
  show Gen.V m c main_v31 _ = Gen.V m c main_v31 _
  congr 1
  funext d
  apply Fin.ext
  match d with
  | ⟨0, _⟩ => show win0_5.index t (0 : Fin 2) * 1 + 1 * 0 = 0; rw [e0]
  | ⟨1, _⟩ => show win0_5.index t (1 : Fin 2) * 128 + 1 * k.val = k.val; rw [e1]; omega

theorem iblk6_apply (c : Dev nD) (t : Fin cfg0.N) (a : Fin 128) :
    (Gen.iblk m c 6 t : Vec Ideal S128x1 .bf16) (ix2 a (0 : Fin 1)) = (Gen.V m c main_v29 : S128x1.Idx → EReal) (ix2 a (0 : Fin 1)) := by
  obtain ⟨-, -, -, -, -, -, -, -, -, -, -, -, e0, e1, -⟩ := idx_facts t
  unfold Gen.iblk
  rw [View.read_apply]
  show Gen.V m c main_v29 _ = Gen.V m c main_v29 _
  congr 1
  funext d
  apply Fin.ext
  match d with
  | ⟨0, _⟩ => show win0_6.index t (0 : Fin 2) * 128 + 1 * a.val = a.val; rw [e0]; omega
  | ⟨1, _⟩ => show win0_6.index t (1 : Fin 2) * 1 + 1 * 0 = 0; rw [e1]

theorem iblk7_apply (c : Dev nD) (t : Fin cfg0.N) :
    (Gen.iblk m c 7 t : Vec Ideal S1x1 .f32) (ix2 (0 : Fin 1) (0 : Fin 1)) = (Gen.V m c main_v32 : S1x1.Idx → EReal) (ix2 (0 : Fin 1) (0 : Fin 1)) := by
  obtain ⟨-, -, -, -, -, -, -, -, -, -, -, -, -, -, e0, e1, -⟩ := idx_facts t
  unfold Gen.iblk
  rw [View.read_apply]
  show Gen.V m c main_v32 _ = Gen.V m c main_v32 _
  congr 1
  funext d
  apply Fin.ext
  match d with
  | ⟨0, _⟩ => show win0_7.index t (0 : Fin 2) * 1 + 1 * 0 = 0; rw [e0]
  | ⟨1, _⟩ => show win0_7.index t (1 : Fin 2) * 1 + 1 * 0 = 0; rw [e1]

/-- The cover column at row q is the cover flag of pixel q. -/
theorem cover2d_apply (lr : FVec Ideal S8x1x512x512 .f32) (q : Fin 2097152) :
    St.cover2d (F := Ideal) lr (ix2 q (0 : Fin 1)) = St.cover (F := Ideal) lr (ix1 q) := by
  unfold St.cover2d
  refine shapeCast_apply _ _ _ _ ?_
  rw [Shape.rowMajor_val_one, Shape.rowMajor_val_two]
  show q.val = q.val * 1 + 0
  omega

/-- The per-pixel value the region writes, as a column. -/
abbrev G (c : Dev nD) : S2097152x1.Idx → EReal := fun y =>
  Cert.Blend.kerPixel (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (y 0)

theorem flushed_eq (c : Dev nD) (t : Fin cfg0.N) :
    (Gen.dats m 0 c).flushed 8 t = ((cfg0.win 8).blk t).view.read (Elt Ideal) (G m c) := by
  show (cfg0.win 8).cut (grid0.coords t) ((Gen.dats m 0 c).after 8 t) = _
  rw [Gen.after0_8]
  refine funext fun (j : S8192x1.Idx) => ?_
  obtain ⟨r, z, rfl⟩ : ∃ (r : Fin 8192) (z : Fin 1), j = ix2 r z := ⟨j 0, j 1, eq_ix2 j⟩
  obtain rfl : z = 0 := Subsingleton.elim _ _
  have ht : t.val < 256 := lt_of_lt_of_eq t.isLt N_0
  have hlt : 8192 * t.val + r.val < 2097152 := by have := r.isLt; omega
  obtain ⟨-, -, -, -, -, -, -, -, -, -, -, -, -, -, -, -, e0, e1⟩ := idx_facts t
  have hemb : (((cfg0.win 8).blk t).view.emb (ix2 r (0 : Fin 1)) : S2097152x1.Idx) (0 : Fin 2) = (⟨8192 * t.val + r.val, hlt⟩ : Fin 2097152) := by
    apply Fin.ext
    show win0_8.index t (0 : Fin 2) * 8192 + 1 * r.val = 8192 * t.val + r.val
    rw [e0]; omega
  rw [View.read_apply]
  refine (Hand.out0_8_apply (Gen.iblk m c 0 t) (Gen.iblk m c 1 t) (Gen.iblk m c 2 t) (Gen.iblk m c 3 t) (Gen.iblk m c 4 t) (Gen.iblk m c 5 t) (Gen.iblk m c 6 t) (Gen.iblk m c 7 t) r).trans ?_
  refine Eq.trans ?_ (congrArg (Cert.Blend.kerPixel (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) hemb).symm
  unfold Cert.Blend.kerPixel
  simp only [iblk0_apply m c t r _ ⟨8192 * t.val + r.val, hlt⟩ rfl, iblk1_apply m c t r ⟨8192 * t.val + r.val, hlt⟩ rfl,
    iblk2_apply, iblk3_apply, iblk4_apply, iblk5_apply, iblk6_apply, iblk7_apply]
  rw [V_v26 m c, V_v19 m c, V_v27 m c, V_v30 m c, V_v28 m c, V_v31 m c, V_v29 m c, V_v32 m c, cover2d_apply]

end Region

/-! ## The cover, the host tail, the run -/

section Final

variable (m : (ℓ : Loc nD τ sig) → Buf (Elt Ideal) ℓ)

/-- A row of the output column is in point t's block iff it lies in rows 8192 t … 8192 t + 8191. -/
theorem mem_blk (t : Fin cfg0.N) (i : S2097152x1.Idx) :
    i ∈ ((cfg0.win 8).blk t).view.set ↔ ∀ a : Fin 2, win0_8.index t a * S8192x1.size a ≤ (i a).val ∧ (i a).val < win0_8.index t a * S8192x1.size a + S8192x1.size a := by
  show i ∈ ((View.whole main_v33).slice (win0_8.rect t)).set ↔ _
  rw [View.set_slice_whole, Rect.mem_set_unit]
  exact Iff.rfl

/-- Every row of the column is in the block of the point row / 8192. -/
theorem cover (i : S2097152x1.Idx) : ∃ t : Fin cfg0.N, (cfg0.win 8).flush t = true ∧ i ∈ ((cfg0.win 8).blk t).view.set := by
  have hi0 : (i 0).val < 2097152 := (i 0).isLt
  have hi1 : (i 1).val < 1 := (i 1).isLt
  have hq : (i 0).val / 8192 < 256 := by omega
  let t : Fin cfg0.N := ⟨(i 0).val / 8192, lt_of_lt_of_eq hq N_0.symm⟩
  have htv : t.val = (i 0).val / 8192 := rfl
  obtain ⟨-, -, -, -, -, -, -, -, -, -, -, -, -, -, -, -, e0, e1⟩ := idx_facts t
  refine ⟨t, flush0_8 t, ?_⟩
  rw [mem_blk]
  intro a
  match a with
  | ⟨0, _⟩ =>
    show win0_8.index t (0 : Fin 2) * 8192 ≤ (i 0).val ∧ (i 0).val < win0_8.index t (0 : Fin 2) * 8192 + 8192
    rw [e0, htv]; omega
  | ⟨1, _⟩ =>
    show win0_8.index t (1 : Fin 2) * 1 ≤ (i 1).val ∧ (i 1).val < win0_8.index t (1 : Fin 2) * 1 + 1
    rw [e1]; omega

/-- The output column after the region is the per-pixel value at every row. -/
theorem final (c : Dev nD) : (Gen.dats m 0 c).arrAt 8 cfg0.N = G m c :=
  (Gen.dats m 0 c).arrAt_eq_of_cover 8 (G m c) (fun t _ => flushed_eq m c t) cover

/-- The program's result: the reshape of the output column. -/
theorem tail_eq (c : Dev nD) :
    Pipeline.afterTail₀ cfgs (Gen.dats m) 0 (Gen.V0 m) [hostOps1] c main_v34 = St.outOf (F := Ideal) (G m c) := by
  unfold Pipeline.afterTail₀
  show StableHlo.after hostOps1 _ (Proc.devRef .tc main_v34) = _
  simp only [Gen.hostOps1]
  after_results
  unfold St.outOf
  rw [show Pipeline.withArrays (cfgs 0).spec c (Gen.V0 m c) (fun w => (Gen.dats m 0 c).arrAt w (cfgs 0).N) (Proc.devRef .tc main_v33) = G m c from
    (Pipeline.withArrays_arr spec0 launch0.win.arr_inj c _ _ 8).trans (final m c)]
  rfl

end Final

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v34)
          = St.outOf (F := Ideal) (fun y : S2097152x1.Idx => Cert.Blend.kerPixel (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (y 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  exact (θ_run defs _ _).mono (fun r h c => ⟨((h c).2 main_v34 (Pipeline.mem_restRefs_of main_v34 (by decide) (by decide))).trans (tail_eq m c),
      (((h c).2 main_arg0 (Pipeline.mem_restRefs_of main_arg0 (by decide) (by decide))).trans (Gen.W_main_arg0 m (Gen.dats m) c)),
      (((h c).2 main_arg1 (Pipeline.mem_restRefs_of main_arg1 (by decide) (by decide))).trans (Gen.W_main_arg1 m (Gen.dats m) c)),
      (((h c).2 main_arg2 (Pipeline.mem_restRefs_of main_arg2 (by decide) (by decide))).trans (Gen.W_main_arg2 m (Gen.dats m) c)),
      (((h c).2 main_arg3 (Pipeline.mem_restRefs_of main_arg3 (by decide) (by decide))).trans (Gen.W_main_arg3 m (Gen.dats m) c)),
      (((h c).2 main_arg4 (Pipeline.mem_restRefs_of main_arg4 (by decide) (by decide))).trans (Gen.W_main_arg4 m (Gen.dats m) c)),
      (((h c).2 main_arg5 (Pipeline.mem_restRefs_of main_arg5 (by decide) (by decide))).trans (Gen.W_main_arg5 m (Gen.dats m) c)),
      (((h c).2 main_arg6 (Pipeline.mem_restRefs_of main_arg6 (by decide) (by decide))).trans (Gen.W_main_arg6 m (Gen.dats m) c)),
      (((h c).2 main_arg7 (Pipeline.mem_restRefs_of main_arg7 (by decide) (by decide))).trans (Gen.W_main_arg7 m (Gen.dats m) c))⟩)
    (Gen.run_main m ρ)

end Cert.KernelIdeal.Hand

end
-- ==== Proof.RefRun.lean ====
/-
  The reference program's run: its host operations in order, the outlined functions' bodies written in at their
  calls, and the contents of its result buffer after every weakly fair execution, as the stages' composed value
  of the argument arrays.
-/
import proofs.«114536_j36893769072873_1_alg».proof.Proof.RefStages
import Idealize.ShloMosaic.Lib.StableHlo.Run
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operations, in order, in consecutive stretches

Each stretch ends where one of the stages' arrays is complete. A call of an outlined function is written as the
function's own operations over the buffers the call's record names. -/

/-- The mask's dilation, the feature table, the flattened mask and its bits. -/
def opsA : List (HloOp τ sig (Elt F)) :=
  [ nullary main_cst (constant S_ .f32 0x3C23D70A#32),
    unary main_cst main_v0 (broadcastInDim S8x1x512x512 ![] bcast_S_S8x1x512x512),
    binary main_arg1 main_v0 main_v1 (cmpf .ogt),
    nullary main_cst_0 (constant S_ .f32 0x3F7D70A4#32),
    unary main_cst_0 main_v2 (broadcastInDim S8x1x512x512 ![] bcast_S_S8x1x512x512),
    binary main_arg1 main_v2 main_v3 (cmpf .olt),
    binary main_v1 main_v3 main_v4 andi,
    unary main_v4 main_v5 (uitofp .f32),
    nullary main_cst_1 (constant S_ .f32 0xFF800000#32),
    unary main_cst_1 main_v6 (broadcastInDim S_ ![] bcast_S_S_),
    binary main_v5 main_v6 main_v7 (fun x v => Host.reduceWindow FloatOps.maximumf ![1, 1, 15, 15] ![1, 1, 1, 1] ![0, 0, 7, 7] ![0, 0, 7, 7] x v reduceWindows_S8x1x512x512_S8x1x512x512_w1s1p0_0_w1s1p0_0_w15s1p7_7_w15s1p7_7 h_S_),
    nullary main_cst_2 (constant S_ .f32 0x3F000000#32),
    unary main_cst_2 main_v8 (broadcastInDim S8x1x512x512 ![] bcast_S_S8x1x512x512),
    binary main_arg1 main_v8 main_v9 subf,
    nullary main_cst_3 (constant S_ .f32 0x3F000000#32),
    unary main_cst_3 main_v10 (broadcastInDim S8x1x512x512 ![] bcast_S_S8x1x512x512),
    binary main_v9 main_v10 main_v11 Host.divf,
    binary main_arg0 main_v11 main_v12 (fun a b => concatenate S8x4x512x512 1 [⟨S8x3x512x512, a⟩, ⟨S8x1x512x512, b⟩] concatenates_S8x3x512x512_S8x1x512x512_S8x4x512x512_d1),
    unary main_v12 main_v13 (transpose S8x512x512x4 [0, 2, 3, 1] · transposes_S8x4x512x512_S8x512x512x4_0_2_3_1),
    reshape main_v13 main_v14 rfl shapeCasts_S8x512x512x4_S2097152x4,
    reshape main_v7 main_v15 rfl shapeCasts_S8x1x512x512_S2097152,
    nullary main_cst_4 (constant S_ .f32 0x00000000#32),
    unary main_cst_4 main_v16 (broadcastInDim S2097152 ![] bcast_S_S2097152),
    binary main_v15 main_v16 main_v17 (cmpf .ogt) ]

/-- The prefix count of the bits, clipped below and wrapped, and the scatter counting each prefix count's pixels. -/
def opsB : List (HloOp τ sig (Elt F)) :=
  [ unary main_v17 main_call0_v0 (extui 32 · natLt_1_32),
    nullary main_call0_call0_c (constantI S_ 32 0#32),
    unary main_call0_call0_c main_call0_call0_v0 (broadcastInDim S_ ![] bcast_S_S_),
    binary main_call0_v0 main_call0_call0_v0 main_v18 (fun x v => Host.reduceWindow IntOp.addi ![2097152] ![1] ![2097151] ![0] x v reduceWindows_S2097152_S2097152_w2097152s1p2097151_0 h_S_),
    nullary main_c (constantI S_ 32 0#32),
    unary main_c main_v19 (broadcastInDim S1048576 ![] bcast_S_S1048576),
    nullary main_c_5 (constantI S_ 32 0#32),
    unary main_c_5 main_call1_v0 id,
    unary main_call1_v0 main_call1_v1 (broadcastInDim S2097152 ![] bcast_S_S2097152),
    binary main_call1_v1 main_v18 main_v20 maxsi,
    nullary main_c_6 (constantI S_ 32 0#32),
    unary main_c_6 main_v21 (broadcastInDim S2097152 ![] bcast_S_S2097152),
    binary main_v20 main_v21 main_v22 (cmpi .slt),
    nullary main_c_7 (constantI S_ 32 1048576#32),
    unary main_c_7 main_v23 (broadcastInDim S2097152 ![] bcast_S_S2097152),
    binary main_v20 main_v23 main_v24 addi,
    ternary main_v22 main_v24 main_v20 main_v25 select,
    unary main_v25 main_v26 (broadcastInDim S2097152x1 ![0] bcast_S2097152_S2097152x1_0),
    nullary main_c_8 (constantI S_ 32 1#32),
    unary main_c_8 main_v27 (broadcastInDim S2097152 ![] bcast_S_S2097152),
    ternary main_v19 main_v26 main_v27 main_v28 (fun x i u => Host.scatter scatter_S1048576_S2097152x1_S2097152_n_0_0_1 IntOp.addi x i u) ]

/-- The prefix sums over the slots and their floor division by one. -/
def opsC : List (HloOp τ sig (Elt F)) :=
  [ nullary main_call2_call0_c (constantI S_ 32 0#32),
    unary main_call2_call0_c main_call2_call0_v0 (broadcastInDim S_ ![] bcast_S_S_),
    binary main_v28 main_call2_call0_v0 main_v29 (fun x v => Host.reduceWindow IntOp.addi ![1048576] ![1] ![1048575] ![0] x v reduceWindows_S1048576_S1048576_w1048576s1p1048575_0 h_S_),
    nullary main_c_9 (constantI S_ 32 1#32),
    unary main_c_9 main_call3_v0 (broadcastInDim S1048576 ![] bcast_S_S1048576),
    binary main_v29 main_call3_v0 main_call3_v1 Host.divsi,
    unary main_v29 main_call3_v2 signi,
    unary main_c_9 main_call3_v3 signi,
    unary main_call3_v3 main_call3_v4 (broadcastInDim S1048576 ![] bcast_S_S1048576),
    binary main_call3_v2 main_call3_v4 main_call3_v5 (cmpi .ne),
    unary main_c_9 main_call3_v6 (broadcastInDim S1048576 ![] bcast_S_S1048576),
    binary main_v29 main_call3_v6 main_call3_v7 Host.remsi,
    nullary main_call3_c (constantI S_ 32 0#32),
    unary main_call3_c main_call3_v8 (broadcastInDim S1048576 ![] bcast_S_S1048576),
    binary main_call3_v7 main_call3_v8 main_call3_v9 (cmpi .ne),
    binary main_call3_v5 main_call3_v9 main_call3_v10 andi,
    nullary main_call3_c_0 (constantI S_ 32 1#32),
    unary main_call3_c_0 main_call3_v11 (broadcastInDim S1048576 ![] bcast_S_S1048576),
    binary main_call3_v1 main_call3_v11 main_call3_v12 subi,
    ternary main_call3_v10 main_call3_v12 main_call3_v1 main_v30 select ]

/-- The remainder modulo the number of pixels. -/
def opsD : List (HloOp τ sig (Elt F)) :=
  [ nullary main_c_10 (constantI S_ 32 2097152#32),
    unary main_c_10 main_call4_v0 id,
    nullary main_call4_c (constantI S_ 32 0#32),
    binary main_call4_v0 main_call4_c main_call4_v1 (cmpi .eq),
    nullary main_call4_c_0 (constantI S_ 32 1#32),
    ternary main_call4_v1 main_call4_c_0 main_call4_v0 main_call4_v2 select,
    unary main_call4_v2 main_call4_v3 (broadcastInDim S1048576 ![] bcast_S_S1048576),
    binary main_v30 main_call4_v3 main_call4_v4 Host.remsi,
    nullary main_call4_c_1 (constantI S_ 32 0#32),
    unary main_call4_c_1 main_call4_v5 (broadcastInDim S1048576 ![] bcast_S_S1048576),
    binary main_call4_v4 main_call4_v5 main_call4_v6 (cmpi .ne),
    nullary main_call4_c_2 (constantI S_ 32 0#32),
    unary main_call4_c_2 main_call4_v7 (broadcastInDim S1048576 ![] bcast_S_S1048576),
    binary main_call4_v4 main_call4_v7 main_call4_v8 (cmpi .slt),
    nullary main_call4_c_3 (constantI S_ 32 0#32),
    binary main_call4_v2 main_call4_c_3 main_call4_v9 (cmpi .slt),
    unary main_call4_v9 main_call4_v10 (broadcastInDim S1048576 ![] bcast_S_S1048576),
    binary main_call4_v8 main_call4_v10 main_call4_v11 (cmpi .ne),
    binary main_call4_v11 main_call4_v6 main_call4_v12 andi,
    unary main_call4_v2 main_call4_v13 (broadcastInDim S1048576 ![] bcast_S_S1048576),
    binary main_call4_v4 main_call4_v13 main_call4_v14 addi,
    ternary main_call4_v12 main_call4_v14 main_call4_v4 main_v31 select ]

/-- The count of the bits and the positions, zero from the count on. -/
def opsE : List (HloOp τ sig (Elt F)) :=
  [ nullary main_v32 (iotaInDim S1048576 32 0),
    unary main_v17 main_v33 (extui 32 · natLt_1_32),
    nullary main_c_11 (constantI S_ 32 0#32),
    binary main_v33 main_c_11 main_v34 (fun x v => Host.reduce IntOp.addi x v reducesTo_S2097152_S_d0 h_S_),
    unary main_v34 main_v35 (broadcastInDim S1048576 ![] bcast_S_S1048576),
    binary main_v32 main_v35 main_v36 (cmpi .sge),
    nullary main_c_12 (constantI S_ 32 0#32),
    unary main_c_12 main_call5_v0 id,
    unary main_call5_v0 main_call5_v1 (broadcastInDim S1048576 ![] bcast_S_S1048576),
    ternary main_v36 main_call5_v1 main_v31 main_v37 select ]

/-- The bits and their count once more, and the slots' numbers. -/
def opsF : List (HloOp τ sig (Elt F)) :=
  [ nullary main_cst_13 (constant S_ .f32 0x00000000#32),
    unary main_cst_13 main_v38 (broadcastInDim S2097152 ![] bcast_S_S2097152),
    binary main_v15 main_v38 main_v39 (cmpf .ogt),
    unary main_v39 main_v40 (extui 32 · natLt_1_32),
    nullary main_c_14 (constantI S_ 32 0#32),
    binary main_v40 main_c_14 main_v41 (fun x v => Host.reduce IntOp.addi x v reducesTo_S2097152_S_d0 h_S_),
    nullary main_v42 (iotaInDim S1048576 32 0) ]

/-- The slots in use, as floats. -/
def opsG : List (HloOp τ sig (Elt F)) :=
  [ unary main_v41 main_v43 (broadcastInDim S1048576 ![] bcast_S_S1048576),
    binary main_v42 main_v43 main_v44 (cmpi .slt),
    unary main_v44 main_v45 (uitofp .f32) ]

/-- The positions as a column of start indices. -/
def opsH : List (HloOp τ sig (Elt F)) :=
  [ nullary main_c_15 (constantI S_ 32 0#32),
    unary main_c_15 main_v46 (broadcastInDim S1048576 ![] bcast_S_S1048576),
    binary main_v37 main_v46 main_v47 (cmpi .slt),
    nullary main_c_16 (constantI S_ 32 2097152#32),
    unary main_c_16 main_v48 (broadcastInDim S1048576 ![] bcast_S_S1048576),
    binary main_v37 main_v48 main_v49 addi,
    ternary main_v47 main_v49 main_v37 main_v50 select,
    unary main_v50 main_v51 (broadcastInDim S1048576x1 ![0] bcast_S1048576_S1048576x1_0) ]

/-- The gathered rows through the three layers and the logistic. -/
def opsI : List (HloOp τ sig (Elt F)) :=
  [ binary main_v14 main_v51 main_v52 (fun x i => Host.gather gather_S2097152x4_S1048576x1_S1048576x4_1_0_n_n_0_1_14 x i),
    binary main_v52 main_arg2 main_v53 (fun l r => Host.dotGeneral dot_S1048576x4_S4x128_S1048576x128_1_0_0_1_n_n none l r),
    unary main_arg3 main_v54 (broadcastInDim S1x128 ![1] bcast_S128_S1x128_1),
    unary main_v54 main_v55 (broadcastInDim S1048576x128 ![0, 1] bcast_S1x128_S1048576x128_0_1),
    binary main_v53 main_v55 main_v56 addf,
    nullary main_call6_cst (constant S_ .f32 0x00000000#32),
    unary main_call6_cst main_call6_v0 (broadcastInDim S1048576x128 ![] bcast_S_S1048576x128),
    binary main_v56 main_call6_v0 main_v57 maximumf,
    binary main_v57 main_arg4 main_v58 (fun l r => Host.dotGeneral dot_S1048576x128_S128x128_S1048576x128_1_0_0_1_n_n none l r),
    unary main_arg5 main_v59 (broadcastInDim S1x128 ![1] bcast_S128_S1x128_1),
    unary main_v59 main_v60 (broadcastInDim S1048576x128 ![0, 1] bcast_S1x128_S1048576x128_0_1),
    binary main_v58 main_v60 main_v61 addf,
    nullary main_call7_cst (constant S_ .f32 0x00000000#32),
    unary main_call7_cst main_call7_v0 (broadcastInDim S1048576x128 ![] bcast_S_S1048576x128),
    binary main_v61 main_call7_v0 main_v62 maximumf,
    binary main_v62 main_arg6 main_v63 (fun l r => Host.dotGeneral dot_S1048576x128_S128x1_S1048576x1_1_0_0_1_n_n none l r),
    unary main_arg7 main_v64 (broadcastInDim S1x1 ![1] bcast_S1_S1x1_1),
    unary main_v64 main_v65 (broadcastInDim S1048576x1 ![0, 1] bcast_S1x1_S1048576x1_0_1),
    binary main_v63 main_v65 main_v66 addf,
    unary main_v66 main_v67 Host.negf,
    unary main_v67 main_v68 Host.exp,
    nullary main_cst_17 (constant S_ .f32 0x3F800000#32),
    unary main_cst_17 main_v69 (broadcastInDim S1048576x1 ![] bcast_S_S1048576x1),
    binary main_v69 main_v68 main_v70 addf,
    nullary main_cst_18 (constant S_ .f32 0x3F800000#32),
    unary main_cst_18 main_v71 (broadcastInDim S1048576x1 ![] bcast_S_S1048576x1),
    binary main_v71 main_v70 main_v72 Host.divf,
    reshape main_v72 main_v73 rfl shapeCasts_S1048576x1_S1048576 ]

/-- The predictions of the slots in use, added at their positions. -/
def opsJ : List (HloOp τ sig (Elt F)) :=
  [ nullary main_cst_19 (constant S_ .f32 0x00000000#32),
    unary main_cst_19 main_v74 (broadcastInDim S2097152 ![] bcast_S_S2097152),
    binary main_v73 main_v45 main_v75 mulf,
    nullary main_c_20 (constantI S_ 32 0#32),
    unary main_c_20 main_v76 (broadcastInDim S1048576 ![] bcast_S_S1048576),
    binary main_v37 main_v76 main_v77 (cmpi .slt),
    nullary main_c_21 (constantI S_ 32 2097152#32),
    unary main_c_21 main_v78 (broadcastInDim S1048576 ![] bcast_S_S1048576),
    binary main_v37 main_v78 main_v79 addi,
    ternary main_v77 main_v79 main_v37 main_v80 select,
    unary main_v80 main_v81 (broadcastInDim S1048576x1 ![0] bcast_S1048576_S1048576x1_0),
    ternary main_v74 main_v81 main_v75 main_v82 (fun x i u => Host.scatterAdd scatter_S2097152_S1048576x1_S1048576_n_0_0_1 x i u) ]

/-- The slots in use, added at their positions, and lr flattened. -/
def opsK : List (HloOp τ sig (Elt F)) :=
  [ nullary main_cst_22 (constant S_ .f32 0x00000000#32),
    unary main_cst_22 main_v83 (broadcastInDim S2097152 ![] bcast_S_S2097152),
    nullary main_c_23 (constantI S_ 32 0#32),
    unary main_c_23 main_v84 (broadcastInDim S1048576 ![] bcast_S_S1048576),
    binary main_v37 main_v84 main_v85 (cmpi .slt),
    nullary main_c_24 (constantI S_ 32 2097152#32),
    unary main_c_24 main_v86 (broadcastInDim S1048576 ![] bcast_S_S1048576),
    binary main_v37 main_v86 main_v87 addi,
    ternary main_v85 main_v87 main_v37 main_v88 select,
    unary main_v88 main_v89 (broadcastInDim S1048576x1 ![0] bcast_S1048576_S1048576x1_0),
    ternary main_v83 main_v89 main_v45 main_v90 (fun x i u => Host.scatterAdd scatter_S2097152_S1048576x1_S1048576_n_0_0_1 x i u),
    reshape main_arg1 main_v91 rfl shapeCasts_S8x1x512x512_S2097152 ]

/-- The constant one. -/
def opsL : List (HloOp τ sig (Elt F)) :=
  [ nullary main_cst_25 (constant S_ .f32 0x3F800000#32) ]

/-- The blend and its reshape. -/
def opsM : List (HloOp τ sig (Elt F)) :=
  [ unary main_cst_25 main_v92 (broadcastInDim S2097152 ![] bcast_S_S2097152),
    binary main_v92 main_v90 main_v93 subf,
    binary main_v93 main_v91 main_v94 mulf,
    binary main_v82 main_v94 main_v95 addf,
    binary main_v95 main_v15 main_v96 mulf,
    nullary main_cst_26 (constant S_ .f32 0x3F800000#32),
    unary main_cst_26 main_v97 (broadcastInDim S2097152 ![] bcast_S_S2097152),
    binary main_v97 main_v15 main_v98 subf,
    binary main_v91 main_v98 main_v99 mulf,
    binary main_v96 main_v99 main_v100 addf,
    reshape main_v100 main_v101 rfl shapeCasts_S2097152_S8x1x512x512 ]

/-- The three windows of the printed program. -/
def ops0 : List (HloOp τ sig (Elt F)) := opsA ++ (opsB ++ (opsC ++ (opsD ++ (opsE ++ opsF))))
def ops1 : List (HloOp τ sig (Elt F)) := opsG ++ (opsH ++ (opsI ++ (opsJ ++ (opsK ++ opsL))))
def ops2 : List (HloOp τ sig (Elt F)) := opsM

/-- The program's operations, in order. -/
abbrev ops : List (HloOp τ sig (Elt F)) := ops0 ++ (ops1 ++ ops2)

/-! ## The program is that line

A call's operations here are over the bare references its record's fields name; the printed body is over the typed
references, whose transports along a type equation that is `rfl` are the identity. -/

-- the prefix sums' windows span the whole array: they stay folded while the two sides are compared
attribute [local irreducible] Host.reduceWindow in
set_option maxRecDepth 8192 in
set_option maxHeartbeats 4000000 in
theorem part0_eq (c : Dev nD) : main_part0 (F := F) c = seq ops0 := rfl

set_option maxRecDepth 8192 in
set_option maxHeartbeats 4000000 in
theorem part1_eq (c : Dev nD) : main_part1 (F := F) c = seq ops1 := rfl

set_option maxRecDepth 8192 in
set_option maxHeartbeats 4000000 in
theorem part2_eq (c : Dev nD) : main_part2 (F := F) c = seq ops2 := rfl

/-- The program is that straight line. -/
theorem main_eq (c : Dev nD) : main (F := F) c = seq ops := by
  show (main_part0 c >>= fun _ => (main_part1 c >>= fun _ => main_part2 c)) = _
  rw [part0_eq c, part1_eq c, part2_eq c, ← seq_append ops1 ops2, ← seq_append ops0 (ops1 ++ ops2)]

/-! ## Reading the contents after a stretch -/

/-- The contents after two stretches in a row are the second's, from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- What holds of every operation of two stretches holds of every operation of their concatenation. -/
theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

/-- An operation writing the one buffer `y` writes inside any list of references holding `y`. -/
theorem writes_sub_of_mem {W : List (Ref sig .tc)} {op : HloOp τ sig (Elt F)} {y : Ref sig .tc}
    (h : op.writes = {Proc.devRef (τ := τ) .tc y}) (hy : y ∈ W) :
    op.writes ⊆ (W.map (Proc.devRef (τ := τ) .tc)).toFinset := by
  rw [h, Finset.singleton_subset_iff, List.mem_toFinset]
  exact List.mem_map_of_mem hy

/-- Every operation of a literal stretch determines what it writes. -/
local macro "fresh_all" : tactic => `(tactic| repeat' (first | exact rfl | constructor))

/-- Every operation of a literal stretch writes one reference of the list. -/
local macro "writes_all" : tactic =>
  `(tactic| repeat' (first | exact writes_sub_of_mem rfl (by decide) | constructor))

/-- The references stretch A writes. -/
def wA : List (Ref sig .tc) :=
  [main_cst, main_v0, main_v1, main_cst_0, main_v2, main_v3, main_v4, main_v5, main_cst_1, main_v6, main_v7, main_cst_2, main_v8,
    main_v9, main_cst_3, main_v10, main_v11, main_v12, main_v13, main_v14, main_v15, main_cst_4, main_v16, main_v17]

theorem opsA_sub : (opsA (F := F)).Forall fun op => op.bufs ⊆ tcRefs τ sig :=
  ⟨nullary_bufs_sub .., unary_bufs_sub .., binary_bufs_sub .., nullary_bufs_sub .., unary_bufs_sub .., binary_bufs_sub ..,
    binary_bufs_sub .., unary_bufs_sub .., nullary_bufs_sub .., unary_bufs_sub .., binary_bufs_sub .., nullary_bufs_sub ..,
    unary_bufs_sub .., binary_bufs_sub .., nullary_bufs_sub .., unary_bufs_sub .., binary_bufs_sub .., binary_bufs_sub ..,
    unary_bufs_sub .., reshape_bufs_sub .., reshape_bufs_sub .., nullary_bufs_sub .., unary_bufs_sub .., binary_bufs_sub ..⟩
theorem opsA_fresh : (opsA (F := F)).Forall fun op => op.fresh = ∅ := by unfold opsA; fresh_all
theorem opsA_writes :
    (opsA (F := F)).Forall fun op => op.writes ⊆ (wA.map (Proc.devRef (τ := τ) .tc)).toFinset := by
  unfold opsA; writes_all
/-- A reference stretch A does not write keeps its contents. -/
theorem opsA_frame (V : Valuation τ sig (Elt F)) (r : Ref sig .tc) (hr : r ∉ wA) :
    after opsA V (no_index (Proc.devRef .tc r)) = V (Proc.devRef .tc r) :=
  after_of_writes_sub opsA V opsA_writes hr

/-- The references stretch B writes. -/
def wB : List (Ref sig .tc) :=
  [main_call0_v0, main_call0_call0_c, main_call0_call0_v0, main_v18, main_c, main_v19, main_c_5, main_call1_v0, main_call1_v1,
    main_v20, main_c_6, main_v21, main_v22, main_c_7, main_v23, main_v24, main_v25, main_v26, main_c_8, main_v27, main_v28]

theorem opsB_sub : (opsB (F := F)).Forall fun op => op.bufs ⊆ tcRefs τ sig :=
  ⟨unary_bufs_sub .., nullary_bufs_sub .., unary_bufs_sub .., binary_bufs_sub .., nullary_bufs_sub .., unary_bufs_sub ..,
    nullary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    nullary_bufs_sub .., unary_bufs_sub .., ternary_bufs_sub ..⟩
theorem opsB_fresh : (opsB (F := F)).Forall fun op => op.fresh = ∅ := by unfold opsB; fresh_all
theorem opsB_writes :
    (opsB (F := F)).Forall fun op => op.writes ⊆ (wB.map (Proc.devRef (τ := τ) .tc)).toFinset := by
  unfold opsB; writes_all
/-- A reference stretch B does not write keeps its contents. -/
theorem opsB_frame (V : Valuation τ sig (Elt F)) (r : Ref sig .tc) (hr : r ∉ wB) :
    after opsB V (no_index (Proc.devRef .tc r)) = V (Proc.devRef .tc r) :=
  after_of_writes_sub opsB V opsB_writes hr

/-- The references stretch C writes. -/
def wC : List (Ref sig .tc) :=
  [main_call2_call0_c, main_call2_call0_v0, main_v29, main_c_9, main_call3_v0, main_call3_v1, main_call3_v2, main_call3_v3,
    main_call3_v4, main_call3_v5, main_call3_v6, main_call3_v7, main_call3_c, main_call3_v8, main_call3_v9, main_call3_v10,
    main_call3_c_0, main_call3_v11, main_call3_v12, main_v30]

theorem opsC_sub : (opsC (F := F)).Forall fun op => op.bufs ⊆ tcRefs τ sig :=
  ⟨nullary_bufs_sub .., unary_bufs_sub .., binary_bufs_sub .., nullary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub ..⟩
theorem opsC_fresh : (opsC (F := F)).Forall fun op => op.fresh = ∅ := by unfold opsC; fresh_all
theorem opsC_writes :
    (opsC (F := F)).Forall fun op => op.writes ⊆ (wC.map (Proc.devRef (τ := τ) .tc)).toFinset := by
  unfold opsC; writes_all
/-- A reference stretch C does not write keeps its contents. -/
theorem opsC_frame (V : Valuation τ sig (Elt F)) (r : Ref sig .tc) (hr : r ∉ wC) :
    after opsC V (no_index (Proc.devRef .tc r)) = V (Proc.devRef .tc r) :=
  after_of_writes_sub opsC V opsC_writes hr

/-- The references stretch D writes. -/
def wD : List (Ref sig .tc) :=
  [main_c_10, main_call4_v0, main_call4_c, main_call4_v1, main_call4_c_0, main_call4_v2, main_call4_v3, main_call4_v4,
    main_call4_c_1, main_call4_v5, main_call4_v6, main_call4_c_2, main_call4_v7, main_call4_v8, main_call4_c_3, main_call4_v9,
    main_call4_v10, main_call4_v11, main_call4_v12, main_call4_v13, main_call4_v14, main_v31]

theorem opsD_sub : (opsD (F := F)).Forall fun op => op.bufs ⊆ tcRefs τ sig :=
  ⟨nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub ..⟩
theorem opsD_fresh : (opsD (F := F)).Forall fun op => op.fresh = ∅ := by unfold opsD; fresh_all
theorem opsD_writes :
    (opsD (F := F)).Forall fun op => op.writes ⊆ (wD.map (Proc.devRef (τ := τ) .tc)).toFinset := by
  unfold opsD; writes_all
/-- A reference stretch D does not write keeps its contents. -/
theorem opsD_frame (V : Valuation τ sig (Elt F)) (r : Ref sig .tc) (hr : r ∉ wD) :
    after opsD V (no_index (Proc.devRef .tc r)) = V (Proc.devRef .tc r) :=
  after_of_writes_sub opsD V opsD_writes hr

/-- The references stretch E writes. -/
def wE : List (Ref sig .tc) :=
  [main_v32, main_v33, main_c_11, main_v34, main_v35, main_v36, main_c_12, main_call5_v0, main_call5_v1, main_v37]

theorem opsE_sub : (opsE (F := F)).Forall fun op => op.bufs ⊆ tcRefs τ sig :=
  ⟨nullary_bufs_sub .., unary_bufs_sub .., nullary_bufs_sub .., binary_bufs_sub .., unary_bufs_sub .., binary_bufs_sub ..,
    nullary_bufs_sub .., unary_bufs_sub .., unary_bufs_sub .., ternary_bufs_sub ..⟩
theorem opsE_fresh : (opsE (F := F)).Forall fun op => op.fresh = ∅ := by unfold opsE; fresh_all
theorem opsE_writes :
    (opsE (F := F)).Forall fun op => op.writes ⊆ (wE.map (Proc.devRef (τ := τ) .tc)).toFinset := by
  unfold opsE; writes_all
/-- A reference stretch E does not write keeps its contents. -/
theorem opsE_frame (V : Valuation τ sig (Elt F)) (r : Ref sig .tc) (hr : r ∉ wE) :
    after opsE V (no_index (Proc.devRef .tc r)) = V (Proc.devRef .tc r) :=
  after_of_writes_sub opsE V opsE_writes hr

/-- The references stretch F writes. -/
def wF : List (Ref sig .tc) :=
  [main_cst_13, main_v38, main_v39, main_v40, main_c_14, main_v41, main_v42]

theorem opsF_sub : (opsF (F := F)).Forall fun op => op.bufs ⊆ tcRefs τ sig :=
  ⟨nullary_bufs_sub .., unary_bufs_sub .., binary_bufs_sub .., unary_bufs_sub .., nullary_bufs_sub .., binary_bufs_sub ..,
    nullary_bufs_sub ..⟩
theorem opsF_fresh : (opsF (F := F)).Forall fun op => op.fresh = ∅ := by unfold opsF; fresh_all
theorem opsF_writes :
    (opsF (F := F)).Forall fun op => op.writes ⊆ (wF.map (Proc.devRef (τ := τ) .tc)).toFinset := by
  unfold opsF; writes_all
/-- A reference stretch F does not write keeps its contents. -/
theorem opsF_frame (V : Valuation τ sig (Elt F)) (r : Ref sig .tc) (hr : r ∉ wF) :
    after opsF V (no_index (Proc.devRef .tc r)) = V (Proc.devRef .tc r) :=
  after_of_writes_sub opsF V opsF_writes hr

/-- The references stretch G writes. -/
def wG : List (Ref sig .tc) :=
  [main_v43, main_v44, main_v45]

theorem opsG_sub : (opsG (F := F)).Forall fun op => op.bufs ⊆ tcRefs τ sig :=
  ⟨unary_bufs_sub .., binary_bufs_sub .., unary_bufs_sub ..⟩
theorem opsG_fresh : (opsG (F := F)).Forall fun op => op.fresh = ∅ := by unfold opsG; fresh_all
theorem opsG_writes :
    (opsG (F := F)).Forall fun op => op.writes ⊆ (wG.map (Proc.devRef (τ := τ) .tc)).toFinset := by
  unfold opsG; writes_all
/-- A reference stretch G does not write keeps its contents. -/
theorem opsG_frame (V : Valuation τ sig (Elt F)) (r : Ref sig .tc) (hr : r ∉ wG) :
    after opsG V (no_index (Proc.devRef .tc r)) = V (Proc.devRef .tc r) :=
  after_of_writes_sub opsG V opsG_writes hr

/-- The references stretch H writes. -/
def wH : List (Ref sig .tc) :=
  [main_c_15, main_v46, main_v47, main_c_16, main_v48, main_v49, main_v50, main_v51]

theorem opsH_sub : (opsH (F := F)).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub ..⟩
theorem opsH_fresh : (opsH (F := F)).Forall fun op => op.fresh = ∅ := by unfold opsH; fresh_all
theorem opsH_writes :
    (opsH (F := F)).Forall fun op => op.writes ⊆ (wH.map (Proc.devRef (τ := τ) .tc)).toFinset := by
  unfold opsH; writes_all
/-- A reference stretch H does not write keeps its contents. -/
theorem opsH_frame (V : Valuation τ sig (Elt F)) (r : Ref sig .tc) (hr : r ∉ wH) :
    after opsH V (no_index (Proc.devRef .tc r)) = V (Proc.devRef .tc r) :=
  after_of_writes_sub opsH V opsH_writes hr

/-- The references stretch I writes. -/
def wI : List (Ref sig .tc) :=
  [main_v52, main_v53, main_v54, main_v55, main_v56, main_call6_cst, main_call6_v0, main_v57, main_v58, main_v59, main_v60,
    main_v61, main_call7_cst, main_call7_v0, main_v62, main_v63, main_v64, main_v65, main_v66, main_v67, main_v68, main_cst_17,
    main_v69, main_v70, main_cst_18, main_v71, main_v72, main_v73]

theorem opsI_sub : (opsI (F := F)).Forall fun op => op.bufs ⊆ tcRefs τ sig :=
  ⟨binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., unary_bufs_sub .., unary_bufs_sub .., nullary_bufs_sub .., unary_bufs_sub .., binary_bufs_sub ..,
    nullary_bufs_sub .., unary_bufs_sub .., binary_bufs_sub .., reshape_bufs_sub ..⟩
theorem opsI_fresh : (opsI (F := F)).Forall fun op => op.fresh = ∅ := by unfold opsI; fresh_all
theorem opsI_writes :
    (opsI (F := F)).Forall fun op => op.writes ⊆ (wI.map (Proc.devRef (τ := τ) .tc)).toFinset := by
  unfold opsI; writes_all
/-- A reference stretch I does not write keeps its contents. -/
theorem opsI_frame (V : Valuation τ sig (Elt F)) (r : Ref sig .tc) (hr : r ∉ wI) :
    after opsI V (no_index (Proc.devRef .tc r)) = V (Proc.devRef .tc r) :=
  after_of_writes_sub opsI V opsI_writes hr

/-- The references stretch J writes. -/
def wJ : List (Ref sig .tc) :=
  [main_cst_19, main_v74, main_v75, main_c_20, main_v76, main_v77, main_c_21, main_v78, main_v79, main_v80, main_v81, main_v82]

theorem opsJ_sub : (opsJ (F := F)).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., ternary_bufs_sub ..⟩
theorem opsJ_fresh : (opsJ (F := F)).Forall fun op => op.fresh = ∅ := by unfold opsJ; fresh_all
theorem opsJ_writes :
    (opsJ (F := F)).Forall fun op => op.writes ⊆ (wJ.map (Proc.devRef (τ := τ) .tc)).toFinset := by
  unfold opsJ; writes_all
/-- A reference stretch J does not write keeps its contents. -/
theorem opsJ_frame (V : Valuation τ sig (Elt F)) (r : Ref sig .tc) (hr : r ∉ wJ) :
    after opsJ V (no_index (Proc.devRef .tc r)) = V (Proc.devRef .tc r) :=
  after_of_writes_sub opsJ V opsJ_writes hr

/-- The references stretch K writes. -/
def wK : List (Ref sig .tc) :=
  [main_cst_22, main_v83, main_c_23, main_v84, main_v85, main_c_24, main_v86, main_v87, main_v88, main_v89, main_v90, main_v91]

theorem opsK_sub : (opsK (F := F)).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., unary_bufs_sub .., ternary_bufs_sub .., reshape_bufs_sub ..⟩
theorem opsK_fresh : (opsK (F := F)).Forall fun op => op.fresh = ∅ := by unfold opsK; fresh_all
theorem opsK_writes :
    (opsK (F := F)).Forall fun op => op.writes ⊆ (wK.map (Proc.devRef (τ := τ) .tc)).toFinset := by
  unfold opsK; writes_all
/-- A reference stretch K does not write keeps its contents. -/
theorem opsK_frame (V : Valuation τ sig (Elt F)) (r : Ref sig .tc) (hr : r ∉ wK) :
    after opsK V (no_index (Proc.devRef .tc r)) = V (Proc.devRef .tc r) :=
  after_of_writes_sub opsK V opsK_writes hr

/-- The references stretch L writes. -/
def wL : List (Ref sig .tc) :=
  [main_cst_25]

theorem opsL_sub : (opsL (F := F)).Forall fun op => op.bufs ⊆ tcRefs τ sig :=
  nullary_bufs_sub ..
theorem opsL_fresh : (opsL (F := F)).Forall fun op => op.fresh = ∅ := by unfold opsL; fresh_all
theorem opsL_writes :
    (opsL (F := F)).Forall fun op => op.writes ⊆ (wL.map (Proc.devRef (τ := τ) .tc)).toFinset := by
  unfold opsL; writes_all
/-- A reference stretch L does not write keeps its contents. -/
theorem opsL_frame (V : Valuation τ sig (Elt F)) (r : Ref sig .tc) (hr : r ∉ wL) :
    after opsL V (no_index (Proc.devRef .tc r)) = V (Proc.devRef .tc r) :=
  after_of_writes_sub opsL V opsL_writes hr

/-- The references stretch M writes. -/
def wM : List (Ref sig .tc) :=
  [main_v92, main_v93, main_v94, main_v95, main_v96, main_cst_26, main_v97, main_v98, main_v99, main_v100, main_v101]

theorem opsM_sub : (opsM (F := F)).Forall fun op => op.bufs ⊆ tcRefs τ sig :=
  ⟨unary_bufs_sub .., binary_bufs_sub .., binary_bufs_sub .., binary_bufs_sub .., binary_bufs_sub .., nullary_bufs_sub ..,
    unary_bufs_sub .., binary_bufs_sub .., binary_bufs_sub .., binary_bufs_sub .., reshape_bufs_sub ..⟩
theorem opsM_fresh : (opsM (F := F)).Forall fun op => op.fresh = ∅ := by unfold opsM; fresh_all
theorem opsM_writes :
    (opsM (F := F)).Forall fun op => op.writes ⊆ (wM.map (Proc.devRef (τ := τ) .tc)).toFinset := by
  unfold opsM; writes_all
/-- A reference stretch M does not write keeps its contents. -/
theorem opsM_frame (V : Valuation τ sig (Elt F)) (r : Ref sig .tc) (hr : r ∉ wM) :
    after opsM V (no_index (Proc.devRef .tc r)) = V (Proc.devRef .tc r) :=
  after_of_writes_sub opsM V opsM_writes hr

/-! ## What each stretch leaves in the arrays the later ones read -/

theorem opsA_v14 (V : Valuation τ sig (Elt F)) :
    after opsA V (no_index (main_v14 : DevRef τ sig))
      = St.feat (V (main_arg0 : DevRef τ sig)) (V (main_arg1 : DevRef τ sig)) := by
  unfold opsA; after_results_simp <;> rfl

theorem opsA_v15 (V : Valuation τ sig (Elt F)) :
    after opsA V (no_index (main_v15 : DevRef τ sig)) = St.mflat (V (main_arg1 : DevRef τ sig)) := by
  unfold opsA; after_results_simp <;> rfl

theorem opsA_v17 (V : Valuation τ sig (Elt F)) :
    after opsA V (no_index (main_v17 : DevRef τ sig)) = St.bits (V (main_arg1 : DevRef τ sig)) := by
  unfold opsA; after_results_simp <;> rfl

set_option maxRecDepth 8192 in
theorem opsB_v28 (V : Valuation τ sig (Elt F)) :
    after opsB V (no_index (main_v28 : DevRef τ sig)) = St.binc (V (main_v17 : DevRef τ sig)) := by
  unfold opsB; after_results_simp <;> rfl

set_option maxRecDepth 8192 in
theorem opsC_v30 (V : Valuation τ sig (Elt F)) :
    after opsC V (no_index (main_v30 : DevRef τ sig)) = St.floorDiv1 (St.cumsumP (V (main_v28 : DevRef τ sig))) := by
  unfold opsC; after_results_simp <;> rfl

set_option maxRecDepth 8192 in
theorem opsD_v31 (V : Valuation τ sig (Elt F)) :
    after opsD V (no_index (main_v31 : DevRef τ sig)) = St.remN (V (main_v30 : DevRef τ sig)) := by
  unfold opsD; after_results_simp <;> rfl

set_option maxRecDepth 8192 in
theorem opsE_v37 (V : Valuation τ sig (Elt F)) :
    after opsE V (no_index (main_v37 : DevRef τ sig))
      = select (cmpi .sge (iotaInDim S1048576 32 0)
            (broadcastInDim S1048576 ![] bcast_S_S1048576 (St.count (V (main_v17 : DevRef τ sig)))))
          (broadcastInDim S1048576 ![] bcast_S_S1048576 (constantI S_ 32 0#32)) (V (main_v31 : DevRef τ sig)) := by
  unfold opsE; after_results_simp <;> rfl

theorem opsF_v41 (V : Valuation τ sig (Elt F)) :
    after opsF V (no_index (main_v41 : DevRef τ sig))
      = St.count (cmpf .ogt (V (main_v15 : DevRef τ sig))
          (broadcastInDim S2097152 ![] bcast_S_S2097152 (constant S_ .f32 0x00000000#32))) := by
  unfold opsF; after_results_simp <;> rfl

theorem opsF_v42 (V : Valuation τ sig (Elt F)) :
    after opsF V (no_index (main_v42 : DevRef τ sig)) = iotaInDim S1048576 32 0 := by
  unfold opsF; after_results_simp <;> rfl

theorem opsG_v45 (V : Valuation τ sig (Elt F)) :
    after opsG V (no_index (main_v45 : DevRef τ sig))
      = uitofp .f32 (cmpi .slt (V (main_v42 : DevRef τ sig))
          (broadcastInDim S1048576 ![] bcast_S_S1048576 (V (main_v41 : DevRef τ sig)))) := by
  unfold opsG; after_results_simp <;> rfl

theorem opsH_v51 (V : Valuation τ sig (Elt F)) :
    after opsH V (no_index (main_v51 : DevRef τ sig))
      = broadcastInDim S1048576x1 ![0] bcast_S1048576_S1048576x1_0 (St.wrapN (V (main_v37 : DevRef τ sig))) := by
  unfold opsH; after_results_simp <;> rfl

set_option maxRecDepth 8192 in
theorem opsI_v73 (V : Valuation τ sig (Elt F)) :
    after opsI V (no_index (main_v73 : DevRef τ sig))
      = St.pred (V (main_v14 : DevRef τ sig)) (V (main_v51 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  unfold opsI; after_results_simp <;> rfl

theorem opsJ_v82 (V : Valuation τ sig (Elt F)) :
    after opsJ V (no_index (main_v82 : DevRef τ sig))
      = St.scat (broadcastInDim S1048576x1 ![0] bcast_S1048576_S1048576x1_0 (St.wrapN (V (main_v37 : DevRef τ sig))))
          (mulf (V (main_v73 : DevRef τ sig)) (V (main_v45 : DevRef τ sig))) := by
  unfold opsJ; after_results_simp <;> rfl

theorem opsK_v90 (V : Valuation τ sig (Elt F)) :
    after opsK V (no_index (main_v90 : DevRef τ sig))
      = St.scat (broadcastInDim S1048576x1 ![0] bcast_S1048576_S1048576x1_0 (St.wrapN (V (main_v37 : DevRef τ sig))))
          (V (main_v45 : DevRef τ sig)) := by
  unfold opsK; after_results_simp <;> rfl

theorem opsK_v91 (V : Valuation τ sig (Elt F)) :
    after opsK V (no_index (main_v91 : DevRef τ sig)) = St.lrflat (V (main_arg1 : DevRef τ sig)) := by
  unfold opsK; after_results_simp <;> rfl

theorem opsL_cst25 (V : Valuation τ sig (Elt F)) :
    after opsL V (no_index (main_cst_25 : DevRef τ sig)) = constant S_ .f32 0x3F800000#32 := by
  unfold opsL; after_results_simp <;> rfl

theorem opsM_v101 (V : Valuation τ sig (Elt F)) :
    after opsM V (no_index (main_v101 : DevRef τ sig))
      = shapeCast _
          (addf
            (mulf
              (addf (V (main_v82 : DevRef τ sig))
                (mulf (subf (broadcastInDim S2097152 ![] bcast_S_S2097152 (V (main_cst_25 : DevRef τ sig)))
                    (V (main_v90 : DevRef τ sig))) (V (main_v91 : DevRef τ sig))))
              (V (main_v15 : DevRef τ sig)))
            (mulf (V (main_v91 : DevRef τ sig))
              (subf (broadcastInDim S2097152 ![] bcast_S_S2097152 (constant S_ .f32 0x3F800000#32))
                (V (main_v15 : DevRef τ sig)))))
          shapeCasts_S2097152_S8x1x512x512 := by
  unfold opsM; after_results_simp <;> rfl

/-! ## The whole line -/

theorem ops_sub : (ops (F := F)).Forall fun op => op.bufs ⊆ tcRefs τ sig :=
  forall_append
    (forall_append opsA_sub (forall_append opsB_sub (forall_append opsC_sub (forall_append opsD_sub
      (forall_append opsE_sub opsF_sub)))))
    (forall_append
      (forall_append opsG_sub (forall_append opsH_sub (forall_append opsI_sub (forall_append opsJ_sub
        (forall_append opsK_sub opsL_sub)))))
      opsM_sub)

theorem ops_fresh : (ops (F := F)).Forall fun op => op.fresh = ∅ :=
  forall_append
    (forall_append opsA_fresh (forall_append opsB_fresh (forall_append opsC_fresh (forall_append opsD_fresh
      (forall_append opsE_fresh opsF_fresh)))))
    (forall_append
      (forall_append opsG_fresh (forall_append opsH_fresh (forall_append opsI_fresh (forall_append opsJ_fresh
        (forall_append opsK_fresh opsL_fresh)))))
      opsM_fresh)

/-- The contents after the whole line are the last stretch's from the one before's, and so on down to the first. -/
theorem after_ops (V : Valuation τ sig (Elt F)) :
    after ops V
      = after opsM (after opsL (after opsK (after opsJ (after opsI (after opsH (after opsG (after opsF (after opsE
          (after opsD (after opsC (after opsB (after opsA V)))))))))))) := by
  simp only [ops, ops0, ops1, ops2, after_append]

/-- A reference no stretch writes keeps its contents over the whole line. -/
theorem arg_eq (V : Valuation τ sig (Elt F)) (r : Ref sig .tc)
    (hr : r ∉ wA ∧ r ∉ wB ∧ r ∉ wC ∧ r ∉ wD ∧ r ∉ wE ∧ r ∉ wF ∧ r ∉ wG ∧ r ∉ wH ∧ r ∉ wI ∧ r ∉ wJ ∧ r ∉ wK ∧ r ∉ wL
      ∧ r ∉ wM) :
    after ops V (Proc.devRef .tc r) = V (Proc.devRef .tc r) := by
  obtain ⟨hA, hB, hC, hD, hE, hF, hG, hH, hI, hJ, hK, hL, hM⟩ := hr
  rw [after_ops, opsM_frame _ r hM, opsL_frame _ r hL, opsK_frame _ r hK, opsJ_frame _ r hJ, opsI_frame _ r hI,
    opsH_frame _ r hH, opsG_frame _ r hG, opsF_frame _ r hF, opsE_frame _ r hE, opsD_frame _ r hD, opsC_frame _ r hC,
    opsB_frame _ r hB, opsA_frame _ r hA]

set_option maxRecDepth 8192 in
/-- The result buffer after the whole line is the stages' composed value of the arguments. -/
theorem out_eq (V : Valuation τ sig (Elt F)) :
    after ops V (main_v101 : DevRef τ sig)
      = St.out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  rw [after_ops]
  simp (disch := decide) only [opsM_v101, opsL_cst25, opsK_v90, opsK_v91, opsJ_v82, opsI_v73, opsH_v51, opsG_v45, opsF_v41,
    opsF_v42, opsE_v37, opsD_v31, opsC_v30, opsB_v28, opsA_v14, opsA_v15, opsA_v17, opsA_frame, opsB_frame, opsC_frame,
    opsD_frame, opsE_frame, opsF_frame, opsG_frame, opsH_frame, opsI_frame, opsJ_frame, opsK_frame, opsL_frame, opsM_frame]
  rfl

theorem scopedRefs_eq : (Finset.univ.filter fun b : Ref sig .tc => b.isScoped) = ∅ := by decide
theorem scopedSems_eq : (Finset.univ.filter fun sm : SemLoc sig => sm.isScoped .tc) = ∅ := by decide

/-- For any float values, from any memory with zero counters: every weakly fair execution of the program terminates
    with the result buffer at the stages' composed value of the arguments, and the arguments unchanged. -/
theorem run_any (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v101)
          = St.out (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c main_v101).trans (out_eq (launchContents m c)),
        (h c main_arg0).trans (arg_eq (launchContents m c) main_arg0 (by decide)),
        (h c main_arg1).trans (arg_eq (launchContents m c) main_arg1 (by decide)),
        (h c main_arg2).trans (arg_eq (launchContents m c) main_arg2 (by decide)),
        (h c main_arg3).trans (arg_eq (launchContents m c) main_arg3 (by decide)),
        (h c main_arg4).trans (arg_eq (launchContents m c) main_arg4 (by decide)),
        (h c main_arg5).trans (arg_eq (launchContents m c) main_arg5 (by decide)),
        (h c main_arg6).trans (arg_eq (launchContents m c) main_arg6 (by decide)),
        (h c main_arg7).trans (arg_eq (launchContents m c) main_arg7 (by decide))⟩)
    (run_seq scopedRefs_eq scopedSems_eq defs main (fun _ => ops) main_eq (fun _ => ops_sub) m ρ
      (fun _ op hop => List.forall_iff_forall_mem.1 ops_fresh op hop))

/-- The same at the extended reals. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v101)
          = St.out (F := Ideal) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  run_any m ρ

end Cert.ReferenceIdeal.Hand

end
-- ==== Proof.Finite.lean ====
/-
  From the precondition to "every entry is a real number".  The precondition is the conjunction, over the eight
  argument arrays, of "all entries x satisfy |x| < +∞", where |x| = max x (-x) over the extended reals and the
  conjunction over an array is a reduction by "and" to a single flag.  A flag equal to one forces every compared
  entry to one; an extended real whose absolute value lies strictly below +∞ is neither -∞ nor +∞, hence a real.
-/
import proofs.«114536_j36893769072873_1_alg».proof.Defs
import proofs.«114536_j36893769072873_1_alg».proof.Proof.Gen.Pre_finite_inputs
import proofs.«114536_j36893769072873_1_alg».proof.Proof.Gen.KernelIdeal
import proofs.«114536_j36893769072873_1_alg».proof.Proof.Meet
import Idealize.ShloMosaic.Lib.ReduceAll
import Idealize.ShloMosaic.PureOps.Ideal
import Mathlib.Data.EReal.Basic

noncomputable section

namespace Cert.Blend

open Idealize.ShloMosaic Idealize.SL.Sem

/-- An extended real whose absolute value, max x (-x), lies strictly below +∞ is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-- The shape of rank zero has exactly one index. -/
instance subsingleton_scalar_idx : Subsingleton Cert.Pre_finite_inputs.S_.Idx :=
  ⟨fun a b => funext fun d => d.elim0⟩

/-- If the conjunction over all entries of "|x| < +∞" is true, every entry of x is a real number. -/
theorem isReal_of_all {S : Shape} {axes : List (Fin S.rank)} (x : FVec Ideal S .f32)
    (init : IVec Cert.Pre_finite_inputs.S_ 1)
    (hb : Cert.Pre_finite_inputs.S_.BroadcastsInDim S (![] : Fin 0 → Fin S.rank))
    (h : S.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim S ![] hb (constant Cert.Pre_finite_inputs.S_ .f32 0x7F800000#32))) init h hu j = 1#1) :
    IsReal x := by
  intro i
  have hi := Host.reduce_andi_all _ init h hu j e i
  have htop : Ideal.ofBits .f32 0x7F800000#32 = ⊤ := by simp [Ideal.ofBits, Ideal.ieee]
  have hlt : max (x i : EReal) (-(x i : EReal)) < ⊤ := by
    have h2 : Ideal.cmp .olt (max (x i : EReal) (-(x i : EReal))) (Ideal.ofBits .f32 0x7F800000#32) = 1#1 := hi
    rw [htop] at h2
    unfold Ideal.cmp at h2
    by_contra hn
    simp [hn] at h2
  exact exists_real_of_abs_lt_top _ hlt

/-- Under the precondition, each of the eight argument arrays holds real numbers only. -/
theorem real_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    IsReal (m ((c.tc : Thread Cert.KernelIdeal.nD Cert.KernelIdeal.τ).loc Cert.KernelIdeal.main_arg0))
    ∧ IsReal (m ((c.tc : Thread Cert.KernelIdeal.nD Cert.KernelIdeal.τ).loc Cert.KernelIdeal.main_arg1))
    ∧ IsReal (m ((c.tc : Thread Cert.KernelIdeal.nD Cert.KernelIdeal.τ).loc Cert.KernelIdeal.main_arg2))
    ∧ IsReal (m ((c.tc : Thread Cert.KernelIdeal.nD Cert.KernelIdeal.τ).loc Cert.KernelIdeal.main_arg3))
    ∧ IsReal (m ((c.tc : Thread Cert.KernelIdeal.nD Cert.KernelIdeal.τ).loc Cert.KernelIdeal.main_arg4))
    ∧ IsReal (m ((c.tc : Thread Cert.KernelIdeal.nD Cert.KernelIdeal.τ).loc Cert.KernelIdeal.main_arg5))
    ∧ IsReal (m ((c.tc : Thread Cert.KernelIdeal.nD Cert.KernelIdeal.τ).loc Cert.KernelIdeal.main_arg6))
    ∧ IsReal (m ((c.tc : Thread Cert.KernelIdeal.nD Cert.KernelIdeal.τ).loc Cert.KernelIdeal.main_arg7)) := by
  have h0 := congrFun (h c) ValueIdx.ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨e0, e1⟩, e2⟩, e3⟩, e4⟩, e5⟩, e6⟩, e7⟩ := h0
  exact ⟨isReal_of_all _ _ _ _ _ _ e0, isReal_of_all _ _ _ _ _ _ e1, isReal_of_all _ _ _ _ _ _ e2,
    isReal_of_all _ _ _ _ _ _ e3, isReal_of_all _ _ _ _ _ _ e4, isReal_of_all _ _ _ _ _ _ e5,
    isReal_of_all _ _ _ _ _ _ e6, isReal_of_all _ _ _ _ _ _ e7⟩

end Cert.Blend

end
-- ==== Proof.Shared.lean ====
/-
  What the two programs share before they part: the mask, the feature table and the prefix counts are the same
  terms; the mask is 0 or 1 at every pixel; the fourth feature gives lr back; and the two final reshapes read one
  per-pixel function at the same pixel.
-/
import proofs.«114536_j36893769072873_1_alg».proof.Proof.Meet
import Idealize.ShloMosaic.Lib.ValueLayout
import Idealize.ShloMosaic.PureOps.Ideal.Laws
import Idealize.ShloMosaic.Lib.Pipeline.Value

noncomputable section

namespace Cert.Blend

open Idealize.ShloMosaic Idealize.ShloMosaic.ValueIdx

variable (img : FVec Ideal Cert.ReferenceIdeal.S8x3x512x512 .f32) (lr : FVec Ideal Cert.ReferenceIdeal.S8x1x512x512 .f32)
    (W1 : FVec Ideal Cert.ReferenceIdeal.S4x128 .f32) (b1 : FVec Ideal Cert.ReferenceIdeal.S128 .f32)
    (W2 : FVec Ideal Cert.ReferenceIdeal.S128x128 .f32) (b2 : FVec Ideal Cert.ReferenceIdeal.S128 .f32)
    (W3 : FVec Ideal Cert.ReferenceIdeal.S128x1 .f32) (b3 : FVec Ideal Cert.ReferenceIdeal.S1 .f32)

theorem mflat_eq : Cert.KernelIdeal.St.mflat (F := Ideal) lr = Cert.ReferenceIdeal.St.mflat (F := Ideal) lr := rfl

theorem feat_eq : Cert.KernelIdeal.St.feat (F := Ideal) img lr = Cert.ReferenceIdeal.St.feat (F := Ideal) img lr := rfl

theorem bits_eq : Cert.KernelIdeal.St.bits (F := Ideal) lr = Cert.ReferenceIdeal.St.bits (F := Ideal) lr := rfl

theorem cs_eq : Cert.KernelIdeal.St.cs (F := Ideal) lr = Cert.ReferenceIdeal.St.cs (Cert.ReferenceIdeal.St.bits (F := Ideal) lr) := rfl

/-! ## The dilation: a maximum over each window of a 0/1 array, the padding at -inf -/

/-- An invariant of the accumulator survives a left fold. -/
theorem foldl_inv {α β : Type} (P : α → Prop) (f : α → β → α) (l : List β) (a : α) (ha : P a)
    (hf : ∀ r n, P r → P (f r n)) : P (l.foldl f a) := by
  induction l generalizing a with
  | nil => exact ha
  | cons n l ih => exact ih (f a n) (hf a n ha)

/-- A left fold of max is at least the value it starts from. -/
theorem init_le_foldl_max {β : Type} (g : β → EReal) (l : List β) (a : EReal) :
    a ≤ l.foldl (fun r m => max r (g m)) a := by
  induction l generalizing a with
  | nil => exact le_refl a
  | cons m l ih => exact le_trans (le_max_left a (g m)) (ih (max a (g m)))

/-- A left fold of max is at least each of its terms. -/
theorem le_foldl_max {β : Type} (g : β → EReal) (l : List β) (a : EReal) (n : β) (hn : n ∈ l) :
    g n ≤ l.foldl (fun r m => max r (g m)) a := by
  induction l generalizing a with
  | nil => cases hn
  | cons m l ih =>
    rcases List.mem_cons.1 hn with rfl | h
    · exact le_trans (le_max_right a (g n)) (init_le_foldl_max g l (max a (g n)))
    · exact ih (max a (g m)) h

/-- A windowed maximum from -inf of an array whose entries are 0 or 1 is 0 or 1 wherever ONE window position
    lies inside the array: the accumulator stays among -inf, 0 and 1, and ends at least that position's entry. -/
theorem reduceWindow_max_01 {s t u : Shape} (f : EReal → EReal → EReal) (hf : ∀ a b, f a b = max a b)
    (window strides lo hi : Fin s.rank → Nat) (x : s.Idx → EReal) (init : u.Idx → EReal)
    (h : s.ReduceWindows window strides lo hi t) (hu : 0 < u.numel)
    (hx : ∀ i, x i = 0 ∨ x i = 1) (hinit : ∀ i, init i = ⊥) (j : t.Idx)
    (c : Fin (⟨s.rank, window⟩ : Shape).numel)
    (hc : ∀ a, lo a ≤ (j (a.cast h.1.symm)).val * strides a + ((⟨s.rank, window⟩ : Shape).rowMajor.symm c a).val ∧
      (j (a.cast h.1.symm)).val * strides a + ((⟨s.rank, window⟩ : Shape).rowMajor.symm c a).val - lo a < s.size a) :
    Host.reduceWindow f window strides lo hi x init h hu j = 0 ∨ Host.reduceWindow f window strides lo hi x init h hu j = 1 := by
  let W : Shape := ⟨s.rank, window⟩
  let g : Fin W.numel → EReal := fun n =>
    if hin : ∀ a, lo a ≤ (j (a.cast h.1.symm)).val * strides a + (W.rowMajor.symm n a).val ∧
        (j (a.cast h.1.symm)).val * strides a + (W.rowMajor.symm n a).val - lo a < s.size a
    then x (fun a => ⟨(j (a.cast h.1.symm)).val * strides a + (W.rowMajor.symm n a).val - lo a, (hin a).2⟩) else ⊥
  have key : Host.reduceWindow f window strides lo hi x init h hu j
      = (List.finRange W.numel).foldl (fun r n => max r (g n)) ⊥ := by
    unfold Host.reduceWindow
    simp only [hf, hinit]
    rfl
  have hg : ∀ n, g n = ⊥ ∨ g n = 0 ∨ g n = 1 := by
    intro n
    by_cases hin : ∀ a, lo a ≤ (j (a.cast h.1.symm)).val * strides a + (W.rowMajor.symm n a).val ∧
        (j (a.cast h.1.symm)).val * strides a + (W.rowMajor.symm n a).val - lo a < s.size a
    · right; simp only [g]; rw [dif_pos hin]; exact hx _
    · left; simp only [g]; rw [dif_neg hin]
  have h3 := foldl_inv (fun r : EReal => r = ⊥ ∨ r = 0 ∨ r = 1) (fun r n => max r (g n)) (List.finRange W.numel) ⊥
    (Or.inl rfl) (fun r n hr => by
      rcases max_choice r (g n) with hm | hm
      · show max r (g n) = ⊥ ∨ max r (g n) = 0 ∨ max r (g n) = 1
        rw [hm]; exact hr
      · show max r (g n) = ⊥ ∨ max r (g n) = 0 ∨ max r (g n) = 1
        rw [hm]; exact hg n)
  have hge : g c ≤ (List.finRange W.numel).foldl (fun r n => max r (g n)) ⊥ :=
    le_foldl_max g _ ⊥ c (List.mem_finRange c)
  have hgc : 0 ≤ g c := by
    simp only [g]; rw [dif_pos hc]
    rcases hx (fun a => ⟨(j (a.cast h.1.symm)).val * strides a + (W.rowMajor.symm c a).val - lo a, (hc a).2⟩) with h0 | h1
    · rw [h0]
    · rw [h1]; exact zero_le_one
  rw [key]
  rcases h3 with hb | h0 | h1
  · rw [hb] at hge
    exact absurd (le_trans hgc hge) (by simp)
  · exact Or.inl h0
  · exact Or.inr h1

/-- Position 112 of the 1 x 1 x 15 x 15 window is its centre (0, 0, 7, 7). -/
theorem window_centre (h112 : 112 < (⟨4, ![1, 1, 15, 15]⟩ : Shape).numel) :
    (⟨4, ![1, 1, 15, 15]⟩ : Shape).rowMajor.symm ⟨112, h112⟩ = ix4 (0 : Fin 1) (0 : Fin 1) (7 : Fin 15) (7 : Fin 15) := by
  rw [Equiv.symm_apply_eq]
  apply Fin.ext
  rw [Shape.rowMajor_val_four]
  rfl

/-- A one-bit word read as an unsigned number is 0 or 1. -/
theorem uitofp_bit_01 (b : BitVec 1) :
    (FloatOps.uitofp (F := Ideal) .f32 b : EReal) = 0 ∨ (FloatOps.uitofp (F := Ideal) .f32 b : EReal) = 1 := by
  rcases BitVec.eq_zero_or_eq_one b with h | h
  · left; rw [h]; show (((0#1 : BitVec 1).toNat : ℝ) : EReal) = 0; simp
  · right; rw [h]; show (((1#1 : BitVec 1).toNat : ℝ) : EReal) = 1; simp

/-- The dilated mask is 0 or 1 at every index: each window's centre lies inside the array. -/
theorem mask4_01 (j : Cert.ReferenceIdeal.S8x1x512x512.Idx) :
    (Cert.ReferenceIdeal.St.mask4 (F := Ideal) lr j : EReal) = 0 ∨ (Cert.ReferenceIdeal.St.mask4 (F := Ideal) lr j : EReal) = 1 := by
  unfold Cert.ReferenceIdeal.St.mask4
  have h112 : 112 < (⟨4, ![1, 1, 15, 15]⟩ : Shape).numel := by decide
  refine reduceWindow_max_01 _ (fun _ _ => rfl) _ _ _ _ _ _ _ _ (fun i => uitofp_bit_01 _) (fun i => ?_) j ⟨112, h112⟩ (fun a => ?_)
  · show Ideal.ofBits .f32 0xFF800000#32 = ⊥
    simp [Ideal.ofBits, Ideal.ieee]
  · rw [window_centre h112]
    have h0 : (j 0).val < 8 := (j 0).isLt
    have h1 : (j 1).val < 1 := (j 1).isLt
    have h2 : (j 2).val < 512 := (j 2).isLt
    have h3 : (j 3).val < 512 := (j 3).isLt
    match a with
    | ⟨0, _⟩ => show 0 ≤ (j 0).val * 1 + 0 ∧ (j 0).val * 1 + 0 - 0 < 8; omega
    | ⟨1, _⟩ => show 0 ≤ (j 1).val * 1 + 0 ∧ (j 1).val * 1 + 0 - 0 < 1; omega
    | ⟨2, _⟩ => show 7 ≤ (j 2).val * 1 + 7 ∧ (j 2).val * 1 + 7 - 7 < 512; omega
    | ⟨3, _⟩ => show 7 ≤ (j 3).val * 1 + 7 ∧ (j 3).val * 1 + 7 - 7 < 512; omega

/-- Every entry of a re-laid-out array is an entry of the array. -/
theorem shapeCast_forall {s t : Shape} {α : Type} (P : α → Prop) (x : s.Idx → α) (h : s.ShapeCasts t)
    (hx : ∀ i, P (x i)) (j : t.Idx) : P (shapeCast t x h j) := hx _

/-- The dilated mask is 0 or 1 at every pixel. -/
theorem mflat_01 (q : Fin NPIX) :
    (Cert.ReferenceIdeal.St.mflat (F := Ideal) lr (ix1 q) : EReal) = 0 ∨ (Cert.ReferenceIdeal.St.mflat (F := Ideal) lr (ix1 q) : EReal) = 1 :=
  shapeCast_forall (fun v : EReal => v = 0 ∨ v = 1) (Cert.ReferenceIdeal.St.mask4 (F := Ideal) lr) _ (mask4_01 lr) (ix1 q)

/-- A pixel is masked exactly when the dilated mask is 1 there: the bit is "mask > 0", and the mask is 0 or 1. -/
theorem masked_iff (q : Fin NPIX) : Masked lr q ↔ (Cert.ReferenceIdeal.St.mflat (F := Ideal) lr (ix1 q) : EReal) = 1 := by
  have hb : Cert.ReferenceIdeal.St.bits (F := Ideal) lr (ix1 q)
      = BitVec.ofBool (decide ((0 : EReal) < Cert.ReferenceIdeal.St.mflat (F := Ideal) lr (ix1 q))) := by
    show Ideal.cmp .ogt (Cert.ReferenceIdeal.St.mflat (F := Ideal) lr (ix1 q)) (Ideal.ofBits .f32 0x00000000#32) = _
    rw [Ideal.ofBits_zero_f32]
    rfl
  unfold Masked
  rw [hb]
  rcases mflat_01 lr q with h | h
  · rw [h]; simp
  · rw [h]; simp

/-! ## The fourth feature and lr at one pixel -/

/-- The float 0.5 is the real 1/2. -/
theorem half_eq : half = (((1 : ℝ) / 2 : ℝ) : EReal) := by
  show Ideal.ofBits .f32 0x3F000000#32 = _
  simp [Ideal.ofBits, Ideal.ieee, -EReal.coe_mul]; norm_num

/-- ((r - 1/2) / (1/2)) * (1/2) + 1/2 = r at a real r. -/
theorem recover_real (r : ℝ) : Ideal.div ((r : EReal) - half) half * half + half = (r : EReal) := by
  rw [half_eq, Ideal.div_coe (by norm_num : ((1 : ℝ) / 2) ≠ 0)]
  rw [← EReal.coe_sub, ← EReal.coe_mul, ← EReal.coe_mul, ← EReal.coe_add]
  congr 1
  ring

/-- Column 3 of the feature table at pixel q is (lr - 0.5) / 0.5 at the index of the [8, 1, 512, 512] array whose
    row-major place is q: the table is the channels-last flattening of the four channels, lr's the fourth. -/
theorem feat_col3 (q : Fin NPIX) (k : Cert.ReferenceIdeal.S8x1x512x512.Idx)
    (hk : (Cert.ReferenceIdeal.S8x1x512x512.rowMajor k).val = q.val) :
    (Cert.ReferenceIdeal.St.feat (F := Ideal) img lr (ix2 q (3 : Fin 4)) : EReal) = Ideal.div (lr k - half) half := by
  have h0 : (k 0).val < 8 := (k 0).isLt
  have h1 : (k 1).val < 1 := (k 1).isLt
  have h2 : (k 2).val < 512 := (k 2).isLt
  have h3 : (k 3).val < 512 := (k 3).isLt
  rw [Shape.rowMajor_val_four] at hk
  have hk' : (((k 0).val * 1 + (k 1).val) * 512 + (k 2).val) * 512 + (k 3).val = q.val := hk
  unfold Cert.ReferenceIdeal.St.feat
  refine (shapeCast_apply _ _ _
    (ix4 (⟨(k 0).val, h0⟩ : Fin 8) (⟨(k 2).val, h2⟩ : Fin 512) (⟨(k 3).val, h3⟩ : Fin 512) (3 : Fin 4)) ?_).trans ?_
  · rw [Shape.rowMajor_val_four, Shape.rowMajor_val_two]
    show (((k 0).val * 512 + (k 2).val) * 512 + (k 3).val) * 4 + 3 = q.val * 4 + 3
    omega
  refine (transpose_apply _ _ _ _
    (ix4 (⟨(k 0).val, h0⟩ : Fin 8) (3 : Fin 4) (⟨(k 2).val, h2⟩ : Fin 512) (⟨(k 3).val, h3⟩ : Fin 512)) (fun b => ?_)).trans ?_
  · match b with
    | ⟨0, _⟩ => rfl
    | ⟨1, _⟩ => rfl
    | ⟨2, _⟩ => rfl
    | ⟨3, _⟩ => rfl
  refine (concatenate_pair_apply_right (t := Cert.ReferenceIdeal.S8x4x512x512) (s₁ := Cert.ReferenceIdeal.S8x3x512x512)
    (s₂ := Cert.ReferenceIdeal.S8x1x512x512) 1 img _ _ _ rfl rfl k (fun b hb => ?_) ?_).trans ?_
  · match b, hb with
    | ⟨0, _⟩, _ => rfl
    | ⟨1, _⟩, hb => exact absurd rfl hb
    | ⟨2, _⟩, _ => rfl
    | ⟨3, _⟩, _ => rfl
  · show (k 1).val + 3 = 3
    omega
  · rfl

/-- ((lr - 0.5) / 0.5) * 0.5 + 0.5 = lr at a real lr. -/
theorem lr_recover (hlr : IsReal lr) (q : Fin NPIX) :
    (Cert.ReferenceIdeal.St.feat (F := Ideal) img lr (ix2 q (3 : Fin 4)) : EReal) * half + half
      = Cert.ReferenceIdeal.St.lrflat (F := Ideal) lr (ix1 q) := by
  -- both sides read lr at the index of [8, 1, 512, 512] whose row-major place is q
  have hpos := Shape.rowMajor_reshapeEquiv Cert.ReferenceIdeal.Gen.shapeCasts_S8x1x512x512_S2097152
    (ix1 q : Cert.ReferenceIdeal.S2097152.Idx)
  rw [Shape.rowMajor_val_one] at hpos
  rw [feat_col3 img lr q _ hpos]
  show _ = lr (Shape.reshapeEquiv Cert.ReferenceIdeal.Gen.shapeCasts_S8x1x512x512_S2097152 (ix1 q))
  obtain ⟨r, hr⟩ := hlr (Shape.reshapeEquiv Cert.ReferenceIdeal.Gen.shapeCasts_S8x1x512x512_S2097152 (ix1 q))
  rw [hr]
  exact recover_real r

/-! ## Realness of the feature table and of lr per pixel -/

/-- Every entry of a transposed array is an entry of the array. -/
theorem transpose_forall {s t : Shape} {α : Type} (P : α → Prop) (perm : List (Fin s.rank)) (x : s.Idx → α)
    (h : s.Transposes perm t) (hx : ∀ i, P (x i)) (j : t.Idx) : P (transpose t perm x h j) := hx _

/-- Every entry of a concatenation is an entry of one of its pieces. -/
theorem concatenate_forall {t : Shape} {α : Type} (P : α → Prop) (a : Fin t.rank) (xs : List ((s : Shape) × (s.Idx → α)))
    (h : Shape.Concatenates (xs.map (·.1)) t a) (hx : ∀ p ∈ xs, ∀ i, P (p.2 i)) (j : t.Idx) :
    P (concatenate t a xs h j) := by
  unfold concatenate
  exact hx _ (List.getElem_mem _) _

/-- Every entry of the feature table is an image entry or (lr - 0.5) / 0.5 at some index: a real number. -/
theorem feat_real (himg : IsReal img) (hlr : IsReal lr) : IsReal (Cert.ReferenceIdeal.St.feat (F := Ideal) img lr) := by
  intro j
  unfold Cert.ReferenceIdeal.St.feat
  refine shapeCast_forall (fun v : EReal => ∃ r : ℝ, v = (r : EReal)) _ _ (fun j2 => ?_) j
  refine transpose_forall (fun v : EReal => ∃ r : ℝ, v = (r : EReal)) _ _ _ (fun j3 => ?_) j2
  refine concatenate_forall (fun v : EReal => ∃ r : ℝ, v = (r : EReal)) _ _ _ (fun p hp i => ?_) j3
  rcases List.mem_cons.1 hp with rfl | hp
  · exact himg i
  · rcases List.mem_cons.1 hp with rfl | hp
    · obtain ⟨r, hr⟩ := hlr i
      refine ⟨(r - 1 / 2) * (1 / (1 / 2)), ?_⟩
      show Ideal.div (lr i - half) half = _
      rw [hr, half_eq, Ideal.div_coe (by norm_num : ((1 : ℝ) / 2) ≠ 0), ← EReal.coe_sub, ← EReal.coe_mul]
    · cases hp

/-- Every entry of lr per pixel is an entry of lr: a real number. -/
theorem lrflat_real (hlr : IsReal lr) : IsReal (Cert.ReferenceIdeal.St.lrflat (F := Ideal) lr) :=
  fun j => shapeCast_forall (fun v : EReal => ∃ r : ℝ, v = (r : EReal)) lr _ hlr j

/-- The kernel's operands (weights through bf16, biases as rows) give the same MLP at the ideal instance. -/
theorem kerMlp_eq (x : Fin 4 → EReal) :
    mlpRowG (fun c k => Cert.KernelIdeal.St.w1b (F := Ideal) W1 (ix2 c k)) (fun k => Cert.KernelIdeal.St.b1r (F := Ideal) b1 (ix2 0 k))
      (fun k' k => Cert.KernelIdeal.St.w2b (F := Ideal) W2 (ix2 k' k)) (fun k => Cert.KernelIdeal.St.b2r (F := Ideal) b2 (ix2 0 k))
      (fun k => Cert.KernelIdeal.St.w3b (F := Ideal) W3 (ix2 k 0)) (Cert.KernelIdeal.St.b3r (F := Ideal) b3 (ix2 0 0)) x
      = mlpRow W1 b1 W2 b2 W3 b3 x := by
  -- a narrowing format change is the identity on extended reals; a vector laid out as a one-row matrix keeps its entries
  have hb1 : (fun k : Fin 128 => Cert.KernelIdeal.St.b1r (F := Ideal) b1 (ix2 0 k)) = fun k => b1 (ix1 k) :=
    funext fun k => shapeCast_a_1a_apply b1 _ (0 : Fin 1) k
  have hb2 : (fun k : Fin 128 => Cert.KernelIdeal.St.b2r (F := Ideal) b2 (ix2 0 k)) = fun k => b2 (ix1 k) :=
    funext fun k => shapeCast_a_1a_apply b2 _ (0 : Fin 1) k
  have hb3 : Cert.KernelIdeal.St.b3r (F := Ideal) b3 (ix2 0 0) = b3 (ix1 0) :=
    shapeCast_a_1a_apply b3 _ (0 : Fin 1) (0 : Fin 1)
  unfold mlpRow
  rw [hb1, hb2, hb3]
  rfl

/-- A function of a column's row number and the same function of a vector's entry number are the same array
    under any common layout: row r of an [n, 1] column and entry r of an [n] vector sit at row-major place r. -/
theorem shapeCast_col_eq_vec {n : ℕ} {t : Shape} {α : Type} (f : Fin n → α)
    (h2 : (⟨2, ![n, 1]⟩ : Shape).ShapeCasts t) (h1 : (⟨1, ![n]⟩ : Shape).ShapeCasts t) :
    shapeCast t (fun y : (⟨2, ![n, 1]⟩ : Shape).Idx => f (y 0)) h2
      = shapeCast t (fun y : (⟨1, ![n]⟩ : Shape).Idx => f (y 0)) h1 := by
  funext i
  have hk : ((Shape.reshapeEquiv h1 i) 0).val < n := ((Shape.reshapeEquiv h1 i) 0).isLt
  have hpos := Shape.rowMajor_reshapeEquiv h1 i
  rw [Shape.rowMajor_val_one] at hpos
  refine (shapeCast_apply _ h2 i (ix2 (⟨((Shape.reshapeEquiv h1 i) 0).val, hk⟩ : Fin n) (0 : Fin 1)) ?_).trans rfl
  rw [Shape.rowMajor_val_two, ← hpos]
  show ((Shape.reshapeEquiv h1 i) 0).val * 1 + 0 = ((Shape.reshapeEquiv h1 i) 0).val
  omega

/-- Both programs' last operation lays a per-pixel function out as the [8, 1, 512, 512] result: from a column the
    kernel's, from a vector the reference's. -/
theorem outOf_col (f : Fin NPIX → EReal) :
    Cert.KernelIdeal.St.outOf (F := Ideal) (fun y : Cert.KernelIdeal.S2097152x1.Idx => f (y 0))
      = shapeCast Cert.ReferenceIdeal.S8x1x512x512 (fun y : Cert.ReferenceIdeal.S2097152.Idx => f (y 0))
          Cert.ReferenceIdeal.Gen.shapeCasts_S2097152_S8x1x512x512 := by
  unfold Cert.KernelIdeal.St.outOf
  exact shapeCast_col_eq_vec f _ _

end Cert.Blend

end
-- ==== Proof.LibPrefixSum.lean ====
/-
  Prefix sums of 32-bit words.

  A running sum over a vector of n words is written as a windowed reduction: window n, stride 1,
  n - 1 positions of padding below and none above, the padding holding the zero word. Entry p of
  the result adds the n positions p .. p + n - 1 of the padded vector; the first n - 1 - p of
  them are padding, the rest are entries 0 .. p of the vector. When the sum of all the values
  stays below 2^32 no addition wraps, so the value of entry p is the sum of the values of
  entries 0 .. p. For a vector of zero-extended bits this is the number of set bits at positions
  0 .. p, and the sum of the whole vector is the number of set bits.
-/
import Idealize.ShloMosaic.Lib.ValueIdx
import Idealize.ShloMosaic.Lib.StableHlo.Predicate
import Mathlib.Algebra.BigOperators.Fin
import Mathlib.Algebra.BigOperators.Intervals

open scoped BigOperators
namespace Idealize.ShloMosaic.LibPrefixSum
open Idealize.ShloMosaic Idealize.ShloMosaic.ValueIdx

/-- A left fold of word addition that does not wrap: the value of the result is the starting value plus the sum of the values. -/
theorem toNat_foldl_addi {ι : Type} (g : ι → BitVec 32) : ∀ (l : List ι) (a : BitVec 32),
    a.toNat + (l.map fun k => (g k).toNat).sum < 2 ^ 32 →
    (l.foldl (fun r k => IntOp.addi r (g k)) a).toNat = a.toNat + (l.map fun k => (g k).toNat).sum
  | [], a, _ => by simp
  | k :: l, a, h => by
    simp only [List.map_cons, List.sum_cons] at h
    have e : (IntOp.addi a (g k)).toNat = a.toNat + (g k).toNat := by
      show (a + g k).toNat = _
      rw [BitVec.toNat_add, Nat.mod_eq_of_lt (by omega)]
    rw [List.foldl_cons, toNat_foldl_addi g l _ (by rw [e]; omega), e, List.map_cons, List.sum_cons]
    omega

/-- A vector's index set is its one coordinate's range. -/
def idxEquiv1 {n : ℕ} : (⟨1, ![n]⟩ : Shape).Idx ≃ Fin n where
  toFun i := i 0
  invFun := ix1
  left_inv i := (eq_ix1 i).symm
  right_inv _ := rfl

/-- A sum over a vector's index set is the sum over its coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The values of a vector's entries as a function of a natural position, zero past the end. -/
def vals {n : ℕ} (x : IVec ⟨1, ![n]⟩ 32) (m : ℕ) : ℕ := if hm : m < n then (x (ix1 ⟨m, hm⟩)).toNat else 0

/-- The term a window adds at its position i. -/
def winTerm {n : ℕ} (lo : ℕ) (x : IVec ⟨1, ![n]⟩ 32) (p : Fin n) (i : (⟨1, ![n]⟩ : Shape).Idx) : BitVec 32 :=
  if hin : ∀ a : Fin 1, ![lo] a ≤ (ix1 p a).val * ![1] a + (i a).val ∧ (ix1 p a).val * ![1] a + (i a).val - ![lo] a < ![n] a
  then x (fun a => ⟨(ix1 p a).val * ![1] a + (i a).val - ![lo] a, (hin a).2⟩) else 0#32

/-- At window position k the term's value is the vector's value at p + k - lo when that position is at or past the
    low padding, and zero inside the padding (and past the vector's end, where the values are zero anyway). -/
theorem toNat_winTerm {n : ℕ} (lo : ℕ) (x : IVec ⟨1, ![n]⟩ 32) (p k : Fin n) :
    (winTerm lo x p (ix1 k)).toNat = if lo ≤ p.val + k.val then vals x (p.val + k.val - lo) else 0 := by
  unfold winTerm
  by_cases hc : lo ≤ p.val + k.val ∧ p.val + k.val - lo < n
  · have hall : ∀ a : Fin 1, ![lo] a ≤ (ix1 p a).val * ![1] a + (ix1 k a).val ∧ (ix1 p a).val * ![1] a + (ix1 k a).val - ![lo] a < ![n] a := by
      intro a; match a with | ⟨0, _⟩ => simpa using hc
    rw [dif_pos hall, if_pos hc.1, vals, dif_pos hc.2]
    congr 2
    funext a; match a with | ⟨0, _⟩ => exact Fin.ext (by simp)
  · have hall : ¬ ∀ a : Fin 1, ![lo] a ≤ (ix1 p a).val * ![1] a + (ix1 k a).val ∧ (ix1 p a).val * ![1] a + (ix1 k a).val - ![lo] a < ![n] a := by
      intro hall; exact hc (by simpa using hall 0)
    rw [dif_neg hall]
    split_ifs with h1
    · rw [vals, dif_neg (fun h2 => hc ⟨h1, h2⟩)]; rfl
    · rfl

/-- With n - 1 positions of low padding, the window at p meets the vector exactly at positions 0 .. p: the
    substitution q = p + k - lo matches the window positions k with lo ≤ p + k to the positions q ≤ p. -/
theorem sum_window {n lo : ℕ} (hlo : lo + 1 = n) (v : ℕ → ℕ) (p : Fin n) :
    ∑ k : Fin n, (if lo ≤ p.val + k.val then v (p.val + k.val - lo) else 0)
      = ∑ q ∈ Finset.univ.filter (fun q : Fin n => q.val ≤ p.val), v q.val := by
  rw [← Finset.sum_filter]
  refine Finset.sum_bij' (fun k _ => (⟨p.val + k.val - lo, by have := p.isLt; have := k.isLt; omega⟩ : Fin n))
    (fun q hq => (⟨q.val + lo - p.val, by have := (Finset.mem_filter.1 hq).2; have := p.isLt; omega⟩ : Fin n))
    ?_ ?_ ?_ ?_ ?_
  · intro k hk; have := (Finset.mem_filter.1 hk).2; have := k.isLt
    exact Finset.mem_filter.2 ⟨Finset.mem_univ _, by show p.val + k.val - lo ≤ p.val; omega⟩
  · intro q hq; have := (Finset.mem_filter.1 hq).2
    exact Finset.mem_filter.2 ⟨Finset.mem_univ _, by show lo ≤ p.val + (q.val + lo - p.val); omega⟩
  · intro k hk; have := (Finset.mem_filter.1 hk).2
    exact Fin.ext (by show p.val + k.val - lo + lo - p.val = k.val; omega)
  · intro q hq; have := (Finset.mem_filter.1 hq).2
    exact Fin.ext (by show p.val + (q.val + lo - p.val) - lo = q.val; omega)
  · intro k hk; rfl

/-- Entry p of the running sum of a vector whose values add up to less than 2^32 has the value of the sum of the
    values of entries 0 .. p. -/
theorem toNat_cumsum {n lo : ℕ} (hlo : lo + 1 = n) (x : IVec ⟨1, ![n]⟩ 32) (z : IVec ⟨0, ![]⟩ 32) (hz : z ix0 = 0#32)
    (h : (⟨1, ![n]⟩ : Shape).ReduceWindows ![n] ![1] ![lo] ![0] ⟨1, ![n]⟩) (hu : 0 < (⟨0, ![]⟩ : Shape).numel)
    (hsum : ∑ q : Fin n, (x (ix1 q)).toNat < 2 ^ 32) (p : Fin n) :
    (Host.reduceWindow IntOp.addi ![n] ![1] ![lo] ![0] x z h hu (ix1 p)).toNat
      = ∑ q ∈ Finset.univ.filter (fun q : Fin n => q.val ≤ p.val), (x (ix1 q)).toNat := by
  have hz' : z (Shape.Idx.first hu) = 0#32 := by rw [eq_ix0 (Shape.Idx.first hu)]; exact hz
  unfold Host.reduceWindow
  simp only [hz']
  show (List.foldl (fun r k => IntOp.addi r (winTerm lo x p ((⟨1, ![n]⟩ : Shape).rowMajor.symm k))) 0#32
      (List.finRange (⟨1, ![n]⟩ : Shape).numel)).toNat = _
  have hvals : ∀ q : Fin n, vals x q.val = (x (ix1 q)).toNat := fun q => by rw [vals, dif_pos q.isLt]
  have hS : ∑ k : Fin n, (winTerm lo x p (ix1 k)).toNat
      = ∑ q ∈ Finset.univ.filter (fun q : Fin n => q.val ≤ p.val), (x (ix1 q)).toNat := by
    rw [Finset.sum_congr rfl (fun k _ => toNat_winTerm lo x p k), sum_window hlo (vals x) p]
    exact Finset.sum_congr rfl (fun q _ => hvals q)
  have hL : ((List.finRange (⟨1, ![n]⟩ : Shape).numel).map
        fun k => (winTerm lo x p ((⟨1, ![n]⟩ : Shape).rowMajor.symm k)).toNat).sum
      = ∑ k : Fin n, (winTerm lo x p (ix1 k)).toNat := by
    rw [← Fin.sum_univ_def,
      Equiv.sum_comp (⟨1, ![n]⟩ : Shape).rowMajor.symm (fun i => (winTerm lo x p i).toNat), sum_idx1]
  have hle : ∑ q ∈ Finset.univ.filter (fun q : Fin n => q.val ≤ p.val), (x (ix1 q)).toNat
      ≤ ∑ q : Fin n, (x (ix1 q)).toNat := Finset.sum_le_sum_of_subset (Finset.filter_subset _ _)
  rw [toNat_foldl_addi (fun k => winTerm lo x p ((⟨1, ![n]⟩ : Shape).rowMajor.symm k)) _ _
    (by rw [hL, hS]; show 0 + _ < _; omega), hL, hS]
  show 0 + _ = _
  omega

/-- The value of a zero-extended bit of a vector: one when the bit is set, zero otherwise. -/
theorem toNat_extui_bit {n : ℕ} (b : IVec ⟨1, ![n]⟩ 1) (hw : 1 < 32) (q : Fin n) :
    (extui 32 b hw (ix1 q)).toNat = if b (ix1 q) = 1#1 then 1 else 0 :=
  StableHlo.Predicate.toNat_setWidth_bit (b (ix1 q))

/-- The values of n zero-extended bits add up to at most n. -/
theorem sum_extui_bit_le {n : ℕ} (b : IVec ⟨1, ![n]⟩ 1) (hw : 1 < 32) :
    ∑ q : Fin n, (extui 32 b hw (ix1 q)).toNat ≤ n := by
  rw [Finset.sum_congr rfl (fun q _ => toNat_extui_bit b hw q), ← Finset.card_filter]
  exact (Finset.card_le_univ _).trans (by simp)

/-- Entry p of the running sum of n < 2^32 zero-extended bits counts the set bits at positions 0 .. p. -/
theorem toNat_cumsum_card {n lo : ℕ} (hlo : lo + 1 = n) (hn : n < 2 ^ 32) (b : IVec ⟨1, ![n]⟩ 1) (hw : 1 < 32)
    (z : IVec ⟨0, ![]⟩ 32) (hz : z ix0 = 0#32)
    (h : (⟨1, ![n]⟩ : Shape).ReduceWindows ![n] ![1] ![lo] ![0] ⟨1, ![n]⟩) (hu : 0 < (⟨0, ![]⟩ : Shape).numel)
    (p : Fin n) :
    (Host.reduceWindow IntOp.addi ![n] ![1] ![lo] ![0] (extui 32 b hw) z h hu (ix1 p)).toNat
      = (Finset.univ.filter (fun q : Fin n => q.val ≤ p.val ∧ b (ix1 q) = 1#1)).card := by
  rw [toNat_cumsum hlo (extui 32 b hw) z hz h hu (lt_of_le_of_lt (sum_extui_bit_le b hw) hn) p,
    Finset.sum_congr rfl (fun q _ => toNat_extui_bit b hw q), ← Finset.card_filter, Finset.filter_filter]

/-- The sum of n < 2^32 zero-extended bits, reduced to a scalar, counts the set bits. -/
theorem toNat_reduce_card {n : ℕ} (hn : n < 2 ^ 32) (b : IVec ⟨1, ![n]⟩ 1) (hw : 1 < 32) (z : IVec ⟨0, ![]⟩ 32)
    (hz : z ix0 = 0#32) (h : (⟨1, ![n]⟩ : Shape).ReducesTo [0] ⟨0, ![]⟩) (hu : 0 < (⟨0, ![]⟩ : Shape).numel) :
    (Host.reduce IntOp.addi (extui 32 b hw) z h hu ix0).toNat
      = (Finset.univ.filter (fun q : Fin n => b (ix1 q) = 1#1)).card := by
  classical
  have hz' : z (Shape.Idx.first hu) = 0#32 := by rw [eq_ix0 (Shape.Idx.first hu)]; exact hz
  have hall : (Finset.univ.filter fun i : (⟨1, ![n]⟩ : Shape).Idx => h.drop i = ix0) = Finset.univ :=
    Finset.filter_true_of_mem fun i _ => eq_ix0 _
  have hS : ∑ i : (⟨1, ![n]⟩ : Shape).Idx, (extui 32 b hw i).toNat
      = (Finset.univ.filter (fun q : Fin n => b (ix1 q) = 1#1)).card := by
    rw [sum_idx1, Finset.sum_congr rfl (fun q _ => toNat_extui_bit b hw q), ← Finset.card_filter]
  rw [Host.reduce_eq_fold, hall, hz',
    StableHlo.Predicate.toNat_fold_addi _ _ (by rw [hS]; exact lt_of_le_of_lt ((Finset.card_le_univ _).trans (by simp)) hn), hS]

end Idealize.ShloMosaic.LibPrefixSum
-- ==== Proof.LibScatterTake.lean ====
/-
  The accumulating scatter of scalars into a rank-1 array, read at one entry.

  An array of M entries receives n scalar updates, update j aimed at the position held in row j of an [n x 1] column of
  words. The position is read as a SIGNED integer and is not clamped: update j lands on entry i exactly when that integer
  equals i, and is dropped when it is negative or at least M. Hence entry i of the result is entry i of the operand
  combined with exactly the updates aimed at i:

  * resultIdx?_take : the landing entry of update j is i iff the j-th position, read signed, is i;
  * toNat_scatter_addi : for 32-bit words added by a left fold over the updates in order, the value of entry i is the
    operand's value plus the sum of the values of the updates aimed at i, provided that sum stays below 2^32;
  * hostScatterAdd_take / scatterAdd_take : over the extended reals, entry i is the operand's entry plus the sum of the
    updates aimed at i.

  Everything is stated at variable extents M and n.
-/
import Idealize.ShloMosaic.PureOps.Contract
import Idealize.ShloMosaic.Lib.ValueIdx
import Mathlib.Algebra.BigOperators.Fin
import Mathlib.Data.BitVec

open scoped BigOperators

namespace Idealize.ShloMosaic.LibScatterTake

open Idealize.ShloMosaic Idealize.ShloMosaic.ValueIdx

/-- An index of a rank-1 shape is its one coordinate. -/
def ix1Equiv (n : ℕ) : Fin n ≃ (⟨1, ![n]⟩ : Shape).Idx where
  toFun := ix1
  invFun j := j 0
  left_inv _ := rfl
  right_inv j := (eq_ix1 j).symm

/-- Update j lands on entry i exactly when the j-th position, read signed and not clamped, is i. -/
theorem resultIdx?_take {M n w : ℕ} (d : ScatterDims ⟨1, ![M]⟩ ⟨2, ![n, 1]⟩ ⟨1, ![n]⟩)
    (huw : d.updateWindowDims = []) (hiw : d.insertedWindowDims = [0]) (hsd : d.scatterDimsToOperandDims = [0])
    (hiv : d.indexVectorDim = 1) (idx : IVec ⟨2, ![n, 1]⟩ w) (j : Fin n) (i : Fin M) :
    d.resultIdx? (ix1 j) idx = some (ix1 i) ↔ (idx (ix2 j (0 : Fin 1))).toInt = (i.val : ℤ) := by
  have hm : (0 : Fin 1) ∈ d.scatterDimsToOperandDims := by rw [hsd]; exact List.mem_singleton.mpr rfl
  have hk : (0 : Fin 1) ∉ d.sKept := by
    simp [ScatterDims.sKept, Shape.kept, hiw]
  have hsi : d.siIdx (ix1 j) ⟨d.scatterDimsToOperandDims.idxOf (0 : Fin 1), List.idxOf_lt_length_iff.2 hm⟩ = ix2 j (0 : Fin 1) := by
    funext b
    match b with
    | ⟨0, _⟩ =>
      unfold ScatterDims.siIdx
      rw [dif_neg (by rw [hiv]; simp)]
      unfold ScatterDims.siCoord
      apply Fin.ext
      simp only [Fin.val_cast]
      have e : ∀ X : Fin 1, ((ix1 j : (⟨1, ![n]⟩ : Shape).Idx) X).val = j.val := fun X => by
        have hX : X = 0 := Subsingleton.elim _ _
        subst hX; rfl
      exact e _
    | ⟨1, _⟩ =>
      unfold ScatterDims.siIdx
      rw [dif_pos (by rw [hiv])]
      apply Fin.ext
      show List.idxOf (0 : Fin 1) d.scatterDimsToOperandDims = 0
      rw [hsd]; simp
  have hstart : ∀ a : Fin 1, d.start (ix1 j) idx a = (idx (ix2 j (0 : Fin 1))).toInt := by
    intro a
    have ha : a = 0 := Subsingleton.elim _ _
    subst ha
    unfold ScatterDims.start
    rw [dif_pos hm, hsi]
  have hwin : ∀ a : Fin 1, d.window (ix1 j) a = 0 := by
    intro a
    have ha : a = 0 := Subsingleton.elim _ _
    subst ha
    unfold ScatterDims.window
    rw [dif_neg hk]
  unfold ScatterDims.resultIdx?
  split
  · next h =>
    have h0 := h 0
    rw [hstart, hwin] at h0
    constructor
    · intro he
      have h1 := congrFun (Option.some.inj he) 0
      have hv : (d.start (ix1 j) idx 0 + ((d.window (ix1 j) 0 : ℕ) : ℤ)).toNat = i.val := congrArg Fin.val h1
      rw [hstart, hwin] at hv
      omega
    · intro he
      congr 1
      funext a
      have ha : a = 0 := Subsingleton.elim _ _
      subst ha
      apply Fin.ext
      show (d.start (ix1 j) idx 0 + ((d.window (ix1 j) 0 : ℕ) : ℤ)).toNat = i.val
      rw [hstart, hwin]; omega
  · next h =>
    constructor
    · intro he; cases he
    · intro he
      exfalso; apply h
      intro a
      rw [hstart, hwin]
      have hs : ((⟨1, ![M]⟩ : Shape).size a) = M := by
        have ha : a = 0 := Subsingleton.elim _ _
        subst ha; rfl
      rw [hs]; have := i.isLt; omega

/-- A left fold of the scatter step with an additive body over ANY list of update positions, read at one entry: the
    entry's starting value plus, in order, the updates of the list that land on it (the others contribute zero). -/
theorem foldl_step_apply {α : Type} [AddCommMonoid α] {s si u : Shape} {w : ℕ} (d : ScatterDims s si u) (idx : IVec si w)
    (upd : u.Idx → α) (l : List (Fin u.numel)) (x : s.Idx → α) (i : s.Idx) :
    (l.foldl (fun r n =>
        match d.resultIdx? (u.rowMajor.symm n) idx with
        | some k => fun i' => if i' = k then r k + upd (u.rowMajor.symm n) else r i'
        | none => r) x) i
      = x i + (l.map fun n => if d.resultIdx? (u.rowMajor.symm n) idx = some i then upd (u.rowMajor.symm n) else 0).sum := by
  induction l generalizing x with
  | nil => simp
  | cons n l ih =>
    rw [List.foldl_cons, ih, List.map_cons, List.sum_cons, ← add_assoc]
    congr 1
    cases h : d.resultIdx? (u.rowMajor.symm n) idx with
    | none => simp
    | some k =>
      by_cases hk : i = k
      · subst hk; simp
      · have hk' : ¬ k = i := fun e => hk e.symm
        simp [hk, hk']

/-- The additive scatter's fold over all the updates, read at one entry, as a sum over the update indices. -/
theorem scatter_add_apply {α : Type} [AddCommMonoid α] {s si u : Shape} {w : ℕ} (d : ScatterDims s si u) (x : s.Idx → α)
    (idx : IVec si w) (upd : u.Idx → α) (i : s.Idx) :
    Host.scatter d (fun a b => a + b) x idx upd i = x i + ∑ j : u.Idx, if d.resultIdx? j idx = some i then upd j else 0 := by
  refine (foldl_step_apply d idx upd (List.finRange u.numel) x i).trans ?_
  rw [← Fin.sum_univ_def]
  congr 1
  exact Equiv.sum_comp u.rowMajor.symm (fun j => if d.resultIdx? j idx = some i then upd j else 0)

/-- A sum of 32-bit words whose values add up to less than 2^32 has the sum of the values as its value. -/
theorem toNat_sum_of_lt {ι : Type} (S : Finset ι) (f : ι → BitVec 32) (h : ∑ j ∈ S, (f j).toNat < 2 ^ 32) :
    (∑ j ∈ S, f j).toNat = ∑ j ∈ S, (f j).toNat := by
  induction S using Finset.cons_induction with
  | empty => rfl
  | cons a S ha ih =>
    rw [Finset.sum_cons] at h
    rw [Finset.sum_cons, Finset.sum_cons, BitVec.toNat_add, ih (by omega)]
    exact Nat.mod_eq_of_lt (by omega)

/-- The integer accumulating scatter (a left fold over the updates in row-major order) with an add body: when the sum
    does not reach 2^32, the value at entry i is the operand's value plus the sum of the values of the updates aimed at i. -/
theorem toNat_scatter_addi {M n : ℕ} (d : ScatterDims ⟨1, ![M]⟩ ⟨2, ![n, 1]⟩ ⟨1, ![n]⟩)
    (huw : d.updateWindowDims = []) (hiw : d.insertedWindowDims = [0]) (hsd : d.scatterDimsToOperandDims = [0])
    (hiv : d.indexVectorDim = 1) (x : IVec ⟨1, ![M]⟩ 32) (idx : IVec ⟨2, ![n, 1]⟩ 32) (upd : IVec ⟨1, ![n]⟩ 32) (i : Fin M)
    (hno : (x (ix1 i)).toNat
        + ∑ j ∈ Finset.univ.filter (fun j : Fin n => (idx (ix2 j (0 : Fin 1))).toInt = (i.val : ℤ)), (upd (ix1 j)).toNat
      < 2 ^ 32) :
    (Host.scatter d IntOp.addi x idx upd (ix1 i)).toNat
      = (x (ix1 i)).toNat
        + ∑ j ∈ Finset.univ.filter (fun j : Fin n => (idx (ix2 j (0 : Fin 1))).toInt = (i.val : ℤ)), (upd (ix1 j)).toNat := by
  have hsum : Host.scatter d IntOp.addi x idx upd (ix1 i)
      = x (ix1 i) + ∑ j ∈ Finset.univ.filter (fun j : Fin n => (idx (ix2 j (0 : Fin 1))).toInt = (i.val : ℤ)), upd (ix1 j) := by
    show Host.scatter d (fun a b : BitVec 32 => a + b) x idx upd (ix1 i) = _
    rw [scatter_add_apply, Finset.sum_filter, ← Equiv.sum_comp (ix1Equiv n)]
    congr 1
    refine Finset.sum_congr rfl fun j _ => ?_
    exact if_congr (resultIdx?_take d huw hiw hsd hiv idx j i) rfl rfl
  rw [hsum, BitVec.toNat_add, toNat_sum_of_lt _ _ (by omega)]
  exact Nat.mod_eq_of_lt hno

/-- The float accumulating scatter over the extended reals: entry i is the operand's entry plus the sum of the updates
    aimed at i. -/
theorem hostScatterAdd_take {M n w : ℕ} (d : ScatterDims ⟨1, ![M]⟩ ⟨2, ![n, 1]⟩ ⟨1, ![n]⟩)
    (huw : d.updateWindowDims = []) (hiw : d.insertedWindowDims = [0]) (hsd : d.scatterDimsToOperandDims = [0])
    (hiv : d.indexVectorDim = 1) (x : (⟨1, ![M]⟩ : Shape).Idx → EReal) (idx : IVec ⟨2, ![n, 1]⟩ w)
    (upd : (⟨1, ![n]⟩ : Shape).Idx → EReal) (i : Fin M) :
    Ideal.hostScatterAdd d x idx upd (ix1 i)
      = x (ix1 i) + ∑ j ∈ Finset.univ.filter (fun j : Fin n => (idx (ix2 j (0 : Fin 1))).toInt = (i.val : ℤ)), upd (ix1 j) := by
  unfold Ideal.hostScatterAdd
  congr 1
  rw [Finset.sum_filter, Finset.sum_filter, ← Equiv.sum_comp (ix1Equiv n)]
  refine Finset.sum_congr rfl fun j _ => ?_
  exact if_congr (resultIdx?_take d huw hiw hsd hiv idx j i) rfl rfl

/-- The same, read through the printed operation at the ideal instance. -/
theorem scatterAdd_take {φ : FTy} {M n w : ℕ} (d : ScatterDims ⟨1, ![M]⟩ ⟨2, ![n, 1]⟩ ⟨1, ![n]⟩)
    (huw : d.updateWindowDims = []) (hiw : d.insertedWindowDims = [0]) (hsd : d.scatterDimsToOperandDims = [0])
    (hiv : d.indexVectorDim = 1) (x : FVec Ideal ⟨1, ![M]⟩ φ) (idx : IVec ⟨2, ![n, 1]⟩ w)
    (upd : FVec Ideal ⟨1, ![n]⟩ φ) (i : Fin M) :
    Host.scatterAdd d x idx upd (ix1 i)
      = x (ix1 i) + ∑ j ∈ Finset.univ.filter (fun j : Fin n => (idx (ix2 j (0 : Fin 1))).toInt = (i.val : ℤ)), upd (ix1 j) := by
  exact hostScatterAdd_take d huw hiw hsd hiv x idx upd i

end Idealize.ShloMosaic.LibScatterTake
-- ==== Proof.LibCountSelect.lean ====
import Mathlib.Data.Fintype.Card
import Mathlib.Data.Fintype.Fin
import Mathlib.Data.Finset.Card
import Mathlib.Order.Fin.Basic
import Mathlib.Order.Interval.Finset.Nat
import Mathlib.Algebra.BigOperators.Group.Finset.Basic
import Mathlib.Tactic

/-!
# Prefix counts and the position of the k-th marked element

A predicate `B` marks some of the positions `0, …, N-1`.  The inclusive prefix count
`cntOf B p` is the number of marked positions `≤ p`.  It is nondecreasing, and it rises
strictly when one arrives at a marked position; hence it is injective on marked positions and
maps them bijectively onto `1, …, totalOf B`.  Consequently, for `j < totalOf B`, the positions
whose prefix count is `≤ j` are exactly those strictly before the `(j+1)`-th marked position,
so their number equals that position.
-/

namespace Cert.Lib.CountSelect

variable {N : ℕ} (B : Fin N → Prop) [DecidablePred B]

/-- number of marked positions `≤ p` -/
def cntOf (p : ℕ) : ℕ := (Finset.univ.filter fun q : Fin N => q.val ≤ p ∧ B q).card

/-- number of marked positions -/
def totalOf : ℕ := (Finset.univ.filter fun q : Fin N => B q).card

theorem cntOf_le_total (p : ℕ) : cntOf B p ≤ totalOf B := by
  unfold cntOf totalOf
  apply Finset.card_le_card
  intro q hq
  simp only [Finset.mem_filter, Finset.mem_univ, true_and] at hq ⊢
  exact hq.2

theorem cntOf_mono {p p' : ℕ} (h : p ≤ p') : cntOf B p ≤ cntOf B p' := by
  unfold cntOf
  apply Finset.card_le_card
  intro q hq
  simp only [Finset.mem_filter, Finset.mem_univ, true_and] at hq ⊢
  exact ⟨hq.1.trans h, hq.2⟩

theorem cntOf_pos {p : Fin N} (hp : B p) : 1 ≤ cntOf B p.val := by
  unfold cntOf
  apply Finset.card_pos.mpr
  exact ⟨p, by simp [hp]⟩

theorem cntOf_last (hN : 0 < N) : cntOf B (N - 1) = totalOf B := by
  unfold cntOf totalOf
  congr 1
  ext q
  simp only [Finset.mem_filter, Finset.mem_univ, true_and]
  constructor
  · exact fun h => h.2
  · intro h
    exact ⟨by have := q.isLt; omega, h⟩

/-- the prefix count rises strictly on arriving at a marked position -/
theorem cntOf_lt_of_lt {q : ℕ} {p : Fin N} (hp : B p) (h : q < p.val) :
    cntOf B q < cntOf B p.val := by
  unfold cntOf
  apply Finset.card_lt_card
  rw [Finset.ssubset_iff_of_subset]
  · refine ⟨p, ?_, ?_⟩
    · simp [hp]
    · simp only [Finset.mem_filter, Finset.mem_univ, true_and, not_and]
      intro h'
      omega
  · intro x hx
    simp only [Finset.mem_filter, Finset.mem_univ, true_and] at hx ⊢
    exact ⟨by omega, hx.2⟩

theorem cntOf_inj {p p' : Fin N} (hp : B p) (hp' : B p')
    (h : cntOf B p.val = cntOf B p'.val) : p = p' := by
  rcases lt_trichotomy p.val p'.val with hlt | heq | hgt
  · have := cntOf_lt_of_lt B hp' hlt
    omega
  · exact Fin.ext heq
  · have := cntOf_lt_of_lt B hp hgt
    omega

/-- every value `1, …, totalOf B` is the prefix count at some marked position -/
theorem exists_marked_cntOf_eq {j : ℕ} (hj : j < totalOf B) :
    ∃ p : Fin N, B p ∧ cntOf B p.val = j + 1 := by
  classical
  let S : Finset (Fin N) := Finset.univ.filter fun q : Fin N => B q
  have hinj : Set.InjOn (fun q : Fin N => cntOf B q.val) (S : Set (Fin N)) := by
    intro a ha b hb hab
    have ha' : B a := by simpa [S] using ha
    have hb' : B b := by simpa [S] using hb
    exact cntOf_inj B ha' hb' hab
  have hcard : (S.image fun q : Fin N => cntOf B q.val).card = totalOf B := by
    rw [Finset.card_image_of_injOn hinj]
    rfl
  have hsub : (S.image fun q : Fin N => cntOf B q.val) ⊆ Finset.Icc 1 (totalOf B) := by
    intro v hv
    rcases Finset.mem_image.mp hv with ⟨q, hq, rfl⟩
    have hq' : B q := by simpa [S] using hq
    exact Finset.mem_Icc.mpr ⟨cntOf_pos B hq', cntOf_le_total B q.val⟩
  have heq : (S.image fun q : Fin N => cntOf B q.val) = Finset.Icc 1 (totalOf B) := by
    apply Finset.eq_of_subset_of_card_le hsub
    rw [hcard, Nat.card_Icc]
    omega
  have hmem : j + 1 ∈ S.image fun q : Fin N => cntOf B q.val := by
    rw [heq]
    exact Finset.mem_Icc.mpr ⟨by omega, by omega⟩
  rcases Finset.mem_image.mp hmem with ⟨p, hp, hpj⟩
  exact ⟨p, by simpa [S] using hp, hpj⟩

/-- at a marked position `p` with prefix count `j + 1`, the positions with prefix count `≤ j`
are exactly the positions strictly before `p` -/
theorem card_cnt_le_of_marked {j : ℕ} {p : Fin N} (hp : B p) (hpj : cntOf B p.val = j + 1) :
    (Finset.univ.filter fun q : Fin N => cntOf B q.val ≤ j).card = p.val := by
  have hset : (Finset.univ.filter fun q : Fin N => cntOf B q.val ≤ j)
      = Finset.univ.filter fun q : Fin N => q.val < p.val := by
    ext q
    simp only [Finset.mem_filter, Finset.mem_univ, true_and]
    constructor
    · intro hq
      by_contra hnot
      have hle : p.val ≤ q.val := by omega
      have := cntOf_mono B hle
      omega
    · intro hq
      have := cntOf_lt_of_lt B hp hq
      omega
  rw [hset, Fin.card_filter_val_lt]
  have := p.isLt
  omega

theorem card_cnt_le_of_lt {j : ℕ} (hj : j < totalOf B) :
    ∃ p : Fin N, (Finset.univ.filter fun q : Fin N => cntOf B q.val ≤ j).card = p.val
      ∧ B p ∧ cntOf B p.val = j + 1 := by
  rcases exists_marked_cntOf_eq B hj with ⟨p, hp, hpj⟩
  exact ⟨p, card_cnt_le_of_marked B hp hpj, hp, hpj⟩

theorem card_cnt_le_of_ge {j : ℕ} (hj : totalOf B ≤ j) :
    (Finset.univ.filter fun q : Fin N => cntOf B q.val ≤ j).card = N := by
  have hset : (Finset.univ.filter fun q : Fin N => cntOf B q.val ≤ j) = Finset.univ := by
    ext q
    simp only [Finset.mem_filter, Finset.mem_univ, true_and, iff_true]
    exact (cntOf_le_total B q.val).trans hj
  rw [hset, Finset.card_univ, Fintype.card_fin]

/-- the selector: slot j (below the total) points at q exactly when q is the (j+1)-th marked
position -/
theorem sel_iff (j : ℕ) (q : Fin N) :
    (j < totalOf B ∧ (Finset.univ.filter fun q' : Fin N => cntOf B q'.val ≤ j).card = q.val)
      ↔ (B q ∧ cntOf B q.val = j + 1) := by
  constructor
  · rintro ⟨hj, hcard⟩
    rcases card_cnt_le_of_lt B hj with ⟨p, hpc, hp, hpj⟩
    have hpq : p = q := Fin.ext (by omega)
    subst hpq
    exact ⟨hp, hpj⟩
  · rintro ⟨hq, hqj⟩
    refine ⟨?_, card_cnt_le_of_marked B hq hqj⟩
    have := cntOf_le_total B q.val
    omega

/-- and the count of positions whose prefix count is exactly v, summed over v ≤ j, is the count
of positions whose prefix count is ≤ j -/
theorem sum_card_cnt_eq (j : ℕ) :
    ∑ v ∈ Finset.range (j + 1), (Finset.univ.filter fun q : Fin N => cntOf B q.val = v).card
      = (Finset.univ.filter fun q : Fin N => cntOf B q.val ≤ j).card := by
  have hmaps : ((Finset.univ.filter fun q : Fin N => cntOf B q.val ≤ j : Finset (Fin N)) :
      Set (Fin N)).MapsTo (fun q : Fin N => cntOf B q.val) (Finset.range (j + 1)) := by
    intro q hq
    have hq' : cntOf B q.val ≤ j := by simpa using hq
    simpa [Finset.mem_range] using Nat.lt_succ_of_le hq'
  rw [Finset.card_eq_sum_card_fiberwise hmaps]
  apply Finset.sum_congr rfl
  intro v hv
  have hv' : v ≤ j := Nat.lt_succ_iff.mp (Finset.mem_range.mp hv)
  congr 1
  ext q
  simp only [Finset.mem_filter, Finset.mem_univ, true_and]
  constructor
  · intro h
    exact ⟨by omega, h⟩
  · exact fun h => h.2

end Cert.Lib.CountSelect
-- ==== Proof.Int32.lean ====
/-
  The integer stages read at one position, over 32-bit words whose value is below 2^31 (nonnegative as signed
  numbers): the clip at zero and the two negative-index wraps keep such a word; floor division by one keeps it; the
  remainder is the value modulo 2097152; the slot's position is zero from the number of masked pixels on; a slot is
  in use below that number; and the cover flag is the pixel's bit together with "the prefix count is at most
  1048576".
-/
import proofs.«114536_j36893769072873_1_alg».proof.Proof.Meet
import Idealize.ShloMosaic.Lib.WordArith
import Idealize.ShloMosaic.Lib.Affine
import Idealize.ShloMosaic.Lib.StableHlo.Predicate

noncomputable section

namespace Cert.Blend

open Idealize.ShloMosaic Idealize.ShloMosaic.ValueIdx

/-! ## Words below 2^31 -/

/-- A word below 2^31 is not negative as a signed number. -/
theorem slt_zero_of_lt {a : BitVec 32} (h : a.toNat < 2 ^ 31) : a.slt 0#32 = false := by
  have hi : a.toInt = a.toNat := StableHlo.Predicate.toInt_eq_toNat_of_lt h
  have h0 : (0#32 : BitVec 32).toInt = 0 := by decide
  simp only [BitVec.slt, hi, h0, decide_eq_false_iff_not]
  omega

theorem cmpi_slt_zero {a : BitVec 32} (h : a.toNat < 2 ^ 31) : IntOp.cmpi .slt a 0#32 = 0#1 := by
  unfold IntOp.cmpi
  simp only [slt_zero_of_lt h]
  rfl

theorem maxsi_zero {a : BitVec 32} (h : a.toNat < 2 ^ 31) : IntOp.maxsi 0#32 a = a := by
  unfold IntOp.maxsi
  rw [slt_zero_of_lt h]
  rfl

/-- A rank-0 splat reads the scalar at the one rank-0 index. -/
theorem splat_apply {α : Type} {t : Shape} (h : (⟨0, ![]⟩ : Shape).BroadcastsInDim t ![]) (v : (⟨0, ![]⟩ : Shape).Idx → α)
    (j : t.Idx) : broadcastInDim t ![] h v j = v ix0 := by
  show v _ = v ix0
  congr 1
  funext a
  exact a.elim0

/-- A vector laid as a one-column table reads, at row p, the vector at p. -/
theorem col_apply {α : Type} {n : Nat} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p (0 : Fin 1)) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

theorem clip0_apply (x : IVec Cert.ReferenceIdeal.S2097152 32) (q : Fin NPIX) (h : (x (ix1 q)).toNat < 2 ^ 31) :
    Cert.ReferenceIdeal.St.clip0 x (ix1 q) = x (ix1 q) := by
  show IntOp.maxsi 0#32 (x (ix1 q)) = x (ix1 q)
  exact maxsi_zero h

theorem wrapP_apply (x : IVec Cert.ReferenceIdeal.S2097152 32) (q : Fin NPIX) (h : (x (ix1 q)).toNat < 2 ^ 31) :
    Cert.ReferenceIdeal.St.wrapP x (ix1 q) = x (ix1 q) := by
  show Scalar.select (IntOp.cmpi .slt (x (ix1 q)) 0#32) (IntOp.addi (x (ix1 q)) 1048576#32) (x (ix1 q)) = x (ix1 q)
  rw [cmpi_slt_zero h, select_zero]

theorem wrapN_apply (x : IVec Cert.ReferenceIdeal.S1048576 32) (j : Fin BUDGET) (h : (x (ix1 j)).toNat < 2 ^ 31) :
    Cert.ReferenceIdeal.St.wrapN x (ix1 j) = x (ix1 j) := by
  show Scalar.select (IntOp.cmpi .slt (x (ix1 j)) 0#32) (IntOp.addi (x (ix1 j)) 2097152#32) (x (ix1 j)) = x (ix1 j)
  rw [cmpi_slt_zero h, select_zero]

/-- The column of scatter positions reads the vector. -/
theorem posCol_apply (x : IVec Cert.ReferenceIdeal.S2097152 32) (q : Fin NPIX) :
    broadcastInDim Cert.ReferenceIdeal.S2097152x1 ![0] Cert.ReferenceIdeal.Gen.bcast_S2097152_S2097152x1_0 x (ix2 q (0 : Fin 1)) = x (ix1 q) :=
  col_apply _ x q

theorem idxCol_apply (b : IVec Cert.ReferenceIdeal.S2097152 1) (j : Fin BUDGET) :
    Cert.ReferenceIdeal.St.idxCol b (ix2 j (0 : Fin 1)) = Cert.ReferenceIdeal.St.wrapN (Cert.ReferenceIdeal.St.idx b) (ix1 j) :=
  col_apply _ _ j

/-! ## Compares of words below 2^31, one-bit words, and their float readings -/

/-- The position word of a slot below 2^31 has the slot number as its value. -/
theorem toNat_ofNat_slot (j : Fin BUDGET) : (BitVec.ofNat 32 j.val).toNat = j.val := by
  have hj : j.val < 1048576 := j.isLt
  rw [BitVec.toNat_ofNat]
  exact Nat.mod_eq_of_lt (by omega)

/-- The float reading of a one-bit word at the ideal instance: 1 for the set bit, 0 otherwise. -/
theorem uitofp_bit (c : BitVec 1) :
    (FloatOps.uitofp (F := Ideal) .f32 c : EReal) = if c = 1#1 then (1 : EReal) else 0 := by
  show (((c.toNat : ℝ)) : EReal) = _
  rcases BitVec.eq_zero_or_eq_one c with rfl | rfl
  · simp
  · simp

theorem valid_apply (b : IVec Cert.ReferenceIdeal.S2097152 1) (j : Fin BUDGET) (hc : (Cert.ReferenceIdeal.St.count b ix0).toNat < 2 ^ 31) :
    (Cert.ReferenceIdeal.St.valid (F := Ideal) b (ix1 j) : EReal)
      = if j.val < (Cert.ReferenceIdeal.St.count b ix0).toNat then (1 : EReal) else 0 := by
  have hj : j.val < 1048576 := j.isLt
  have hb : broadcastInDim Cert.ReferenceIdeal.S1048576 ![] Cert.ReferenceIdeal.Gen.bcast_S_S1048576 (Cert.ReferenceIdeal.St.count b) (ix1 j)
      = Cert.ReferenceIdeal.St.count b ix0 := splat_apply _ _ _
  show (FloatOps.uitofp (F := Ideal) .f32 (IntOp.cmpi .slt (BitVec.ofNat 32 j.val)
      (broadcastInDim Cert.ReferenceIdeal.S1048576 ![] Cert.ReferenceIdeal.Gen.bcast_S_S1048576 (Cert.ReferenceIdeal.St.count b) (ix1 j))) : EReal) = _
  rw [hb, uitofp_bit]
  have hiff := StableHlo.Predicate.slt_iff_toNat (a := BitVec.ofNat 32 j.val) (b := Cert.ReferenceIdeal.St.count b ix0)
    (by rw [toNat_ofNat_slot]; omega) hc
  rw [toNat_ofNat_slot] at hiff
  by_cases hlt : j.val < (Cert.ReferenceIdeal.St.count b ix0).toNat
  · rw [if_pos (hiff.mpr hlt), if_pos hlt]
  · rw [if_neg (fun h => hlt (hiff.mp h)), if_neg hlt]

/-! ## Floor division by one and the remainder modulo 2097152 -/

theorem floorDiv1_apply (x : IVec Cert.ReferenceIdeal.S1048576 32) (j : Fin BUDGET) (h : (x (ix1 j)).toNat < 2 ^ 31) :
    Cert.ReferenceIdeal.St.floorDiv1 x (ix1 j) = x (ix1 j) := by
  show Scalar.select (IntOp.andi _ (IntOp.cmpi .ne (IntOp.remsi .host (x (ix1 j)) 1#32) 0#32))
      (IntOp.subi (IntOp.divsi .host (x (ix1 j)) 1#32) 1#32) (IntOp.divsi .host (x (ix1 j)) 1#32) = x (ix1 j)
  rw [WordArith.remsi_one, WordArith.divsi_one]
  have hz : IntOp.cmpi .ne (0#32 : BitVec 32) 0#32 = 0#1 := by decide
  rw [hz]
  unfold IntOp.andi
  rw [BitVec.and_zero, select_zero]

/-- The remainder's divisor is the constant 2097152 wherever it is read. -/
theorem remDiv_apply (i : Cert.ReferenceIdeal.S_.Idx) : Cert.ReferenceIdeal.St.remDiv i = 2097152#32 := by
  show Scalar.select (IntOp.cmpi .eq (2097152#32 : BitVec 32) 0#32) (1#32 : BitVec 32) 2097152#32 = 2097152#32
  decide

theorem remN_toNat (x : IVec Cert.ReferenceIdeal.S1048576 32) (j : Fin BUDGET) (h : (x (ix1 j)).toNat < 2 ^ 31) :
    (Cert.ReferenceIdeal.St.remN x (ix1 j)).toNat = (x (ix1 j)).toNat % 2097152 := by
  have hr : (IntOp.remsi .host (x (ix1 j)) 2097152#32).toNat = (x (ix1 j)).toNat % 2097152 :=
    IntOp.toNat_remsi .host (by omega) 2097152 (by decide) (by decide)
  have hrlt : (IntOp.remsi .host (x (ix1 j)) 2097152#32).toNat < 2 ^ 31 := by rw [hr]; omega
  have hd : IntOp.cmpi .slt (2097152#32 : BitVec 32) 0#32 = 0#1 := by decide
  have hne : IntOp.cmpi .ne (0#1 : BitVec 1) 0#1 = 0#1 := by decide
  -- the two splats of the divisor, and of its sign test, are constants
  have e1 : broadcastInDim Cert.ReferenceIdeal.S1048576 ![] Cert.ReferenceIdeal.Gen.bcast_S_S1048576 Cert.ReferenceIdeal.St.remDiv
      = fun _ => 2097152#32 := funext fun i => (splat_apply _ _ i).trans (remDiv_apply _)
  have e2 : broadcastInDim Cert.ReferenceIdeal.S1048576 ![] Cert.ReferenceIdeal.Gen.bcast_S_S1048576
        (cmpi .slt Cert.ReferenceIdeal.St.remDiv (constantI Cert.ReferenceIdeal.S_ 32 0#32))
      = fun _ => 0#1 := funext fun i => by
    rw [splat_apply]
    show IntOp.cmpi .slt (Cert.ReferenceIdeal.St.remDiv ix0) 0#32 = 0#1
    rw [remDiv_apply, hd]
  unfold Cert.ReferenceIdeal.St.remN
  rw [e1, e2]
  show (Scalar.select
      (IntOp.andi
        (IntOp.cmpi .ne (IntOp.cmpi .slt (IntOp.remsi .host (x (ix1 j)) 2097152#32) 0#32) 0#1)
        (IntOp.cmpi .ne (IntOp.remsi .host (x (ix1 j)) 2097152#32) 0#32))
      (IntOp.addi (IntOp.remsi .host (x (ix1 j)) 2097152#32) 2097152#32)
      (IntOp.remsi .host (x (ix1 j)) 2097152#32)).toNat = _
  rw [cmpi_slt_zero hrlt, hne]
  unfold IntOp.andi
  rw [BitVec.zero_and, select_zero, hr]

/-! ## The slot positions and the cover flag -/

theorem idx_apply (b : IVec Cert.ReferenceIdeal.S2097152 1) (j : Fin BUDGET) (hc : (Cert.ReferenceIdeal.St.count b ix0).toNat < 2 ^ 31) :
    Cert.ReferenceIdeal.St.idx b (ix1 j)
      = if (Cert.ReferenceIdeal.St.count b ix0).toNat ≤ j.val then 0#32
        else Cert.ReferenceIdeal.St.remN (Cert.ReferenceIdeal.St.floorDiv1 (Cert.ReferenceIdeal.St.cumsumP (Cert.ReferenceIdeal.St.binc b))) (ix1 j) := by
  have hj : j.val < 1048576 := j.isLt
  have hb : broadcastInDim Cert.ReferenceIdeal.S1048576 ![] Cert.ReferenceIdeal.Gen.bcast_S_S1048576 (Cert.ReferenceIdeal.St.count b) (ix1 j)
      = Cert.ReferenceIdeal.St.count b ix0 := splat_apply _ _ _
  show Scalar.select (IntOp.cmpi .sge (BitVec.ofNat 32 j.val)
      (broadcastInDim Cert.ReferenceIdeal.S1048576 ![] Cert.ReferenceIdeal.Gen.bcast_S_S1048576 (Cert.ReferenceIdeal.St.count b) (ix1 j)))
      (0#32 : BitVec 32)
      (Cert.ReferenceIdeal.St.remN (Cert.ReferenceIdeal.St.floorDiv1 (Cert.ReferenceIdeal.St.cumsumP (Cert.ReferenceIdeal.St.binc b))) (ix1 j)) = _
  rw [hb]
  have hiff := StableHlo.Predicate.sge_iff_toNat (a := BitVec.ofNat 32 j.val) (b := Cert.ReferenceIdeal.St.count b ix0)
    (by rw [toNat_ofNat_slot]; omega) hc
  rw [toNat_ofNat_slot] at hiff
  by_cases hle : (Cert.ReferenceIdeal.St.count b ix0).toNat ≤ j.val
  · rw [hiff.mpr hle, select_one, if_pos hle]
  · rw [eq_zero_of_ne_one (fun h => hle (hiff.mp h)), select_zero, if_neg hle]

theorem cover_apply (lr : FVec Ideal Cert.KernelIdeal.S8x1x512x512 .f32) (q : Fin NPIX)
    (hcs : (Cert.KernelIdeal.St.cs (F := Ideal) lr (ix1 q)).toNat < 2 ^ 31) :
    (Cert.KernelIdeal.St.cover (F := Ideal) lr (ix1 q) : EReal)
      = if Cert.KernelIdeal.St.bits (F := Ideal) lr (ix1 q) = 1#1 ∧ (Cert.KernelIdeal.St.cs (F := Ideal) lr (ix1 q)).toNat ≤ 1048576
        then (1 : EReal) else 0 := by
  show (FloatOps.uitofp (F := Ideal) .f32 (IntOp.andi (Cert.KernelIdeal.St.bits (F := Ideal) lr (ix1 q))
      (IntOp.cmpi .sle (Cert.KernelIdeal.St.cs (F := Ideal) lr (ix1 q)) 1048576#32)) : EReal) = _
  rw [uitofp_bit]
  have hk : (1048576#32 : BitVec 32).toNat = 1048576 := by decide
  have hiff := StableHlo.Predicate.sle_iff_toNat (a := Cert.KernelIdeal.St.cs (F := Ideal) lr (ix1 q)) (b := 1048576#32)
    hcs (by rw [hk]; omega)
  rw [hk] at hiff
  have hand : IntOp.andi (Cert.KernelIdeal.St.bits (F := Ideal) lr (ix1 q))
        (IntOp.cmpi .sle (Cert.KernelIdeal.St.cs (F := Ideal) lr (ix1 q)) 1048576#32) = 1#1
      ↔ Cert.KernelIdeal.St.bits (F := Ideal) lr (ix1 q) = 1#1 ∧ (Cert.KernelIdeal.St.cs (F := Ideal) lr (ix1 q)).toNat ≤ 1048576 := by
    rw [IntOp.andi_eq_one, hiff]
  by_cases hp : Cert.KernelIdeal.St.bits (F := Ideal) lr (ix1 q) = 1#1 ∧ (Cert.KernelIdeal.St.cs (F := Ideal) lr (ix1 q)).toNat ≤ 1048576
  · rw [if_pos (hand.mpr hp), if_pos hp]
  · rw [if_neg (fun h => hp (hand.mp h)), if_neg hp]

end Cert.Blend

end
-- ==== Proof.Nonzero.lean ====
/-
  The integer side.  The kernel's cover flag of a pixel is 1 exactly when the pixel is covered; the reference's
  slot j is in use exactly when j is below the number of masked pixels; and a slot in use points at pixel q exactly
  when q is the (j+1)-th masked pixel.

  The road for the last one: every pixel adds a one to the entry numbered by its prefix count, so entry v counts the
  pixels whose prefix count is v; the running sum of these at slot j counts the pixels whose prefix count is at
  most j; for j below the number of masked pixels those are exactly the pixels before the (j+1)-th masked one, so
  their number is that pixel's position.  All the numbers stay far below 2^31, so the signed-word stages in between
  (clip, wraps, division by one, remainder) leave them as they are.
-/
import proofs.«114536_j36893769072873_1_alg».proof.Proof.Meet
import proofs.«114536_j36893769072873_1_alg».proof.Proof.LibPrefixSum
import proofs.«114536_j36893769072873_1_alg».proof.Proof.LibScatterTake
import proofs.«114536_j36893769072873_1_alg».proof.Proof.LibCountSelect
import proofs.«114536_j36893769072873_1_alg».proof.Proof.Int32
import proofs.«114536_j36893769072873_1_alg».proof.Proof.Shared

noncomputable section

namespace Cert.Blend.Nonzero

open Idealize.ShloMosaic Idealize.ShloMosaic.ValueIdx

variable (lr : FVec Ideal Cert.ReferenceIdeal.S8x1x512x512 .f32)

/-! ## Small general facts -/

/-- A 32-bit word below 2^31 reads the same as a signed and as an unsigned number. -/
theorem toInt_of_lt (x : BitVec 32) (h : x.toNat < 2 ^ 31) : x.toInt = (x.toNat : ℤ) :=
  BitVec.toInt_eq_toNat_of_lt (by omega)

/-- A sum over the positions v ≤ j of a vector of n entries is a sum over the naturals below j + 1. -/
theorem sum_fin_le {n : ℕ} (f : ℕ → ℕ) (j : Fin n) :
    ∑ v ∈ Finset.univ.filter (fun v : Fin n => v.val ≤ j.val), f v.val = ∑ v ∈ Finset.range (j.val + 1), f v := by
  rw [Finset.sum_filter, Fin.sum_univ_eq_sum_range (fun v => if v ≤ j.val then f v else 0) n, ← Finset.sum_filter]
  congr 1
  ext v
  simp only [Finset.mem_filter, Finset.mem_range]
  have := j.isLt
  omega

/-- The classes "prefix count = v", over any n values v, are disjoint sets of positions: their sizes add up to at
    most the number of positions. -/
theorem sum_card_cnt_fin {N : ℕ} (P : Fin N → Prop) [DecidablePred P] (n : ℕ) :
    ∑ v : Fin n, (Finset.univ.filter fun q : Fin N => Cert.Lib.CountSelect.cntOf P q.val = v.val).card ≤ N := by
  cases n with
  | zero => simp
  | succ m =>
    rw [Fin.sum_univ_eq_sum_range
        (fun v => (Finset.univ.filter fun q : Fin N => Cert.Lib.CountSelect.cntOf P q.val = v).card) (m + 1),
      Cert.Lib.CountSelect.sum_card_cnt_eq]
    exact (Finset.card_le_univ _).trans (by simp)

/-! ## The prefix counts and the number of masked pixels, as words -/

/-- The scalar that seeds both running sums is the zero word. -/
theorem zero_seed :
    broadcastInDim Cert.ReferenceIdeal.S_ ![] Cert.ReferenceIdeal.Gen.bcast_S_S_ (constantI Cert.ReferenceIdeal.S_ 32 0#32) ix0 = 0#32 := rfl

/-- The running sum of the pixel bits at pixel q is the number of masked pixels up to q. -/
theorem cs_toNat (q : Fin NPIX) : (Cert.ReferenceIdeal.St.cs (Cert.ReferenceIdeal.St.bits (F := Ideal) lr) (ix1 q)).toNat = cnt lr q.val := by
  unfold Cert.ReferenceIdeal.St.cs Cert.ReferenceIdeal.St.cumsumN
  exact LibPrefixSum.toNat_cumsum_card (n := 2097152) (lo := 2097151) (by norm_num) (by norm_num)
    (Cert.ReferenceIdeal.St.bits (F := Ideal) lr) _ _ zero_seed _ _ q

theorem cnt_le (p : ℕ) : cnt lr p ≤ 2097152 := by
  unfold cnt
  exact (Finset.card_le_univ _).trans (by simp)

theorem total_le : total lr ≤ 2097152 := by
  unfold total
  exact (Finset.card_le_univ _).trans (by simp)

theorem cs_lt (q : Fin NPIX) : (Cert.ReferenceIdeal.St.cs (Cert.ReferenceIdeal.St.bits (F := Ideal) lr) (ix1 q)).toNat < 2 ^ 31 := by
  rw [cs_toNat]; exact lt_of_le_of_lt (cnt_le lr _) (by norm_num)

/-- The sum of all the pixel bits is the number of masked pixels. -/
theorem count_toNat : (Cert.ReferenceIdeal.St.count (Cert.ReferenceIdeal.St.bits (F := Ideal) lr) ix0).toNat = total lr := by
  unfold Cert.ReferenceIdeal.St.count
  exact LibPrefixSum.toNat_reduce_card (n := 2097152) (by norm_num) (Cert.ReferenceIdeal.St.bits (F := Ideal) lr) _ _ rfl _ _

theorem count_lt : (Cert.ReferenceIdeal.St.count (Cert.ReferenceIdeal.St.bits (F := Ideal) lr) ix0).toNat < 2 ^ 31 := by
  rw [count_toNat]; exact lt_of_le_of_lt (total_le lr) (by norm_num)

/-! ## The slots' positions -/

/-- The position the counting scatter reads for pixel q is the pixel's prefix count (a count is nonnegative, so the
    clip at zero and the wrap of negative positions keep it). -/
theorem pos_toInt (q : Fin NPIX) :
    ((broadcastInDim Cert.ReferenceIdeal.S2097152x1 ![0] Cert.ReferenceIdeal.Gen.bcast_S2097152_S2097152x1_0
        (Cert.ReferenceIdeal.St.wrapP (Cert.ReferenceIdeal.St.clip0 (Cert.ReferenceIdeal.St.cs (Cert.ReferenceIdeal.St.bits (F := Ideal) lr))))) (ix2 q (0 : Fin 1))).toInt = (cnt lr q.val : ℤ) := by
  have hlt := cs_lt lr q
  have h1 := clip0_apply (Cert.ReferenceIdeal.St.cs (Cert.ReferenceIdeal.St.bits (F := Ideal) lr)) q hlt
  have h2 := wrapP_apply (Cert.ReferenceIdeal.St.clip0 (Cert.ReferenceIdeal.St.cs (Cert.ReferenceIdeal.St.bits (F := Ideal) lr))) q (by rw [h1]; exact hlt)
  rw [posCol_apply, h2, h1, toInt_of_lt _ hlt, cs_toNat]

/-- Entry v of the counting scatter is the number of pixels whose prefix count is v: every pixel adds a one at its
    prefix count, onto a zero. -/
theorem binc_toNat (v : Fin BUDGET) :
    (Cert.ReferenceIdeal.St.binc (Cert.ReferenceIdeal.St.bits (F := Ideal) lr) (ix1 v)).toNat = (Finset.univ.filter fun q : Fin NPIX => cnt lr q.val = v.val).card := by
  have hx : broadcastInDim Cert.ReferenceIdeal.S1048576 ![] Cert.ReferenceIdeal.Gen.bcast_S_S1048576 (constantI Cert.ReferenceIdeal.S_ 32 0#32) (ix1 v) = 0#32 := rfl
  have hS : ∑ q ∈ Finset.univ.filter (fun q : Fin 2097152 => ((broadcastInDim Cert.ReferenceIdeal.S2097152x1 ![0] Cert.ReferenceIdeal.Gen.bcast_S2097152_S2097152x1_0
        (Cert.ReferenceIdeal.St.wrapP (Cert.ReferenceIdeal.St.clip0 (Cert.ReferenceIdeal.St.cs (Cert.ReferenceIdeal.St.bits (F := Ideal) lr))))) (ix2 q (0 : Fin 1))).toInt = (v.val : ℤ)),
        (broadcastInDim Cert.ReferenceIdeal.S2097152 ![] Cert.ReferenceIdeal.Gen.bcast_S_S2097152 (constantI Cert.ReferenceIdeal.S_ 32 1#32) (ix1 q)).toNat
      = (Finset.univ.filter fun q : Fin NPIX => cnt lr q.val = v.val).card := by
    rw [Finset.card_eq_sum_ones]
    refine Finset.sum_congr ?_ (fun q _ => rfl)
    ext q
    simp only [Finset.mem_filter, Finset.mem_univ, true_and]
    rw [pos_toInt]
    exact Nat.cast_inj
  have hle : (Finset.univ.filter fun q : Fin NPIX => cnt lr q.val = v.val).card ≤ 2097152 :=
    (Finset.card_le_univ _).trans (by simp)
  unfold Cert.ReferenceIdeal.St.binc
  rw [LibScatterTake.toNat_scatter_addi (M := 1048576) (n := 2097152) _ rfl rfl rfl rfl _ _ _ v
    (by rw [hx, hS]; show 0 + _ < _; omega), hx, hS]
  show 0 + _ = _
  omega

/-- The counting scatter's entries add up to at most the number of pixels. -/
theorem binc_sum_lt : ∑ v : Fin 1048576, (Cert.ReferenceIdeal.St.binc (Cert.ReferenceIdeal.St.bits (F := Ideal) lr) (ix1 v)).toNat < 2 ^ 32 := by
  rw [Finset.sum_congr rfl (fun v _ => binc_toNat lr v)]
  exact lt_of_le_of_lt (sum_card_cnt_fin (Masked lr) 1048576) (by norm_num)

/-- The running sum of the counting scatter at slot j is the number of pixels whose prefix count is at most j. -/
theorem cumsumP_binc_toNat (j : Fin BUDGET) :
    (Cert.ReferenceIdeal.St.cumsumP (Cert.ReferenceIdeal.St.binc (Cert.ReferenceIdeal.St.bits (F := Ideal) lr)) (ix1 j)).toNat
      = (Finset.univ.filter fun q : Fin NPIX => cnt lr q.val ≤ j.val).card := by
  unfold Cert.ReferenceIdeal.St.cumsumP
  refine (LibPrefixSum.toNat_cumsum (n := 1048576) (lo := 1048575) (by norm_num) (Cert.ReferenceIdeal.St.binc (Cert.ReferenceIdeal.St.bits (F := Ideal) lr)) _ zero_seed _ _
    (binc_sum_lt lr) j).trans ?_
  rw [Finset.sum_congr rfl (fun v _ => binc_toNat lr v),
    sum_fin_le (fun v => (Finset.univ.filter fun q : Fin NPIX => cnt lr q.val = v).card) j]
  exact Cert.Lib.CountSelect.sum_card_cnt_eq (Masked lr) j.val

/-- A slot in use holds, as a signed number, the number of pixels whose prefix count is at most the slot: that
    number is a pixel position, so the division by one, the remainder and the wrap keep it. -/
theorem idxCol_toInt_of_lt (j : Fin BUDGET) (hj : j.val < total lr) :
    (Cert.ReferenceIdeal.St.idxCol (Cert.ReferenceIdeal.St.bits (F := Ideal) lr) (ix2 j (0 : Fin 1))).toInt
      = ((Finset.univ.filter fun q : Fin NPIX => cnt lr q.val ≤ j.val).card : ℤ) := by
  obtain ⟨p, hp, -, -⟩ := Cert.Lib.CountSelect.card_cnt_le_of_lt (Masked lr) hj
  have hc : (Finset.univ.filter fun q : Fin NPIX => cnt lr q.val ≤ j.val).card < 2097152 :=
    lt_of_eq_of_lt hp p.isLt
  have hcum := cumsumP_binc_toNat lr j
  have hcum_lt : (Cert.ReferenceIdeal.St.cumsumP (Cert.ReferenceIdeal.St.binc (Cert.ReferenceIdeal.St.bits (F := Ideal) lr)) (ix1 j)).toNat < 2 ^ 31 := by rw [hcum]; omega
  have hfd := floorDiv1_apply (Cert.ReferenceIdeal.St.cumsumP (Cert.ReferenceIdeal.St.binc (Cert.ReferenceIdeal.St.bits (F := Ideal) lr))) j hcum_lt
  have hrem := remN_toNat (Cert.ReferenceIdeal.St.floorDiv1 (Cert.ReferenceIdeal.St.cumsumP (Cert.ReferenceIdeal.St.binc (Cert.ReferenceIdeal.St.bits (F := Ideal) lr)))) j (by rw [hfd]; exact hcum_lt)
  rw [hfd, hcum, Nat.mod_eq_of_lt hc] at hrem
  have hidx := idx_apply (Cert.ReferenceIdeal.St.bits (F := Ideal) lr) j (count_lt lr)
  rw [count_toNat, if_neg (by omega)] at hidx
  have hidx_lt : (Cert.ReferenceIdeal.St.idx (Cert.ReferenceIdeal.St.bits (F := Ideal) lr) (ix1 j)).toNat < 2 ^ 31 := by rw [hidx, hrem]; omega
  rw [idxCol_apply, wrapN_apply (Cert.ReferenceIdeal.St.idx (Cert.ReferenceIdeal.St.bits (F := Ideal) lr)) j hidx_lt, toInt_of_lt _ hidx_lt, hidx, hrem]

end Cert.Blend.Nonzero

namespace Cert.Blend

open Idealize.ShloMosaic Idealize.ShloMosaic.ValueIdx

variable (lr : FVec Ideal Cert.ReferenceIdeal.S8x1x512x512 .f32)

theorem cover_eq (q : Fin NPIX) :
    (Cert.KernelIdeal.St.cover (F := Ideal) lr (ix1 q) : EReal) = if Covered lr q then (1 : EReal) else 0 := by
  have hcs : (Cert.KernelIdeal.St.cs (F := Ideal) lr (ix1 q)).toNat = cnt lr q.val := by
    rw [cs_eq]; exact Nonzero.cs_toNat lr q
  have hlt : (Cert.KernelIdeal.St.cs (F := Ideal) lr (ix1 q)).toNat < 2 ^ 31 := by
    rw [hcs]; exact lt_of_le_of_lt (Nonzero.cnt_le lr _) (by norm_num)
  rw [cover_apply lr q hlt, hcs, bits_eq]
  exact if_congr Iff.rfl rfl rfl

theorem valid_eq (j : Fin BUDGET) :
    (Cert.ReferenceIdeal.St.valid (F := Ideal) (Cert.ReferenceIdeal.St.bits (F := Ideal) lr) (ix1 j) : EReal)
      = if j.val < total lr then (1 : EReal) else 0 := by
  rw [valid_apply _ j (Nonzero.count_lt lr), Nonzero.count_toNat]

theorem idx_sel (q : Fin NPIX) (j : Fin BUDGET) :
    (j.val < total lr ∧
        (Cert.ReferenceIdeal.St.idxCol (Cert.ReferenceIdeal.St.bits (F := Ideal) lr) (ix2 j (0 : Fin 1))).toInt = (q.val : ℤ))
      ↔ (Masked lr q ∧ cnt lr q.val = j.val + 1) := by
  by_cases hj : j.val < total lr
  · rw [Nonzero.idxCol_toInt_of_lt lr j hj, Nat.cast_inj]
    exact Cert.Lib.CountSelect.sel_iff (Masked lr) j.val q
  · constructor
    · exact fun h => absurd h.1 hj
    · rintro ⟨-, h⟩
      have h' : cnt lr q.val ≤ total lr := Cert.Lib.CountSelect.cntOf_le_total (Masked lr) q.val
      omega

end Cert.Blend

end
-- ==== Proof.Bridge.lean ====
/-
  The kernel's per-pixel value is the common one: its cover flag is positive exactly on covered pixels, its operands
  give the same MLP, and the fourth feature gives lr back.
-/
import proofs.«114536_j36893769072873_1_alg».proof.Proof.Meet
import proofs.«114536_j36893769072873_1_alg».proof.Proof.Nonzero
import proofs.«114536_j36893769072873_1_alg».proof.Proof.Shared

noncomputable section

namespace Cert.Blend

open Idealize.ShloMosaic Idealize.ShloMosaic.ValueIdx

variable (img : FVec Ideal Cert.ReferenceIdeal.S8x3x512x512 .f32) (lr : FVec Ideal Cert.ReferenceIdeal.S8x1x512x512 .f32)
    (W1 : FVec Ideal Cert.ReferenceIdeal.S4x128 .f32) (b1 : FVec Ideal Cert.ReferenceIdeal.S128 .f32)
    (W2 : FVec Ideal Cert.ReferenceIdeal.S128x128 .f32) (b2 : FVec Ideal Cert.ReferenceIdeal.S128 .f32)
    (W3 : FVec Ideal Cert.ReferenceIdeal.S128x1 .f32) (b3 : FVec Ideal Cert.ReferenceIdeal.S1 .f32)

/-- On a covered pixel the kernel's cover flag is 1 and it keeps the MLP's output; elsewhere the flag is 0 and it
    keeps (lr - 0.5) / 0.5 * 0.5 + 0.5, which is lr. -/
theorem ker_pixel (hlr : IsReal lr) (q : Fin NPIX) :
    kerPixel img lr W1 b1 W2 b2 W3 b3 q = pixel img lr W1 b1 W2 b2 W3 b3 q := by
  have hc := cover_eq lr q
  unfold kerPixel pixel
  split_ifs with h1 h2 h2
  · rw [kerMlp_eq, feat_eq]
  · exfalso
    have h1' : (0 : EReal) < (Cert.KernelIdeal.St.cover (F := Ideal) lr (ix1 q) : EReal) := h1
    rw [hc, if_neg h2] at h1'
    exact lt_irrefl _ h1'
  · exfalso
    apply h1
    show (0 : EReal) < (Cert.KernelIdeal.St.cover (F := Ideal) lr (ix1 q) : EReal)
    rw [hc, if_pos h2]
    exact zero_lt_one
  · rw [feat_eq]
    exact lr_recover img lr hlr q

end Cert.Blend

end
-- ==== Proof.RefMlp.lean ====
/-
  The reference's per-slot prediction is the MLP of the slot's gathered feature row; a gathered row is the table's
  row at the slot's start index, read signed and clamped into the table; and the MLP of real features and real
  weights is a real number.
-/
import proofs.«114536_j36893769072873_1_alg».proof.Proof.Meet
import Idealize.ShloMosaic.Lib.StackMember
import Idealize.ShloMosaic.Lib.IdealHost

noncomputable section

namespace Cert.Blend.RefMlp

open Idealize.ShloMosaic Idealize.ShloMosaic.ValueIdx Cert.ReferenceIdeal

/-! ## The three matrix products, read at an entry: a sum over the contracted coordinate -/

/-- The first layer's product at (p, q): the sum over the four features. -/
theorem dot1_apply (l : FVec Ideal S1048576x4 .f32) (r : FVec Ideal S4x128 .f32) (p : Fin 1048576) (q : Fin 128) :
    Host.dotGeneral dot_S1048576x4_S4x128_S1048576x128_1_0_0_1_n_n none l r (ix2 p q)
      = ∑ k : Fin 4, l (ix2 p k) * r (ix2 k q) :=
  StackMember.dotGeneral_plain_apply (m := 1048576) (n := 128) (k := 4) none l r p q

/-- The second layer's product at (p, q): the sum over the 128 hidden units. -/
theorem dot2_apply (l : FVec Ideal S1048576x128 .f32) (r : FVec Ideal S128x128 .f32) (p : Fin 1048576) (q : Fin 128) :
    Host.dotGeneral dot_S1048576x128_S128x128_S1048576x128_1_0_0_1_n_n none l r (ix2 p q)
      = ∑ k : Fin 128, l (ix2 p k) * r (ix2 k q) :=
  StackMember.dotGeneral_plain_apply (m := 1048576) (n := 128) (k := 128) none l r p q

/-- The output layer's product at (p, q): the sum over the 128 hidden units. -/
theorem dot3_apply (l : FVec Ideal S1048576x128 .f32) (r : FVec Ideal S128x1 .f32) (p : Fin 1048576) (q : Fin 1) :
    Host.dotGeneral dot_S1048576x128_S128x1_S1048576x1_1_0_0_1_n_n none l r (ix2 p q)
      = ∑ k : Fin 128, l (ix2 p k) * r (ix2 k q) :=
  StackMember.dotGeneral_plain_apply (m := 1048576) (n := 1) (k := 128) none l r p q

/-! ## The biases, relu and the sigmoid, read at an entry -/

/-- A bias of 128 entries laid out as one row and copied down every row reads, at (p, k), the bias at k. -/
theorem bias128_apply (h1 : S1x128.BroadcastsInDim S1048576x128 (![0, 1] : Fin 2 → Fin S1048576x128.rank))
    (h2 : S128.BroadcastsInDim S1x128 (![1] : Fin 1 → Fin S1x128.rank))
    (b : FVec Ideal S128 .f32) (p : Fin 1048576) (k : Fin 128) :
    broadcastInDim S1048576x128 ![0, 1] h1 (broadcastInDim S1x128 ![1] h2 b) (ix2 p k) = b (ix1 k) := by
  rw [broadcastInDim_apply _ h1 _ (ix2 p k) (ix2 (0 : Fin 1) k) (fun a => by
        match a with
        | ⟨0, _⟩ => rfl
        | ⟨1, _⟩ => rfl),
      broadcastInDim_apply _ h2 _ (ix2 (0 : Fin 1) k) (ix1 k) (fun a => by
        match a with
        | ⟨0, _⟩ => rfl)]

/-- The one-entry bias copied down the one column reads that entry. -/
theorem bias1_apply (h1 : S1x1.BroadcastsInDim S1048576x1 (![0, 1] : Fin 2 → Fin S1048576x1.rank))
    (h2 : S1.BroadcastsInDim S1x1 (![1] : Fin 1 → Fin S1x1.rank))
    (b : FVec Ideal S1 .f32) (p : Fin 1048576) (k : Fin 1) :
    broadcastInDim S1048576x1 ![0, 1] h1 (broadcastInDim S1x1 ![1] h2 b) (ix2 p k) = b (ix1 0) := by
  rw [broadcastInDim_apply _ h1 _ (ix2 p k) (ix2 (0 : Fin 1) (0 : Fin 1)) (fun a => by
        match a with
        | ⟨0, _⟩ => rfl
        | ⟨1, _⟩ => rfl),
      broadcastInDim_apply _ h2 _ (ix2 (0 : Fin 1) (0 : Fin 1)) (ix1 (0 : Fin 1)) (fun a => by
        match a with
        | ⟨0, _⟩ => rfl)]

/-- relu is the larger of the entry and zero: the float pattern of all zero bits is the number zero. -/
theorem relu_apply (x : FVec Ideal S1048576x128 .f32) (i : S1048576x128.Idx) : St.relu (F := Ideal) x i = max (x i) 0 := by
  show max (x i) (broadcastInDim S1048576x128 ![] _ (constant S_ .f32 0x00000000#32) i) = _
  rw [broadcastInDim_scalar_apply, constant_apply, Ideal.ofBits_zero_f32]

/-- The first hidden layer at (p, k). -/
theorem h1_apply (x : FVec Ideal S1048576x4 .f32) (W1 : FVec Ideal S4x128 .f32) (b1 : FVec Ideal S128 .f32)
    (p : Fin 1048576) (k : Fin 128) :
    St.h1 (F := Ideal) x W1 b1 (ix2 p k) = max ((∑ c : Fin 4, x (ix2 p c) * W1 (ix2 c k)) + b1 (ix1 k)) 0 := by
  unfold St.h1
  rw [relu_apply, addf_apply, dot1_apply, bias128_apply]

/-- The second hidden layer at (p, k). -/
theorem h2_apply (x : FVec Ideal S1048576x128 .f32) (W2 : FVec Ideal S128x128 .f32) (b2 : FVec Ideal S128 .f32)
    (p : Fin 1048576) (k : Fin 128) :
    St.h2 (F := Ideal) x W2 b2 (ix2 p k) = max ((∑ c : Fin 128, x (ix2 p c) * W2 (ix2 c k)) + b2 (ix1 k)) 0 := by
  unfold St.h2
  rw [relu_apply, addf_apply, dot2_apply, bias128_apply]

/-- The output layer before the sigmoid, at row p. -/
theorem h3_apply (x : FVec Ideal S1048576x128 .f32) (W3 : FVec Ideal S128x1 .f32) (b3 : FVec Ideal S1 .f32)
    (p : Fin 1048576) :
    St.h3 (F := Ideal) x W3 b3 (ix2 p 0) = (∑ c : Fin 128, x (ix2 p c) * W3 (ix2 c 0)) + b3 (ix1 0) := by
  unfold St.h3
  rw [addf_apply, dot3_apply, bias1_apply]

/-- 1 / (1 + exp (-z)) is the logistic function of the entry: the float pattern 0x3F800000 is the number one, and
    the logistic function over the extended reals is that very expression. -/
theorem sigm_apply (z : FVec Ideal S1048576x1 .f32) (i : S1048576x1.Idx) :
    St.sigm (F := Ideal) z i = Ideal.logistic (z i) := by
  show Ideal.div (broadcastInDim S1048576x1 ![] _ (constant (F := Ideal) S_ .f32 0x3F800000#32) i)
      ((broadcastInDim S1048576x1 ![] _ (constant (F := Ideal) S_ .f32 0x3F800000#32) i) + Ideal.exp (-(z i))) = _
  rw [broadcastInDim_scalar_apply, constant_apply, Ideal.ofBits_one_f32]
  rfl

/-! ## Reals are closed under the MLP's operations -/

/-- A sum of two reals is a real. -/
theorem real_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb
  exact ⟨r + s, (EReal.coe_add r s).symm⟩

/-- A product of two reals is a real. -/
theorem real_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb
  exact ⟨r * s, (EReal.coe_mul r s).symm⟩

/-- The larger of a real and zero is a real. -/
theorem real_max0 {a : EReal} (ha : ∃ r : ℝ, a = (r : EReal)) : ∃ r : ℝ, max a 0 = (r : EReal) := by
  obtain ⟨r, rfl⟩ := ha
  rcases le_total (r : EReal) 0 with h | h
  · exact ⟨0, by rw [max_eq_right h, EReal.coe_zero]⟩
  · exact ⟨r, max_eq_left h⟩

/-- A finite sum of reals is a real. -/
theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by rw [Finset.sum_empty, EReal.coe_zero]⟩
  | insert a s ha ih =>
    rw [Finset.sum_insert ha]
    exact real_add (h a (Finset.mem_insert_self a s)) (ih fun i hi => h i (Finset.mem_insert_of_mem hi))

end Cert.Blend.RefMlp

namespace Cert.Blend

open Idealize.ShloMosaic Idealize.ShloMosaic.ValueIdx Cert.ReferenceIdeal Cert.Blend.RefMlp

variable (img : FVec Ideal Cert.ReferenceIdeal.S8x3x512x512 .f32) (lr : FVec Ideal Cert.ReferenceIdeal.S8x1x512x512 .f32)
    (W1 : FVec Ideal Cert.ReferenceIdeal.S4x128 .f32) (b1 : FVec Ideal Cert.ReferenceIdeal.S128 .f32)
    (W2 : FVec Ideal Cert.ReferenceIdeal.S128x128 .f32) (b2 : FVec Ideal Cert.ReferenceIdeal.S128 .f32)
    (W3 : FVec Ideal Cert.ReferenceIdeal.S128x1 .f32) (b3 : FVec Ideal Cert.ReferenceIdeal.S1 .f32)

/-- The prediction at slot j: the one-column result flattened reads the column at (j, 0), which is the logistic
    function of the output layer at row j; the layers unfold into the nested sums of the MLP of row j. -/
theorem pred_apply (ft : FVec Ideal Cert.ReferenceIdeal.S2097152x4 .f32) (ic : IVec Cert.ReferenceIdeal.S1048576x1 32) (j : Fin BUDGET) :
    (Cert.ReferenceIdeal.St.pred (F := Ideal) ft ic W1 b1 W2 b2 W3 b3 (ix1 j) : EReal)
      = mlpRow W1 b1 W2 b2 W3 b3 (fun c => Cert.ReferenceIdeal.St.rows (F := Ideal) ft ic (ix2 j c)) := by
  unfold St.pred
  rw [shapeCast_apply _ _ (ix1 j) (ix2 j (0 : Fin 1)) (by
    rw [Shape.rowMajor_val_two, Shape.rowMajor_val_one]
    show j.val * 1 + 0 = j.val
    omega)]
  rw [sigm_apply, h3_apply]
  simp only [h2_apply, h1_apply]
  rfl

/-- The gathered row of slot j: on the table's row axis (collapsed, and the one axis the start index addresses) the
    operand coordinate is the start index read signed and clamped into [0, 2097152 - 1]; on the column axis (the
    offset axis, with the whole width as slice) it is the result's column. -/
theorem rows_apply (ft : FVec Ideal Cert.ReferenceIdeal.S2097152x4 .f32) (ic : IVec Cert.ReferenceIdeal.S1048576x1 32) (j : Fin BUDGET) (c : Fin 4) :
    Cert.ReferenceIdeal.St.rows (F := Ideal) ft ic (ix2 j c)
      = ft (ix2 (⟨min (ic (ix2 j (0 : Fin 1))).toInt.toNat (2097152 - 1), by omega⟩ : Fin 2097152) c) := by
  show Host.gather gather_S2097152x4_S1048576x1_S1048576x4_1_0_n_n_0_1_14 ft ic (ix2 j c) = _
  unfold Host.gather
  congr 1
  funext a
  refine Fin.ext ?_
  match a with
  | ⟨0, _⟩ =>
    show gather_S2097152x4_S1048576x1_S1048576x4_1_0_n_n_0_1_14.start (ix2 j c) ic 0
      + gather_S2097152x4_S1048576x1_S1048576x4_1_0_n_n_0_1_14.batchCoord (ix2 j c) 0
      + gather_S2097152x4_S1048576x1_S1048576x4_1_0_n_n_0_1_14.offCoord (ix2 j c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S2097152x4_S1048576x1_S1048576x4_1_0_n_n_0_1_14.startIndexMap from List.mem_singleton.mpr rfl)]
    have hsi : gather_S2097152x4_S1048576x1_S1048576x4_1_0_n_n_0_1_14.siIdx (ix2 j c)
        ⟨List.idxOf (0 : Fin 2) gather_S2097152x4_S1048576x1_S1048576x4_1_0_n_n_0_1_14.startIndexMap,
          List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl
  | ⟨1, _⟩ =>
    show gather_S2097152x4_S1048576x1_S1048576x4_1_0_n_n_0_1_14.start (ix2 j c) ic 1
      + gather_S2097152x4_S1048576x1_S1048576x4_1_0_n_n_0_1_14.batchCoord (ix2 j c) 1
      + gather_S2097152x4_S1048576x1_S1048576x4_1_0_n_n_0_1_14.offCoord (ix2 j c) 1 = _
    rw [GatherDims.batchCoord_eq_zero _ _ _ List.not_mem_nil]
    have hs : gather_S2097152x4_S1048576x1_S1048576x4_1_0_n_n_0_1_14.start (ix2 j c) ic 1 = 0 := by
      unfold GatherDims.start
      rw [dif_neg (show (1 : Fin 2) ∉ gather_S2097152x4_S1048576x1_S1048576x4_1_0_n_n_0_1_14.startIndexMap by decide)]
    have ho : gather_S2097152x4_S1048576x1_S1048576x4_1_0_n_n_0_1_14.offCoord (ix2 j c) 1 = c.val := by
      unfold GatherDims.offCoord
      rw [dif_pos (show (1 : Fin 2) ∈ gather_S2097152x4_S1048576x1_S1048576x4_1_0_n_n_0_1_14.sKept by decide)]
      rfl
    rw [hs, ho]
    simp

/-- With real weights and a real row every layer of the MLP is real: sums of products of reals, the larger of a real
    and zero, and the logistic function of a real. -/
theorem mlpRow_real (hW1 : IsReal W1) (hb1 : IsReal b1) (hW2 : IsReal W2) (hb2 : IsReal b2) (hW3 : IsReal W3) (hb3 : IsReal b3)
    (x : Fin 4 → EReal) (hx : ∀ c, ∃ r : ℝ, x c = (r : EReal)) : ∃ r : ℝ, mlpRow W1 b1 W2 b2 W3 b3 x = (r : EReal) := by
  unfold mlpRow mlpRowG
  have h1 : ∀ k' : Fin 128, ∃ r : ℝ, max ((∑ c : Fin 4, x c * W1 (ix2 c k')) + b1 (ix1 k')) 0 = (r : EReal) := fun k' =>
    real_max0 (real_add (real_sum _ _ fun c _ => real_mul (hx c) (hW1 _)) (hb1 _))
  have h2 : ∀ k : Fin 128, ∃ r : ℝ,
      max ((∑ k' : Fin 128, max ((∑ c : Fin 4, x c * W1 (ix2 c k')) + b1 (ix1 k')) 0 * W2 (ix2 k' k)) + b2 (ix1 k)) 0
        = (r : EReal) :=
    fun k => real_max0 (real_add (real_sum _ _ fun k' _ => real_mul (h1 k') (hW2 _)) (hb2 _))
  obtain ⟨z, hz⟩ := real_add (real_sum Finset.univ
    (fun k : Fin 128 =>
      max ((∑ k' : Fin 128, max ((∑ c : Fin 4, x c * W1 (ix2 c k')) + b1 (ix1 k')) 0 * W2 (ix2 k' k)) + b2 (ix1 k)) 0
        * W3 (ix2 k 0)) fun k _ => real_mul (h2 k) (hW3 _)) (hb3 (ix1 0))
  exact ⟨_, by rw [hz]; exact Ideal.logistic_coe z⟩

end Cert.Blend

end
-- ==== Proof.RefMath.lean ====
/-
  The reference's value at a pixel.  The scatter of pred * valid adds, at pixel q, the predictions of the slots in
  use that point at q: exactly one (the MLP of q's own features) when q is covered, none otherwise; the scatter of
  valid counts them; and the blend with the 0/1 mask keeps the prediction on a covered pixel and lr elsewhere.
-/
import proofs.«114536_j36893769072873_1_alg».proof.Proof.Meet
import proofs.«114536_j36893769072873_1_alg».proof.Proof.Nonzero
import proofs.«114536_j36893769072873_1_alg».proof.Proof.Shared
import proofs.«114536_j36893769072873_1_alg».proof.Proof.RefMlp
import proofs.«114536_j36893769072873_1_alg».proof.Proof.LibScatterTake
import proofs.«114536_j36893769072873_1_alg».proof.Proof.LibCountSelect
import Idealize.ShloMosaic.Lib.IdealHost

noncomputable section

namespace Cert.Blend

open Idealize.ShloMosaic Idealize.ShloMosaic.ValueIdx
open scoped BigOperators

/-- The accumulating scatter into the zero array, read at pixel q: the sum of the slot values whose position is q. -/
theorem scat_apply (ic : IVec Cert.ReferenceIdeal.S1048576x1 32) (u : FVec Ideal Cert.ReferenceIdeal.S1048576 .f32) (q : Fin NPIX) :
    (Cert.ReferenceIdeal.St.scat (F := Ideal) ic u (ix1 q) : EReal)
      = ∑ j ∈ Finset.univ.filter (fun j : Fin BUDGET => (ic (ix2 j (0 : Fin 1))).toInt = (q.val : ℤ)), u (ix1 j) := by
  unfold Cert.ReferenceIdeal.St.scat
  rw [Idealize.ShloMosaic.LibScatterTake.scatterAdd_take _ rfl rfl rfl rfl]
  rw [broadcastInDim_scalar_apply, constant_apply, Ideal.ofBits_zero_f32, zero_add]

/-- The blend at one entry. -/
theorem blend_apply (sc cov lrf mf : FVec Ideal Cert.ReferenceIdeal.S2097152 .f32) (i : Cert.ReferenceIdeal.S2097152.Idx) :
    (Cert.ReferenceIdeal.St.blend (F := Ideal) sc cov lrf mf i : EReal)
      = (sc i + (1 - cov i) * lrf i) * mf i + lrf i * (1 - mf i) := by
  unfold Cert.ReferenceIdeal.St.blend
  rw [addf_apply, mulf_apply, addf_apply, mulf_apply, subf_apply, mulf_apply, subf_apply,
    broadcastInDim_scalar_apply, constant_apply, Ideal.ofBits_one_f32]

section Slots

variable (lr : FVec Ideal Cert.ReferenceIdeal.S8x1x512x512 .f32)

theorem cnt_eq (p : ℕ) : cnt lr p = Cert.Lib.CountSelect.cntOf (Masked lr) p := rfl
theorem total_eq : total lr = Cert.Lib.CountSelect.totalOf (Masked lr) := rfl

/-- The slot of a covered pixel: its prefix count less one. -/
def slot (q : Fin NPIX) (hc : Covered lr q) : Fin BUDGET :=
  ⟨cnt lr q.val - 1, by
    have h1 : 1 ≤ cnt lr q.val := Cert.Lib.CountSelect.cntOf_pos (Masked lr) hc.1
    have h2 : cnt lr q.val ≤ BUDGET := hc.2
    omega⟩

theorem slot_lt_total (q : Fin NPIX) (hc : Covered lr q) : (slot lr q hc).val < total lr := by
  have h1 : 1 ≤ cnt lr q.val := Cert.Lib.CountSelect.cntOf_pos (Masked lr) hc.1
  have h2 : cnt lr q.val ≤ total lr := Cert.Lib.CountSelect.cntOf_le_total (Masked lr) q.val
  show cnt lr q.val - 1 < total lr
  omega

theorem slot_points (q : Fin NPIX) (hc : Covered lr q) :
    (Cert.ReferenceIdeal.St.idxCol (Cert.ReferenceIdeal.St.bits (F := Ideal) lr) (ix2 (slot lr q hc) (0 : Fin 1))).toInt = (q.val : ℤ) := by
  have h1 : 1 ≤ cnt lr q.val := Cert.Lib.CountSelect.cntOf_pos (Masked lr) hc.1
  refine ((idx_sel lr q (slot lr q hc)).mpr ⟨hc.1, ?_⟩).2
  show cnt lr q.val = cnt lr q.val - 1 + 1
  omega

/-- A sum over the slots pointing at a covered pixel, of values that vanish on the unused slots, is the value at
    the pixel's own slot. -/
theorem sum_sel_cov (g : Fin BUDGET → EReal) (hg : ∀ j : Fin BUDGET, ¬ j.val < total lr → g j = 0) (q : Fin NPIX) (hc : Covered lr q) :
    ∑ j ∈ Finset.univ.filter (fun j : Fin BUDGET =>
        (Cert.ReferenceIdeal.St.idxCol (Cert.ReferenceIdeal.St.bits (F := Ideal) lr) (ix2 j (0 : Fin 1))).toInt = (q.val : ℤ)), g j
      = g (slot lr q hc) := by
  apply Finset.sum_eq_single (slot lr q hc)
  · intro j hj hne
    rw [Finset.mem_filter] at hj
    by_cases hjt : j.val < total lr
    · exfalso
      apply hne
      have h := (idx_sel lr q j).mp ⟨hjt, hj.2⟩
      apply Fin.ext
      show j.val = cnt lr q.val - 1
      omega
    · exact hg j hjt
  · intro hnot
    exfalso
    apply hnot
    rw [Finset.mem_filter]
    exact ⟨Finset.mem_univ _, slot_points lr q hc⟩

/-- No slot in use points at a pixel that is not covered. -/
theorem sum_sel_ncov (g : Fin BUDGET → EReal) (hg : ∀ j : Fin BUDGET, ¬ j.val < total lr → g j = 0) (q : Fin NPIX) (hc : ¬ Covered lr q) :
    ∑ j ∈ Finset.univ.filter (fun j : Fin BUDGET =>
        (Cert.ReferenceIdeal.St.idxCol (Cert.ReferenceIdeal.St.bits (F := Ideal) lr) (ix2 j (0 : Fin 1))).toInt = (q.val : ℤ)), g j
      = 0 := by
  apply Finset.sum_eq_zero
  intro j hj
  rw [Finset.mem_filter] at hj
  by_cases hjt : j.val < total lr
  · exfalso
    apply hc
    have h := (idx_sel lr q j).mp ⟨hjt, hj.2⟩
    refine ⟨h.1, ?_⟩
    have hj' : j.val < BUDGET := j.isLt
    show cnt lr q.val ≤ BUDGET
    omega
  · exact hg j hjt

end Slots

variable (img : FVec Ideal Cert.ReferenceIdeal.S8x3x512x512 .f32) (lr : FVec Ideal Cert.ReferenceIdeal.S8x1x512x512 .f32)
    (W1 : FVec Ideal Cert.ReferenceIdeal.S4x128 .f32) (b1 : FVec Ideal Cert.ReferenceIdeal.S128 .f32)
    (W2 : FVec Ideal Cert.ReferenceIdeal.S128x128 .f32) (b2 : FVec Ideal Cert.ReferenceIdeal.S128 .f32)
    (W3 : FVec Ideal Cert.ReferenceIdeal.S128x1 .f32) (b3 : FVec Ideal Cert.ReferenceIdeal.S1 .f32)

/-- The scatter of the slot flags counts the slots in use that point at q: one on a covered pixel, none elsewhere. -/
theorem sum_valid (q : Fin NPIX) :
    (Cert.ReferenceIdeal.St.scat (F := Ideal) (Cert.ReferenceIdeal.St.idxCol (Cert.ReferenceIdeal.St.bits (F := Ideal) lr))
        (Cert.ReferenceIdeal.St.valid (F := Ideal) (Cert.ReferenceIdeal.St.bits (F := Ideal) lr)) (ix1 q) : EReal)
      = if Covered lr q then 1 else 0 := by
  rw [scat_apply]
  have hg : ∀ j : Fin BUDGET, ¬ j.val < total lr →
      (Cert.ReferenceIdeal.St.valid (F := Ideal) (Cert.ReferenceIdeal.St.bits (F := Ideal) lr) (ix1 j) : EReal) = 0 := by
    intro j hj
    rw [valid_eq, if_neg hj]
  by_cases hc : Covered lr q
  · rw [if_pos hc]
    refine (sum_sel_cov lr (fun j => Cert.ReferenceIdeal.St.valid (F := Ideal) (Cert.ReferenceIdeal.St.bits (F := Ideal) lr) (ix1 j)) hg q hc).trans ?_
    show (Cert.ReferenceIdeal.St.valid (F := Ideal) (Cert.ReferenceIdeal.St.bits (F := Ideal) lr) (ix1 (slot lr q hc)) : EReal) = 1
    rw [valid_eq, if_pos (slot_lt_total lr q hc)]
  · rw [if_neg hc]
    exact sum_sel_ncov lr (fun j => Cert.ReferenceIdeal.St.valid (F := Ideal) (Cert.ReferenceIdeal.St.bits (F := Ideal) lr) (ix1 j)) hg q hc

/-- The scatter of prediction times flag: on a covered pixel the MLP of the pixel's own features, else nothing. -/
theorem sum_pred_valid (q : Fin NPIX) :
    (Cert.ReferenceIdeal.St.scat (F := Ideal) (Cert.ReferenceIdeal.St.idxCol (Cert.ReferenceIdeal.St.bits (F := Ideal) lr))
        (mulf (Cert.ReferenceIdeal.St.pred (F := Ideal) (Cert.ReferenceIdeal.St.feat (F := Ideal) img lr)
            (Cert.ReferenceIdeal.St.idxCol (Cert.ReferenceIdeal.St.bits (F := Ideal) lr)) W1 b1 W2 b2 W3 b3)
          (Cert.ReferenceIdeal.St.valid (F := Ideal) (Cert.ReferenceIdeal.St.bits (F := Ideal) lr))) (ix1 q) : EReal)
      = if Covered lr q then mlpRow W1 b1 W2 b2 W3 b3 (fun c => Cert.ReferenceIdeal.St.feat (F := Ideal) img lr (ix2 q c)) else 0 := by
  rw [scat_apply]
  have hg : ∀ j : Fin BUDGET, ¬ j.val < total lr →
      (mulf (Cert.ReferenceIdeal.St.pred (F := Ideal) (Cert.ReferenceIdeal.St.feat (F := Ideal) img lr)
            (Cert.ReferenceIdeal.St.idxCol (Cert.ReferenceIdeal.St.bits (F := Ideal) lr)) W1 b1 W2 b2 W3 b3)
          (Cert.ReferenceIdeal.St.valid (F := Ideal) (Cert.ReferenceIdeal.St.bits (F := Ideal) lr)) (ix1 j) : EReal) = 0 := by
    intro j hj
    rw [mulf_apply, valid_eq, if_neg hj, mul_zero]
  by_cases hc : Covered lr q
  · rw [if_pos hc]
    refine (sum_sel_cov lr (fun j => mulf (Cert.ReferenceIdeal.St.pred (F := Ideal) (Cert.ReferenceIdeal.St.feat (F := Ideal) img lr)
            (Cert.ReferenceIdeal.St.idxCol (Cert.ReferenceIdeal.St.bits (F := Ideal) lr)) W1 b1 W2 b2 W3 b3)
          (Cert.ReferenceIdeal.St.valid (F := Ideal) (Cert.ReferenceIdeal.St.bits (F := Ideal) lr)) (ix1 j)) hg q hc).trans ?_
    show (mulf (Cert.ReferenceIdeal.St.pred (F := Ideal) (Cert.ReferenceIdeal.St.feat (F := Ideal) img lr)
            (Cert.ReferenceIdeal.St.idxCol (Cert.ReferenceIdeal.St.bits (F := Ideal) lr)) W1 b1 W2 b2 W3 b3)
          (Cert.ReferenceIdeal.St.valid (F := Ideal) (Cert.ReferenceIdeal.St.bits (F := Ideal) lr)) (ix1 (slot lr q hc)) : EReal) = _
    rw [mulf_apply, valid_eq, if_pos (slot_lt_total lr q hc), mul_one, pred_apply]
    refine congrArg (mlpRow W1 b1 W2 b2 W3 b3) (funext fun c => ?_)
    rw [rows_apply]
    refine congrArg (fun a : Fin 2097152 => Cert.ReferenceIdeal.St.feat (F := Ideal) img lr (ix2 a c)) (Fin.ext ?_)
    show min (Cert.ReferenceIdeal.St.idxCol (Cert.ReferenceIdeal.St.bits (F := Ideal) lr) (ix2 (slot lr q hc) (0 : Fin 1))).toInt.toNat (2097152 - 1) = q.val
    rw [slot_points lr q hc, Int.toNat_natCast]
    have hq : q.val < 2097152 := q.isLt
    omega
  · rw [if_neg hc]
    exact sum_sel_ncov lr (fun j => mulf (Cert.ReferenceIdeal.St.pred (F := Ideal) (Cert.ReferenceIdeal.St.feat (F := Ideal) img lr)
            (Cert.ReferenceIdeal.St.idxCol (Cert.ReferenceIdeal.St.bits (F := Ideal) lr)) W1 b1 W2 b2 W3 b3)
          (Cert.ReferenceIdeal.St.valid (F := Ideal) (Cert.ReferenceIdeal.St.bits (F := Ideal) lr)) (ix1 j)) hg q hc

/-- One less one is zero in the extended reals. -/
theorem one_sub_one : (1 : EReal) - 1 = 0 := by
  have h : ((1 : ℝ) : EReal) - ((1 : ℝ) : EReal) = (((1 : ℝ) - 1 : ℝ) : EReal) := (EReal.coe_sub 1 1).symm
  rw [sub_self, EReal.coe_zero, EReal.coe_one] at h
  exact h

/-- The blend with a 0/1 mask: the scattered prediction on a covered pixel, lr elsewhere. -/
theorem blend_cases (v l m : EReal) (c : Prop) [Decidable c] (hm : m = 0 ∨ m = 1) (hcm : c → m = 1) :
    ((if c then v else 0) + (1 - (if c then (1 : EReal) else 0)) * l) * m + l * (1 - m) = if c then v else l := by
  by_cases hc : c
  · rw [if_pos hc, if_pos hc, if_pos hc, hcm hc, one_sub_one, zero_mul, add_zero, mul_one, mul_zero, add_zero]
  · rw [if_neg hc, if_neg hc, if_neg hc, sub_zero, one_mul, zero_add]
    rcases hm with hm | hm
    · rw [hm, mul_zero, zero_add, sub_zero, mul_one]
    · rw [hm, mul_one, one_sub_one, mul_zero, add_zero]

theorem ref_pixel (himg : IsReal img) (hlr : IsReal lr) (hW1 : IsReal W1) (hb1 : IsReal b1) (hW2 : IsReal W2) (hb2 : IsReal b2) (hW3 : IsReal W3) (hb3 : IsReal b3) (q : Fin NPIX) :
    (Cert.ReferenceIdeal.St.outFlat (F := Ideal) img lr W1 b1 W2 b2 W3 b3 (ix1 q) : EReal) = pixel img lr W1 b1 W2 b2 W3 b3 q := by
  unfold Cert.ReferenceIdeal.St.outFlat
  rw [blend_apply, sum_pred_valid, sum_valid]
  unfold pixel
  exact blend_cases _ _ _ (Covered lr q) (mflat_01 lr q) (fun hc => (masked_iff lr q).mp hc.1)

end Cert.Blend

end
-- ==== Proof.Result.lean ====
/-
  The two results are one array: both programs lay the same per-pixel value out as the [8, 1, 512, 512] result.
-/
import proofs.«114536_j36893769072873_1_alg».proof.Proof.Meet
import proofs.«114536_j36893769072873_1_alg».proof.Proof.Shared
import proofs.«114536_j36893769072873_1_alg».proof.Proof.Bridge
import proofs.«114536_j36893769072873_1_alg».proof.Proof.RefMath

noncomputable section

namespace Cert.Blend

open Idealize.ShloMosaic Idealize.ShloMosaic.ValueIdx

variable (img : FVec Ideal Cert.ReferenceIdeal.S8x3x512x512 .f32) (lr : FVec Ideal Cert.ReferenceIdeal.S8x1x512x512 .f32)
    (W1 : FVec Ideal Cert.ReferenceIdeal.S4x128 .f32) (b1 : FVec Ideal Cert.ReferenceIdeal.S128 .f32)
    (W2 : FVec Ideal Cert.ReferenceIdeal.S128x128 .f32) (b2 : FVec Ideal Cert.ReferenceIdeal.S128 .f32)
    (W3 : FVec Ideal Cert.ReferenceIdeal.S128x1 .f32) (b3 : FVec Ideal Cert.ReferenceIdeal.S1 .f32)

/-- The reference's result is the kernel's: per pixel both are the MLP's output on a covered pixel and lr elsewhere, and
    the two final reshapes place pixel q at the same position. -/
theorem result_eq (himg : IsReal img) (hlr : IsReal lr) (hW1 : IsReal W1) (hb1 : IsReal b1) (hW2 : IsReal W2) (hb2 : IsReal b2) (hW3 : IsReal W3) (hb3 : IsReal b3) :
    Cert.ReferenceIdeal.St.out (F := Ideal) img lr W1 b1 W2 b2 W3 b3
      = Cert.KernelIdeal.St.outOf (F := Ideal)
          (fun y : Cert.KernelIdeal.S2097152x1.Idx => kerPixel img lr W1 b1 W2 b2 W3 b3 (y 0)) := by
  have hk : (fun y : Cert.KernelIdeal.S2097152x1.Idx => kerPixel img lr W1 b1 W2 b2 W3 b3 (y 0))
      = (fun y : Cert.KernelIdeal.S2097152x1.Idx => pixel img lr W1 b1 W2 b2 W3 b3 (y 0)) :=
    funext fun y => ker_pixel img lr W1 b1 W2 b2 W3 b3 hlr (y 0)
  rw [hk, outOf_col (pixel img lr W1 b1 W2 b2 W3 b3)]
  have hr : Cert.ReferenceIdeal.St.outFlat (F := Ideal) img lr W1 b1 W2 b2 W3 b3
      = (fun y : Cert.ReferenceIdeal.S2097152.Idx => pixel img lr W1 b1 W2 b2 W3 b3 (y 0)) := by
    funext y
    conv_lhs => rw [eq_ix1 y]
    exact ref_pixel img lr W1 b1 W2 b2 W3 b3 himg hlr hW1 hb1 hW2 hb2 hW3 hb3 (y 0)
  unfold Cert.ReferenceIdeal.St.out
  rw [hr]

end Cert.Blend

end
-- ==== Proof.lean ====
/-
  The certificate of the sparse-matting blend: a dense per-pixel MLP under a cover mask (the kernel) against
  gather -> per-row MLP -> scatter-add -> blend (the reference), equal over the extended reals at finite inputs.

  Both programs dilate the indicator of 0.01 < lr < 0.99 into a 0/1 mask and build the channels-last feature table
  (image, (lr - 0.5) / 0.5).  The reference lists the positions of the first 1048576 masked pixels
  (cumsum, bincount, cumsum: slot j holds the (j+1)-th masked pixel), gathers their feature rows, runs the MLP,
  scatters the predictions back and blends with the mask; a covered pixel (masked, among the first 1048576 masked
  ones) receives exactly one prediction, the MLP of its own row, and every other pixel keeps lr.  The kernel marks the
  covered pixels directly (mask > 0 and prefix count <= 1048576), runs the MLP on every row in blocks of 8192, and
  keeps the prediction on covered rows and ((lr - 0.5) / 0.5) * 0.5 + 0.5 = lr elsewhere.  At the ideal instance the
  bf16 casts are the identity, the matrix unit's product into a zero accumulator is the host's contraction, and
  tpu.logistic is 1 / (1 + exp (-x)).
-/
import proofs.«114536_j36893769072873_1_alg».proof.Defs
import proofs.«114536_j36893769072873_1_alg».proof.Proof.Gen.Kernel
import proofs.«114536_j36893769072873_1_alg».proof.Proof.Gen.Kernel.Frame
import proofs.«114536_j36893769072873_1_alg».proof.Proof.Gen.KernelIdeal
import proofs.«114536_j36893769072873_1_alg».proof.Proof.Gen.KernelIdeal.Frame
import proofs.«114536_j36893769072873_1_alg».proof.Proof.Gen.ReferenceIdeal
import proofs.«114536_j36893769072873_1_alg».proof.Proof.Gen.Pre_finite_inputs
import proofs.«114536_j36893769072873_1_alg».proof.Proof.KerValue
import proofs.«114536_j36893769072873_1_alg».proof.Proof.RefRun
import proofs.«114536_j36893769072873_1_alg».proof.Proof.Finite
import proofs.«114536_j36893769072873_1_alg».proof.Proof.Result
import Idealize.ShloMosaic.Adequacy
import Idealize.ShloMosaic.Init

noncomputable section

namespace Cert.Proof

open Idealize.ShloMosaic Idealize.SL.Sem

/-- The kernel at the word level runs and keeps its arguments: the class A frame. -/
theorem frame_k : Cert.frame_Kernel := fun m ρ _ => Cert.Kernel.Gen.frame m ρ

/-- The same at the ideal instance. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Hand.run m ρ)

/-- The ideal pass rewrote nothing. -/
theorem preserves : Cert.preserves_Kernel_KernelIdeal := trivial

/-- From memories agreeing on finite arguments both programs end with the per-pixel value laid out as the result:
    the kernel's run names it, the reference's run ends at its stages' term, and the two are one array. -/
theorem algebraic : Cert.algebraic_KernelIdeal_ReferenceIdeal := by
  intro m ρ m' ρ' hpre hagree
  refine ⟨fun c => Cert.KernelIdeal.St.outOf (F := Ideal) (fun y : Cert.KernelIdeal.S2097152x1.Idx =>
      Cert.Blend.kerPixel (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) (y 0)),
    Cert.KernelIdeal.Hand.run m ρ, ?_⟩
  refine (θ_run Cert.ReferenceIdeal.defs _ _).mono (fun _ h c => ⟨(h c).1.trans ?_, (h c).2⟩)
    (Cert.ReferenceIdeal.Hand.run m' ρ')
  obtain ⟨h0, h1, h2, h3, h4, h5, h6, h7⟩ := hagree c
  obtain ⟨r0, r1, r2, r3, r4, r5, r6, r7⟩ := Cert.Blend.real_of_pre m hpre c
  rw [h0, h1, h2, h3, h4, h5, h6, h7]
  exact Cert.Blend.result_eq _ _ _ _ _ _ _ _ r0 r1 r2 r3 r4 r5 r6 r7

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
